-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x3 : Shape := ⟨2, ![12288, 3]⟩
abbrev S_ : Shape := ⟨0, ![]⟩

class Facts : Prop where
  bcast_S_S12288x3 : S_.BroadcastsInDim S12288x3 (![] : Fin 0 → Fin S12288x3.rank)
  reducesTo_S12288x3_S_d0_1 : S12288x3.ReducesTo [0, 1] S_
  h_S_ : 0 < S_.numel

variable [Facts]

def fn {F : FTy → Type} [FloatOps F] (main_arg0 : FVec F S12288x3 .f32) (main_arg1 : FVec F S12288x3 .f32) : IVec S_ 1 :=
  let main_v0 : FVec F S12288x3 .f32 := Host.absf main_arg0
  let main_cst : FVec F S_ .f32 := constant S_ .f32 0x7F800000#32
  let main_v1 : FVec F S12288x3 .f32 := broadcastInDim S12288x3 ![] bcast_S_S12288x3 main_cst
  let main_v2 : IVec S12288x3 1 := cmpf .olt main_v0 main_v1
  let main_c : IVec S_ 1 := constantI S_ 1 1#1
  let main_v3 : IVec S_ 1 := (fun x v => Host.reduce IntOp.andi x v reducesTo_S12288x3_S_d0_1 h_S_) main_v2 main_c
  let main_v4 : FVec F S12288x3 .f32 := Host.absf main_arg1
  let main_cst_0 : FVec F S_ .f32 := constant S_ .f32 0x7F800000#32
  let main_v5 : FVec F S12288x3 .f32 := broadcastInDim S12288x3 ![] bcast_S_S12288x3 main_cst_0
  let main_v6 : IVec S12288x3 1 := cmpf .olt main_v4 main_v5
  let main_c_1 : IVec S_ 1 := constantI S_ 1 1#1
  let main_v7 : IVec S_ 1 := (fun x v => Host.reduce IntOp.andi x v reducesTo_S12288x3_S_d0_1 h_S_) main_v6 main_c_1
  let main_v8 : IVec S_ 1 := andi main_v3 main_v7
  main_v8
-- ==== Kernel.lean ====
abbrev S12288x3 : Shape := ⟨2, ![12288, 3]⟩
abbrev S3x12288 : Shape := ⟨2, ![3, 12288]⟩
abbrev S1x12288 : Shape := ⟨2, ![1, 12288]⟩
abbrev S3x1024 : Shape := ⟨2, ![3, 1024]⟩
abbrev S1024x3 : Shape := ⟨2, ![1024, 3]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩
abbrev S12288 : Shape := ⟨1, ![12288]⟩
abbrev S_ : Shape := ⟨0, ![]⟩

abbrev nBuf : Space → Nat
  | .hbm => 17
  | .vmem => 14
  | .smem => 0
  | _ => 0

abbrev bufTy : (tb : Table) → Fin (tcTables nBuf tb) → BufTy
  | .hbm, ⟨0, _⟩ => ⟨S12288x3, .f32⟩
  | .hbm, ⟨1, _⟩ => ⟨S12288x3, .f32⟩
  | .hbm, ⟨2, _⟩ => ⟨S3x12288, .f32⟩
  | .hbm, ⟨3, _⟩ => ⟨S3x12288, .f32⟩
  | .hbm, ⟨4, _⟩ => ⟨S1x12288, .f32⟩
  | .hbm, ⟨5, _⟩ => ⟨S12288, .f32⟩
  | .hbm, ⟨6, _⟩ => ⟨S1x12288, .f32⟩
  | .hbm, ⟨7, _⟩ => ⟨S12288, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S3x1024, .f32⟩
  | .local _ .vmem, ⟨1, _⟩ => ⟨S3x1024, .f32⟩
  | .local _ .vmem, ⟨2, _⟩ => ⟨S1024x3, .f32⟩
  | .local _ .vmem, ⟨3, _⟩ => ⟨S1024x3, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S3x1024, .f32⟩
  | .local _ .vmem, ⟨8, _⟩ => ⟨S3x1024, .f32⟩
  | .local _ .vmem, ⟨9, _⟩ => ⟨S1024x3, .f32⟩
  | .local _ .vmem, ⟨10, _⟩ => ⟨S1024x3, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S12288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![12, 12], ![false, false]⟩

def k0_cond2 (i : grid0.Coords) : BitVec 1 :=
  let arg1 : BitVec 32 := BitVec.ofNat 32 (i 1).val
  let c11_i32 : BitVec 32 := 11#32
  let v36 : BitVec 1 := Scalar.cmpi .eq arg1 c11_i32
  let v37 : BitVec 32 := Scalar.extui v36
  let c0_i32_9 : BitVec 32 := 0#32
  let v38 : BitVec 1 := Scalar.cmpi .ne v37 c0_i32_9
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![12, 12], ![false, false]⟩

def k1_cond2 (i : grid1.Coords) : BitVec 1 :=
  let arg1 : BitVec 32 := BitVec.ofNat 32 (i 1).val
  let c11_i32 : BitVec 32 := 11#32
  let v36 : BitVec 1 := Scalar.cmpi .eq arg1 c11_i32
  let v37 : BitVec 32 := Scalar.extui v36
  let c0_i32_9 : BitVec 32 := 0#32
  let v38 : BitVec 1 := Scalar.cmpi .ne v37 c0_i32_9
  v38

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S3x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S12288x3_S3x12288_1_0 : S12288x3.Transposes [1, 0] S3x12288
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S1024x3_S1024x3_0_0 : ∀ a, (![0, 0] : Fin 2 → Nat) a + S1024x3.size a ≤ S1024x3.size a
  h_S1024x3 : 0 < S1024x3.numel
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [0] S1024
  shapeCasts_S1024_S1x1024 : S1024.ShapeCasts S1x1024
  shapeCasts_S1x12288_S12288 : S1x12288.ShapeCasts S12288
  reducesTo_S12288_S_d0 : S12288.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1024.size a ≤ S3x12288.size a
  hwx0_0 : ∀ i : grid0.Coords, EltTy.bits .f32 = 32 ∨ (Rect.block (s := S3x12288) S3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S12288x3.size a
  hwx0_1 : ∀ i : grid0.Coords, EltTy.bits .f32 = 32 ∨ (Rect.block (s := S12288x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x12288.size a
  hwx0_2 : ∀ i : grid0.Coords, EltTy.bits .f32 = 32 ∨ (Rect.block (s := S1x12288) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x1024.size a ≤ S3x12288.size a
  hwx1_0 : ∀ i : grid1.Coords, EltTy.bits .f32 = 32 ∨ (Rect.block (s := S3x12288) S3x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S12288x3.size a
  hwx1_1 : ∀ i : grid1.Coords, EltTy.bits .f32 = 32 ∨ (Rect.block (s := S12288x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x12288.size a
  hwx1_2 : ∀ i : grid1.Coords, EltTy.bits .f32 = 32 ∨ (Rect.block (s := S1x12288) S1x1024.size (cc1_transform_2 i) (hinb1_2 i)).WholeWords (EltTy.packing .f32)

variable [Facts₀]

abbrev win0_0 : Pipeline.Window sig grid0 :=
  Pipeline.Window.ofSpec (Memref.whole main_v0) S3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S3x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S12288x3 : Shape := ⟨2, ![12288, 3]⟩
abbrev S_ : Shape := ⟨0, ![]⟩
abbrev S12288 : Shape := ⟨1, ![12288]⟩
abbrev S12288x1 : Shape := ⟨2, ![12288, 1]⟩
abbrev S1x12288 : Shape := ⟨2, ![1, 12288]⟩
abbrev S12288x12288 : Shape := ⟨2, ![12288, 12288]⟩
abbrev S3x12288 : Shape := ⟨2, ![3, 12288]⟩

abbrev nBuf : Space → Nat
  | .hbm => 36
  | .vmem => 0
  | .smem => 0
  | _ => 0

abbrev bufTy : (tb : Table) → Fin (tcTables nBuf tb) → BufTy
  | .hbm, ⟨0, _⟩ => ⟨S12288x3, .f32⟩
  | .hbm, ⟨1, _⟩ => ⟨S12288x3, .f32⟩
  | .hbm, ⟨2, _⟩ => ⟨S12288x3, .f32⟩
  | .hbm, ⟨3, _⟩ => ⟨S_, .f32⟩
  | .hbm, ⟨4, _⟩ => ⟨S12288, .f32⟩
  | .hbm, ⟨5, _⟩ => ⟨S12288x1, .f32⟩
  | .hbm, ⟨6, _⟩ => ⟨S12288x3, .f32⟩
  | .hbm, ⟨7, _⟩ => ⟨S_, .f32⟩
  | .hbm, ⟨8, _⟩ => ⟨S12288, .f32⟩
  | .hbm, ⟨9, _⟩ => ⟨S1x12288, .f32⟩
  | .hbm, ⟨10, _⟩ => ⟨S12288x12288, .f32⟩
  | .hbm, ⟨11, _⟩ => ⟨S12288x12288, .f32⟩
  | .hbm, ⟨12, _⟩ => ⟨S12288x12288, .f32⟩
  | .hbm, ⟨13, _⟩ => ⟨S3x12288, .f32⟩
  | .hbm, ⟨14, _⟩ => ⟨S12288x12288, .f32⟩
  | .hbm, ⟨15, _⟩ => ⟨S_, .f32⟩
  | .hbm, ⟨16, _⟩ => ⟨S12288x12288, .f32⟩
  | .hbm, ⟨17, _⟩ => ⟨S12288x12288, .f32⟩
  | .hbm, ⟨18, _⟩ => ⟨S12288x12288, .f32⟩
  | .hbm, ⟨19, _⟩ => ⟨S_, .f32⟩
  | .hbm, ⟨20, _⟩ => ⟨S12288x12288, .f32⟩
  | .hbm, ⟨21, _⟩ => ⟨S12288x12288, .f32⟩
  | .hbm, ⟨22, _⟩ => ⟨S12288x12288, .f32⟩
  | .hbm, ⟨23, _⟩ => ⟨S_, .f32⟩
  | .hbm, ⟨24, _⟩ => ⟨S12288, .f32⟩
  | .hbm, ⟨25, _⟩ => ⟨S_, .f32⟩
  | .hbm, ⟨26, _⟩ => ⟨S12288, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S12288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S12288x3_S12288_d1 : S12288x3.ReducesTo [1] S12288
  h_S_ : 0 < S_.numel
  bcast_S12288_S12288x1_0 : S12288.BroadcastsInDim S12288x1 (![0] : Fin 1 → Fin S12288x1.rank)
  bcast_S12288_S1x12288_1 : S12288.BroadcastsInDim S1x12288 (![1] : Fin 1 → Fin S1x12288.rank)
  bcast_S12288x1_S12288x12288_0_1 : S12288x1.BroadcastsInDim S12288x12288 (![0, 1] : Fin 2 → Fin S12288x12288.rank)
  bcast_S1x12288_S12288x12288_0_1 : S1x12288.BroadcastsInDim S12288x12288 (![0, 1] : Fin 2 → Fin S12288x12288.rank)
  transposes_S12288x3_S3x12288_1_0 : S12288x3.Transposes [1, 0] S3x12288
  bcast_S_S12288x12288 : S_.BroadcastsInDim S12288x12288 (![] : Fin 0 → Fin S12288x12288.rank)
  reducesTo_S12288x12288_S12288_d1 : S12288x12288.ReducesTo [1] S12288
  reducesTo_S12288x12288_S12288_d0 : S12288x12288.ReducesTo [0] S12288
  reducesTo_S12288_S_d0 : S12288.ReducesTo [0] S_
  dot_S12288x3_S3x12288_S12288x12288_1_0_0_1_n_n_wf : DotDims.WF S12288x3 S3x12288 S12288x12288 [1] [0] [0] [1] [] []

variable [Facts₀]

def dot_S12288x3_S3x12288_S12288x12288_1_0_0_1_n_n : DotDims S12288x3 S3x12288 S12288x12288 where
  lhsContracting := [1]
  rhsContracting := [0]
  lhsNonContracting := [0]
  rhsNonContracting := [1]
  lhsBatch := []
  rhsBatch := []
  wf := dot_S12288x3_S3x12288_S12288x12288_1_0_0_1_n_n_wf

class Facts : Prop extends Facts₀ where

variable [Facts]
-- ==== Proof.K.R0.Shared.lean ====
/-
  One nearest-neighbour call of the program (queries: the columns of window 0's array, tile p of 1024; candidates: the
  rows of window 1's array, tile r of 1024; grid 12 × 12, point t = 12·p + r): what its body's three shapes of run share.

  The body branches twice on the candidate-tile coordinate r alone: at r = 0 it resets the running minimum kept in
  the scratch row to +∞; at r = 11 it copies the scratch row to the output block. So a point is of one of three
  kinds: first (r = 0), middle (0 < r < 11), last (r = 11). Both conditions are decided over the 144 points in closed
  form; the output window is idle (stored nothing, not written back) at first and middle points and live at last ones.

  The region's invariant between points is the class invariant with this call's own scratch row split out of the
  core's other scoped buffers, which no point of this call touches.
-/
import proofs.«109253_j35192962023870_1_alg».proof.Proof.Gen.Kernel.Launch
import proofs.«109253_j35192962023870_1_alg».proof.Proof.Gen.Kernel.Skeleton
import proofs.«109253_j35192962023870_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, over the grid -/

/-- "This is the first candidate tile": the body's first branch condition, as its scalar chain computes it. -/
abbrev isFirst (i : grid0.Coords) : Prop :=
  (Scalar.cmpi .ne (Scalar.extui (Scalar.cmpi .eq (BitVec.ofNat 32 (i 1).val) 0#32)) 0#32) = 1#1
/-- It holds exactly at the points 12·p + 0. -/
theorem isFirst_iff : ∀ t : Fin cfg0.N, isFirst (grid0.coords t) ↔ t.val % 12 = 0 :=
  (by decide +kernel : ∀ t : Fin grid0.N, isFirst (grid0.coords t) ↔ t.val % 12 = 0)

/-- "This is the last candidate tile": the body's second branch condition. -/
abbrev isLast (i : grid0.Coords) : Prop := k0_cond2 i = 1#1
/-- It holds exactly at the points 12·p + 11. -/
theorem isLast_iff : ∀ t : Fin cfg0.N, isLast (grid0.coords t) ↔ t.val % 12 = 11 :=
  (by decide +kernel : ∀ t : Fin grid0.N, isLast (grid0.coords t) ↔ t.val % 12 = 11)

/-! ## Where the windows are idle -/

theorem live_q : ∀ t : Fin cfg0.N, cfg0.idle 0 (grid0.coords t) = false := by decide +kernel
theorem live_r : ∀ t : Fin cfg0.N, cfg0.idle 1 (grid0.coords t) = false := by decide +kernel
/-- Before the last candidate tile the output block is neither stored into nor written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At the last candidate tile it is stored into. -/
theorem live_out : ∀ t : Fin cfg0.N, isLast (grid0.coords t) → cfg0.idle 2 (grid0.coords t) = false := by decide +kernel

/-! ## The memrefs the body is called with -/

abbrev mq (t : Fin cfg0.N) : Memref sig .tc .vmem S3x1024 .f32 := win0_0.stage (cfg0.slots t 0)
abbrev hmq (t : Fin cfg0.N) : (mq t).IsWhole := hstage0_0 ((cfg0.slots t 0).cast nbuf0_0)
abbrev mr (t : Fin cfg0.N) : Memref sig .tc .vmem S1024x3 .f32 := win0_1.stage (cfg0.slots t 1)
abbrev hmr (t : Fin cfg0.N) : (mr t).IsWhole := hstage0_1 ((cfg0.slots t 1).cast nbuf0_1)
abbrev mo (t : Fin cfg0.N) : Memref sig .tc .vmem S1x1024 .f32 := win0_2.stage (cfg0.slots t 2)
abbrev hmo (t : Fin cfg0.N) : (mo t).IsWhole := hstage0_2 ((cfg0.slots t 2).cast nbuf0_2)
/-- The scratch row holding the running minimum. -/
abbrev msc : Memref sig .tc .vmem S1x1024 .f32 := Memref.whole cc0_scratch0
/-- One view of a row buffer, through which contents are stated (which buffer does not matter once covered). -/
abbrev vrow : View sig .tc .vmem S1x1024 .f32 := msc.view

/-! ## The class invariant with the scratch row split out -/

/-- The core's scoped buffers other than this call's staging buffers and scratch row, each at some contents. -/
abbrev others (c : Dev nD) : sProp 𝕄 :=
  Pipeline.scopedRestBut (Ix := Unit) (Name := ℕ) (U := UR sig nD τ) (Lvl := ℕ) (Val := Elt F) spec0 c [cc0_scratch0]

theorem PhiA_split (c : Dev nD) :
    (Pipeline.ΦA spec0 c : sProp 𝕄)
      = iprop(((∃ d, owns (c : Thread nD τ) msc fullShare d) ∗ others (F := F) c) ∗ (∃ r, prngReg c r)) := by
  unfold Pipeline.ΦA
  rw [Pipeline.scopedRest_split_of_list spec0 c [cc0_scratch0] (by decide) (by decide)]
  simp only [bigSepL, msc, owns_whole]
  try rfl

end Cert.Kernel.Rg0

end
-- ==== Proof.K.R0.RunFirst.lean ====
/-
  The body of this nearest-neighbour call run at a first candidate tile (the scratch row is reset, the output block is left alone): the printed function is its skeleton of loads and
  stores over named payloads, which the symbolic executor walks with both branches decided by the point's kind; the
  pieces each buffer is left with are found by that run and are this definition's witness.
-/
import proofs.«109253_j35192962023870_1_alg».proof.Proof.K.R0.Shared

set_option maxRecDepth 16384

noncomputable section

namespace Cert.Kernel.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a first point: the query and candidate blocks stay, the output buffer is handed back as found, and the scratch
    row, whatever it held, ends written with the found pieces. -/
noncomputable def runFirst (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) :
    { LS : List (View.Piece (Elt F) S1x1024 .f32) //
      ∀ (xo : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, fun xo E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Rg0

end
-- ==== Proof.K.R0.RunMiddle.lean ====
/-
  The body of this nearest-neighbour call run at a middle candidate tile (the running minimum is updated, the output block is left alone): the printed function is its skeleton of loads and
  stores over named payloads, which the symbolic executor walks with both branches decided by the point's kind; the
  pieces each buffer is left with are found by that run and are this definition's witness.
-/
import proofs.«109253_j35192962023870_1_alg».proof.Proof.K.R0.RunFirst

set_option maxRecDepth 16384

noncomputable section

namespace Cert.Kernel.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a middle point: as at a first point, but the scratch row comes in at the contents the point before left. -/
noncomputable def runMiddle (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) :
    { LS : List (View.Piece (Elt F) S1x1024 .f32) //
      ∀ (xo : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, fun xo E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Rg0

end
-- ==== Proof.K.R0.RunLast.lean ====
/-
  The body of this nearest-neighbour call run at a last candidate tile (the running minimum is updated and copied to the output block): the printed function is its skeleton of loads and
  stores over named payloads, which the symbolic executor walks with both branches decided by the point's kind; the
  pieces each buffer is left with are found by that run and are this definition's witness.
-/
import proofs.«109253_j35192962023870_1_alg».proof.Proof.K.R0.RunMiddle

set_option maxRecDepth 16384

noncomputable section

namespace Cert.Kernel.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a last point: the output buffer, whatever it held, ends written with its found pieces, the scratch row with its. -/
noncomputable def runLast (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) :
    Σ' (LO : List (View.Piece (Elt F) S1x1024 .f32)), { LS : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Rg0

end
-- ==== Proof.K.R0.Frame.lean ====
/-
  This nearest-neighbour call as a pipeline region: what its buffers hold point by point, and that its body keeps
  that account.

  Point t = 12·p + r works on query tile p (block `iblk · 0 t`, 3 × 1024) and candidate tile r (block `iblk · 1 t`,
  1024 × 3). The scratch row after point t is `scAt t`: the body's found pieces read back — at a first point over
  nothing (the row is reset there), otherwise over what the point before left. The output block is stored at the last
  candidate tile only, with the scratch row's contents of that point (`outAt`); at every other point the window is
  idle and its buffer goes back untouched. The invariant between points is the class invariant before the first point
  and afterwards the same with the scratch row at `scAt` of the point just done. Proved here: each input's buffer holds
  its block at every point; the body obligation at every point (by the kind of the point, each kind its run); the class
  invariant leads into the first point and comes back after the last.
-/
import proofs.«109253_j35192962023870_1_alg».proof.Proof.K.R0.RunLast

set_option maxRecDepth 16384

noncomputable section

namespace Cert.Kernel.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The core's unscoped buffers as this region finds them.
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's current buffer holds its block at every point, fetched there or not (unfetched, the block
    index has not moved), for any proof data over these arrays whose body leaves the block in place. -/
theorem before_q_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the candidate window. -/
theorem before_r_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each kind of point leaves: the found pieces cover the rows they are written into -/

theorem scover_first (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) (y : S1x1024.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1x1024.size (by sl_kernel_rfl) y
/-- The scratch row after a first point. -/
def scFirst (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) : Vec F S1x1024 .f32 :=
  vrow.read (Elt F) (vrow.writes (Elt F) vrow.junk (runFirst c i arg2 harg2 arg3 harg3 arg4 harg4 arg5 harg5 hc0 hc1 x0 x1).1)

theorem scover_middle (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) (y : S1x1024.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S1x1024.size (by sl_kernel_rfl) y
/-- The scratch row after a middle point, over what the point before left. -/
def scMiddle (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) : Vec F S1x1024 .f32 :=
  vrow.read (Elt F) (vrow.writes (Elt F) vrow.junk (runMiddle c i arg2 harg2 arg3 harg3 arg4 harg4 arg5 harg5 hc0 hc1 x0 x1 xs).1)

theorem ocover_last (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) (y : S1x1024.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x1024.size (by sl_kernel_rfl) y
/-- The output block after a last point. -/
def outLast (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) : Vec F S1x1024 .f32 :=
  vrow.read (Elt F) (vrow.writes (Elt F) vrow.junk (runLast c i arg2 harg2 arg3 harg3 arg4 harg4 arg5 harg5 hc0 hc1 x0 x1 xs).1)
theorem scover_last (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) (y : S1x1024.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1x1024.size (by sl_kernel_rfl) y
/-- The scratch row after a last point. -/
def scLast (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) : Vec F S1x1024 .f32 :=
  vrow.read (Elt F) (vrow.writes (Elt F) vrow.junk (runLast c i arg2 harg2 arg3 harg3 arg4 harg4 arg5 harg5 hc0 hc1 x0 x1 xs).2.1)

/-! ## The scratch row and the output block, point by point -/

theorem not_last_of_first (t : Fin cfg0.N) (h0 : t.val % 12 = 0) : ¬isLast (grid0.coords t) :=
  fun h => by have := (isLast_iff t).mp h; omega

/-- THE RUNNING MINIMUM. The scratch row after the body at position `n`: by the kind of the point, over what
    position `n - 1` left unless the point is a first one. -/
def scAt (c : Dev nD) : (n : ℕ) → n < cfg0.N → Vec F S1x1024 .f32
  | 0, hn => scFirst c (grid0.coords ⟨0, hn⟩) (mq ⟨0, hn⟩) (hmq ⟨0, hn⟩) (mr ⟨0, hn⟩) (hmr ⟨0, hn⟩) (mo ⟨0, hn⟩) (hmo ⟨0, hn⟩) msc (Memref.isWhole_whole _) ((isFirst_iff ⟨0, hn⟩).mpr (Nat.zero_mod _)) (not_last_of_first ⟨0, hn⟩ (Nat.zero_mod _)) (iblk V c 0 ⟨0, hn⟩) (iblk V c 1 ⟨0, hn⟩)
  | n + 1, hn =>
    if h0 : (n + 1) % 12 = 0 then
      scFirst c (grid0.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) ((isFirst_iff ⟨n + 1, hn⟩).mpr h0) (not_last_of_first ⟨n + 1, hn⟩ h0) (iblk V c 0 ⟨n + 1, hn⟩) (iblk V c 1 ⟨n + 1, hn⟩)
    else if h1 : (n + 1) % 12 = 11 then
      scLast c (grid0.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (scAt c n (Nat.lt_of_succ_lt hn))
    else
      scMiddle c (grid0.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (scAt c n (Nat.lt_of_succ_lt hn))

/-- What the point before `t` left in the scratch row (read only where `t` is no first point). -/
abbrev scPrev (c : Dev nD) (t : Fin cfg0.N) : Vec F S1x1024 .f32 :=
  scAt V c (t.val - 1) (Nat.lt_of_le_of_lt (Nat.sub_le _ _) t.isLt)

theorem scAt_first (c : Dev nD) (t : Fin cfg0.N) (h0 : t.val % 12 = 0) :
    scAt V c t.val t.isLt = scFirst c (grid0.coords t) (mq t) (hmq t) (mr t) (hmr t) (mo t) (hmo t) msc (Memref.isWhole_whole _) ((isFirst_iff t).mpr h0) (not_last_of_first t h0) (iblk V c 0 t) (iblk V c 1 t) := by
  obtain ⟨n, hn⟩ := t
  cases n with
  | zero => exact rfl
  | succ n => exact (dif_pos h0).trans rfl

theorem scAt_last (c : Dev nD) (t : Fin cfg0.N) (h0 : ¬t.val % 12 = 0) (h1 : t.val % 12 = 11) :
    scAt V c t.val t.isLt = scLast c (grid0.coords t) (mq t) (hmq t) (mr t) (hmr t) (mo t) (hmo t) msc (Memref.isWhole_whole _) (fun h => h0 ((isFirst_iff t).mp h)) ((isLast_iff t).mpr h1) (iblk V c 0 t) (iblk V c 1 t) (scPrev V c t) := by
  obtain ⟨n, hn⟩ := t
  cases n with
  | zero => exact (by exfalso; (try dsimp only at h0); exact absurd (Nat.zero_mod _) h0)
  | succ n => exact (dif_neg h0).trans ((dif_pos h1).trans rfl)

theorem scAt_middle (c : Dev nD) (t : Fin cfg0.N) (h0 : ¬t.val % 12 = 0) (h1 : ¬t.val % 12 = 11) :
    scAt V c t.val t.isLt = scMiddle c (grid0.coords t) (mq t) (hmq t) (mr t) (hmr t) (mo t) (hmo t) msc (Memref.isWhole_whole _) (fun h => h0 ((isFirst_iff t).mp h)) (fun h => h1 ((isLast_iff t).mp h)) (iblk V c 0 t) (iblk V c 1 t) (scPrev V c t) := by
  obtain ⟨n, hn⟩ := t
  cases n with
  | zero => exact (by exfalso; (try dsimp only at h0); exact absurd (Nat.zero_mod _) h0)
  | succ n => exact (dif_neg h0).trans ((dif_neg h1).trans rfl)

/-- The output block after the body at point `t`: stored at a last point only; elsewhere the window is idle and
    this value is read by nothing. -/
def outAt (c : Dev nD) (t : Fin cfg0.N) : Vec F S1x1024 .f32 :=
  if h1 : t.val % 12 = 11 then
    outLast c (grid0.coords t) (mq t) (hmq t) (mr t) (hmr t) (mo t) (hmo t) msc (Memref.isWhole_whole _) (fun h => by have := (isFirst_iff t).mp h; omega) ((isLast_iff t).mpr h1) (iblk V c 0 t) (iblk V c 1 t) (scPrev V c t)
  else vrow.read (Elt F) vrow.junk

theorem outAt_last (c : Dev nD) (t : Fin cfg0.N) (h0 : ¬t.val % 12 = 0) (h1 : t.val % 12 = 11) :
    outAt V c t = outLast c (grid0.coords t) (mq t) (hmq t) (mr t) (hmr t) (mo t) (hmo t) msc (Memref.isWhole_whole _) (fun h => h0 ((isFirst_iff t).mp h)) ((isLast_iff t).mpr h1) (iblk V c 0 t) (iblk V c 1 t) (scPrev V c t) := by
  unfold outAt; exact (dif_pos h1).trans rfl

/-! ## The invariant between points -/

/-- Before the first point the class invariant; after point `n` the same with the scratch row at `scAt n`. -/
def PhiS (c : Dev nD) : (n : ℕ) → n ≤ cfg0.N → sProp 𝕄
  | 0, _ => Pipeline.ΦA spec0 c
  | n + 1, hn => iprop((owns (c : Thread nD τ) msc fullShare (scAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) msc fullShare (scAt V c n hn) ∗ others (F := F) c) ∗ (∃ r, prngReg c r)) := rfl
theorem PhiS_pos (c : Dev nD) (n : ℕ) (h : n ≤ cfg0.N) (hz : n ≠ 0) :
    PhiS V c n h = iprop((owns (c : Thread nD τ) msc fullShare (scAt V c (n - 1) (by omega)) ∗ others (F := F) c) ∗ (∃ r, prngReg c r)) := by
  cases n with
  | zero => exact absurd rfl hz
  | succ n => rfl

/-! ## The proof data -/

/-- The region's proof data on core `c`: the arrays as found; after the body each input's buffer at its block and the
    output's at `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after_q (c : Dev nD) (t : Fin cfg0.N) : (dat V c).after 0 t = iblk V c 0 t := by dsimp only [dat]
theorem after_r (c : Dev nD) (t : Fin cfg0.N) : (dat V c).after 1 t = iblk V c 1 t := by dsimp only [dat]
theorem after_o (c : Dev nD) (t : Fin cfg0.N) : (dat V c).after 2 t = outAt V c t := by dsimp only [dat]
theorem before_q (c : Dev nD) (t : Fin cfg0.N) (d) : (dat V c).before 0 t d = iblk V c 0 t :=
  before_q_of V (dat V c) (A_eq V c 0) (after_q V c) t d
theorem before_r (c : Dev nD) (t : Fin cfg0.N) (d) : (dat V c).before 1 t d = iblk V c 1 t :=
  before_r_of V (dat V c) (A_eq V c 1) (after_r V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mr t) fullShare ((dat V c).before 1 t d))
    ∗ (∃ d, owns (c : Thread nD τ) (mo t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's kind picks the run; the invariant hands
    the scratch row over at what the point before left (at anything before the first point, which resets it) and takes
    it back at this point's contents, the found pieces covering the row; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_r]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mq t) fullShare ((dat V c).after 0 t) from by
    unfold Dat.leavesExact; rw [live_q t], after_q]
  rw [show (dat V c).leavesExact 1 t = owns (c : Thread nD τ) (mr t) fullShare ((dat V c).after 1 t) from by
    unfold Dat.leavesExact; rw [live_r t], after_r]
  have hN : t.val < 144 := lt_of_lt_of_eq t.isLt (show cfg0.N = 144 from N_0)
  by_cases h0 : t.val % 12 = 0
  · have hnl : ¬isLast (grid0.coords t) := not_last_of_first t h0
    rw [Dat.leavesExact_idle (dat V c) 2 t (idle_out t hnl) (noFlush_out t hnl)]
    rw [scAt_first V c t h0]
    unfold scFirst; (try dsimp only)
    have hgive : (dat V c).Φ t.castSucc ⊢ (iprop(((∃ d, owns (c : Thread nD τ) msc fullShare d) ∗ others (F := F) c) ∗ (∃ r, prngReg c r)) : sProp 𝕄) := by
      rw [Phi_castSucc V c t]
      by_cases hz : t.val = 0
      · rw [PhiS_zero V c _ _ hz, PhiA_split]
      · rw [PhiS_pos V c _ _ hz]
        iintro ⟨⟨HS0, Hoth⟩, Hg⟩
        isplitr [Hg]
        · isplitl [HS0]; · iexists _; iexact HS0
          iexact Hoth
        iexact Hg
    iintro ⟨HΦ, Ho, ⟨%d0, H0⟩, ⟨%d1, H1⟩, ⟨%d2, H2⟩⟩
    ihave HΦ' := hgive $$ HΦ
    icases HΦ' with ⟨⟨HS0, Hoth⟩, Hg⟩
    iapply ((runFirst c (grid0.coords t) (mq t) (hmq t) (mr t) (hmr t) (mo t) (hmo t) msc (Memref.isWhole_whole _) ((isFirst_iff t).mpr h0) hnl (iblk V c 0 t) (iblk V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitr [Hg]
      · isplitl [HS0]
        · unfold owns; iexists _; isplitr
          swap; · iexact HS0
          ipureintro; exact View.read_writes_of_cover _ _ _ _ _ (scover_first c _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun e => h0 (by rw [e])
    have hnf : ¬isFirst (grid0.coords t) := fun h => h0 ((isFirst_iff t).mp h)
    rw [Phi_castSucc V c t, PhiS_pos V c _ _ hz]
    by_cases h1 : t.val % 12 = 11
    · have hl : isLast (grid0.coords t) := (isLast_iff t).mpr h1
      rw [show (dat V c).leavesExact 2 t = owns (c : Thread nD τ) (mo t) fullShare ((dat V c).after 2 t) from by
        unfold Dat.leavesExact; rw [live_out t hl], after_o]
      rw [scAt_last V c t h0 h1, outAt_last V c t h0 h1]
      unfold scLast outLast; (try dsimp only)
      iintro ⟨⟨⟨HS0, Hoth⟩, Hg⟩, Ho, ⟨%d0, H0⟩, ⟨%d1, H1⟩, ⟨%d2, H2⟩⟩
      iapply ((runLast c (grid0.coords t) (mq t) (hmq t) (mr t) (hmr t) (mo t) (hmo t) msc (Memref.isWhole_whole _) hnf hl (iblk V c 0 t) (iblk V c 1 t) (scPrev V c t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitr [Hg]
        · isplitl [HS0]
          · unfold owns; iexists _; isplitr
            swap; · iexact HS0
            ipureintro; exact View.read_writes_of_cover _ _ _ _ _ (scover_last c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (ocover_last c _ _ _ _ _ _ _ _ _ _ _ _ _ _)
    · have hnl : ¬isLast (grid0.coords t) := fun h => h1 ((isLast_iff t).mp h)
      rw [Dat.leavesExact_idle (dat V c) 2 t (idle_out t hnl) (noFlush_out t hnl)]
      rw [scAt_middle V c t h0 h1]
      unfold scMiddle; (try dsimp only)
      iintro ⟨⟨⟨HS0, Hoth⟩, Hg⟩, Ho, ⟨%d0, H0⟩, ⟨%d1, H1⟩, ⟨%d2, H2⟩⟩
      iapply ((runMiddle c (grid0.coords t) (mq t) (hmq t) (mr t) (hmr t) (mo t) (hmo t) msc (Memref.isWhole_whole _) hnf hnl (iblk V c 0 t) (iblk V c 1 t) (scPrev V c t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitr [Hg]
        · isplitl [HS0]
          · unfold owns; iexists _; isplitr
            swap; · iexact HS0
            ipureintro; exact View.read_writes_of_cover _ _ _ _ _ (scover_middle c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- The class invariant is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch row's contents are forgotten. -/
theorem hout (c : Dev nD) : (dat V c).Φ (Fin.last cfg0.N) ⊢ Pipeline.ΦA spec0 c := by
  have ht : (Fin.last cfg0.N).val ≠ 0 := by rw [Fin.val_last]; have : cfg0.N = 144 := N_0; omega
  rw [show (dat V c).Φ (Fin.last cfg0.N) = PhiS V c (Fin.last cfg0.N).val (Nat.le_of_lt_succ (Fin.last cfg0.N).isLt) from rfl,
    PhiS_pos V c _ _ ht, PhiA_split]
  iintro ⟨⟨HS0, Hoth⟩, Hg⟩
  isplitr [Hg]
  · isplitl [HS0]; · iexists _; iexact HS0
    iexact Hoth
  iexact Hg

end Cert.Kernel.Rg0

end
-- ==== Proof.K.R1.Shared.lean ====
/-
  One nearest-neighbour call of the program (queries: the columns of window 0's array, tile p of 1024; candidates: the
  rows of window 1's array, tile r of 1024; grid 12 × 12, point t = 12·p + r): what its body's three shapes of run share.

  The body branches twice on the candidate-tile coordinate r alone: at r = 0 it resets the running minimum kept in
  the scratch row to +∞; at r = 11 it copies the scratch row to the output block. So a point is of one of three
  kinds: first (r = 0), middle (0 < r < 11), last (r = 11). Both conditions are decided over the 144 points in closed
  form; the output window is idle (stored nothing, not written back) at first and middle points and live at last ones.

  The region's invariant between points is the class invariant with this call's own scratch row split out of the
  core's other scoped buffers, which no point of this call touches.
-/
import proofs.«109253_j35192962023870_1_alg».proof.Proof.Gen.Kernel.Launch
import proofs.«109253_j35192962023870_1_alg».proof.Proof.Gen.Kernel.Skeleton
import proofs.«109253_j35192962023870_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, over the grid -/

/-- "This is the first candidate tile": the body's first branch condition, as its scalar chain computes it. -/
abbrev isFirst (i : grid1.Coords) : Prop :=
  (Scalar.cmpi .ne (Scalar.extui (Scalar.cmpi .eq (BitVec.ofNat 32 (i 1).val) 0#32)) 0#32) = 1#1
/-- It holds exactly at the points 12·p + 0. -/
theorem isFirst_iff : ∀ t : Fin cfg1.N, isFirst (grid1.coords t) ↔ t.val % 12 = 0 :=
  (by decide +kernel : ∀ t : Fin grid1.N, isFirst (grid1.coords t) ↔ t.val % 12 = 0)

/-- "This is the last candidate tile": the body's second branch condition. -/
abbrev isLast (i : grid1.Coords) : Prop := k1_cond2 i = 1#1
/-- It holds exactly at the points 12·p + 11. -/
theorem isLast_iff : ∀ t : Fin cfg1.N, isLast (grid1.coords t) ↔ t.val % 12 = 11 :=
  (by decide +kernel : ∀ t : Fin grid1.N, isLast (grid1.coords t) ↔ t.val % 12 = 11)

/-! ## Where the windows are idle -/

theorem live_q : ∀ t : Fin cfg1.N, cfg1.idle 0 (grid1.coords t) = false := by decide +kernel
theorem live_r : ∀ t : Fin cfg1.N, cfg1.idle 1 (grid1.coords t) = false := by decide +kernel
/-- Before the last candidate tile the output block is neither stored into nor written back. -/
theorem idle_out : ∀ t : Fin cfg1.N, ¬isLast (grid1.coords t) → cfg1.idle 2 (grid1.coords t) = true := by decide +kernel
theorem noFlush_out : ∀ t : Fin cfg1.N, ¬isLast (grid1.coords t) → (cfg1.win 2).flush t = false := by decide +kernel
/-- At the last candidate tile it is stored into. -/
theorem live_out : ∀ t : Fin cfg1.N, isLast (grid1.coords t) → cfg1.idle 2 (grid1.coords t) = false := by decide +kernel

/-! ## The memrefs the body is called with -/

abbrev mq (t : Fin cfg1.N) : Memref sig .tc .vmem S3x1024 .f32 := win1_0.stage (cfg1.slots t 0)
abbrev hmq (t : Fin cfg1.N) : (mq t).IsWhole := hstage1_0 ((cfg1.slots t 0).cast nbuf1_0)
abbrev mr (t : Fin cfg1.N) : Memref sig .tc .vmem S1024x3 .f32 := win1_1.stage (cfg1.slots t 1)
abbrev hmr (t : Fin cfg1.N) : (mr t).IsWhole := hstage1_1 ((cfg1.slots t 1).cast nbuf1_1)
abbrev mo (t : Fin cfg1.N) : Memref sig .tc .vmem S1x1024 .f32 := win1_2.stage (cfg1.slots t 2)
abbrev hmo (t : Fin cfg1.N) : (mo t).IsWhole := hstage1_2 ((cfg1.slots t 2).cast nbuf1_2)
/-- The scratch row holding the running minimum. -/
abbrev msc : Memref sig .tc .vmem S1x1024 .f32 := Memref.whole cc1_scratch0
/-- One view of a row buffer, through which contents are stated (which buffer does not matter once covered). -/
abbrev vrow : View sig .tc .vmem S1x1024 .f32 := msc.view

/-! ## The class invariant with the scratch row split out -/

/-- The core's scoped buffers other than this call's staging buffers and scratch row, each at some contents. -/
abbrev others (c : Dev nD) : sProp 𝕄 :=
  Pipeline.scopedRestBut (Ix := Unit) (Name := ℕ) (U := UR sig nD τ) (Lvl := ℕ) (Val := Elt F) spec1 c [cc1_scratch0]

theorem PhiA_split (c : Dev nD) :
    (Pipeline.ΦA spec1 c : sProp 𝕄)
      = iprop(((∃ d, owns (c : Thread nD τ) msc fullShare d) ∗ others (F := F) c) ∗ (∃ r, prngReg c r)) := by
  unfold Pipeline.ΦA
  rw [Pipeline.scopedRest_split_of_list spec1 c [cc1_scratch0] (by decide) (by decide)]
  simp only [bigSepL, msc, owns_whole]
  try rfl

end Cert.Kernel.Rg1

end
-- ==== Proof.K.R1.RunFirst.lean ====
/-
  The body of this nearest-neighbour call run at a first candidate tile (the scratch row is reset, the output block is left alone): the printed function is its skeleton of loads and
  stores over named payloads, which the symbolic executor walks with both branches decided by the point's kind; the
  pieces each buffer is left with are found by that run and are this definition's witness.
-/
import proofs.«109253_j35192962023870_1_alg».proof.Proof.K.R1.Shared

set_option maxRecDepth 16384

noncomputable section

namespace Cert.Kernel.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a first point: the query and candidate blocks stay, the output buffer is handed back as found, and the scratch
    row, whatever it held, ends written with the found pieces. -/
noncomputable def runFirst (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) :
    { LS : List (View.Piece (Elt F) S1x1024 .f32) //
      ∀ (xo : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, fun xo E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Rg1

end
-- ==== Proof.K.R1.RunMiddle.lean ====
/-
  The body of this nearest-neighbour call run at a middle candidate tile (the running minimum is updated, the output block is left alone): the printed function is its skeleton of loads and
  stores over named payloads, which the symbolic executor walks with both branches decided by the point's kind; the
  pieces each buffer is left with are found by that run and are this definition's witness.
-/
import proofs.«109253_j35192962023870_1_alg».proof.Proof.K.R1.RunFirst

set_option maxRecDepth 16384

noncomputable section

namespace Cert.Kernel.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a middle point: as at a first point, but the scratch row comes in at the contents the point before left. -/
noncomputable def runMiddle (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) :
    { LS : List (View.Piece (Elt F) S1x1024 .f32) //
      ∀ (xo : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, fun xo E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Rg1

end
-- ==== Proof.K.R1.RunLast.lean ====
/-
  The body of this nearest-neighbour call run at a last candidate tile (the running minimum is updated and copied to the output block): the printed function is its skeleton of loads and
  stores over named payloads, which the symbolic executor walks with both branches decided by the point's kind; the
  pieces each buffer is left with are found by that run and are this definition's witness.
-/
import proofs.«109253_j35192962023870_1_alg».proof.Proof.K.R1.RunMiddle

set_option maxRecDepth 16384

noncomputable section

namespace Cert.Kernel.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a last point: the output buffer, whatever it held, ends written with its found pieces, the scratch row with its. -/
noncomputable def runLast (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) :
    Σ' (LO : List (View.Piece (Elt F) S1x1024 .f32)), { LS : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Rg1

end
-- ==== Proof.K.R1.Frame.lean ====
/-
  This nearest-neighbour call as a pipeline region: what its buffers hold point by point, and that its body keeps
  that account.

  Point t = 12·p + r works on query tile p (block `iblk · 0 t`, 3 × 1024) and candidate tile r (block `iblk · 1 t`,
  1024 × 3). The scratch row after point t is `scAt t`: the body's found pieces read back — at a first point over
  nothing (the row is reset there), otherwise over what the point before left. The output block is stored at the last
  candidate tile only, with the scratch row's contents of that point (`outAt`); at every other point the window is
  idle and its buffer goes back untouched. The invariant between points is the class invariant before the first point
  and afterwards the same with the scratch row at `scAt` of the point just done. Proved here: each input's buffer holds
  its block at every point; the body obligation at every point (by the kind of the point, each kind its run); the class
  invariant leads into the first point and comes back after the last.
-/
import proofs.«109253_j35192962023870_1_alg».proof.Proof.K.R1.RunLast

set_option maxRecDepth 16384

noncomputable section

namespace Cert.Kernel.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The core's unscoped buffers as this region finds them.
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current buffer holds its block at every point, fetched there or not (unfetched, the block
    index has not moved), for any proof data over these arrays whose body leaves the block in place. -/
theorem before_q_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the candidate window. -/
theorem before_r_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each kind of point leaves: the found pieces cover the rows they are written into -/

theorem scover_first (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) (y : S1x1024.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1x1024.size (by sl_kernel_rfl) y
/-- The scratch row after a first point. -/
def scFirst (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) : Vec F S1x1024 .f32 :=
  vrow.read (Elt F) (vrow.writes (Elt F) vrow.junk (runFirst c i arg2 harg2 arg3 harg3 arg4 harg4 arg5 harg5 hc0 hc1 x0 x1).1)

theorem scover_middle (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) (y : S1x1024.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S1x1024.size (by sl_kernel_rfl) y
/-- The scratch row after a middle point, over what the point before left. -/
def scMiddle (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) : Vec F S1x1024 .f32 :=
  vrow.read (Elt F) (vrow.writes (Elt F) vrow.junk (runMiddle c i arg2 harg2 arg3 harg3 arg4 harg4 arg5 harg5 hc0 hc1 x0 x1 xs).1)

theorem ocover_last (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) (y : S1x1024.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x1024.size (by sl_kernel_rfl) y
/-- The output block after a last point. -/
def outLast (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) : Vec F S1x1024 .f32 :=
  vrow.read (Elt F) (vrow.writes (Elt F) vrow.junk (runLast c i arg2 harg2 arg3 harg3 arg4 harg4 arg5 harg5 hc0 hc1 x0 x1 xs).1)
theorem scover_last (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) (y : S1x1024.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1x1024.size (by sl_kernel_rfl) y
/-- The scratch row after a last point. -/
def scLast (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) : Vec F S1x1024 .f32 :=
  vrow.read (Elt F) (vrow.writes (Elt F) vrow.junk (runLast c i arg2 harg2 arg3 harg3 arg4 harg4 arg5 harg5 hc0 hc1 x0 x1 xs).2.1)

/-! ## The scratch row and the output block, point by point -/

theorem not_last_of_first (t : Fin cfg1.N) (h0 : t.val % 12 = 0) : ¬isLast (grid1.coords t) :=
  fun h => by have := (isLast_iff t).mp h; omega

/-- THE RUNNING MINIMUM. The scratch row after the body at position `n`: by the kind of the point, over what
    position `n - 1` left unless the point is a first one. -/
def scAt (c : Dev nD) : (n : ℕ) → n < cfg1.N → Vec F S1x1024 .f32
  | 0, hn => scFirst c (grid1.coords ⟨0, hn⟩) (mq ⟨0, hn⟩) (hmq ⟨0, hn⟩) (mr ⟨0, hn⟩) (hmr ⟨0, hn⟩) (mo ⟨0, hn⟩) (hmo ⟨0, hn⟩) msc (Memref.isWhole_whole _) ((isFirst_iff ⟨0, hn⟩).mpr (Nat.zero_mod _)) (not_last_of_first ⟨0, hn⟩ (Nat.zero_mod _)) (iblk V c 0 ⟨0, hn⟩) (iblk V c 1 ⟨0, hn⟩)
  | n + 1, hn =>
    if h0 : (n + 1) % 12 = 0 then
      scFirst c (grid1.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) ((isFirst_iff ⟨n + 1, hn⟩).mpr h0) (not_last_of_first ⟨n + 1, hn⟩ h0) (iblk V c 0 ⟨n + 1, hn⟩) (iblk V c 1 ⟨n + 1, hn⟩)
    else if h1 : (n + 1) % 12 = 11 then
      scLast c (grid1.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (scAt c n (Nat.lt_of_succ_lt hn))
    else
      scMiddle c (grid1.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (scAt c n (Nat.lt_of_succ_lt hn))

/-- What the point before `t` left in the scratch row (read only where `t` is no first point). -/
abbrev scPrev (c : Dev nD) (t : Fin cfg1.N) : Vec F S1x1024 .f32 :=
  scAt V c (t.val - 1) (Nat.lt_of_le_of_lt (Nat.sub_le _ _) t.isLt)

theorem scAt_first (c : Dev nD) (t : Fin cfg1.N) (h0 : t.val % 12 = 0) :
    scAt V c t.val t.isLt = scFirst c (grid1.coords t) (mq t) (hmq t) (mr t) (hmr t) (mo t) (hmo t) msc (Memref.isWhole_whole _) ((isFirst_iff t).mpr h0) (not_last_of_first t h0) (iblk V c 0 t) (iblk V c 1 t) := by
  obtain ⟨n, hn⟩ := t
  cases n with
  | zero => exact rfl
  | succ n => exact (dif_pos h0).trans rfl

theorem scAt_last (c : Dev nD) (t : Fin cfg1.N) (h0 : ¬t.val % 12 = 0) (h1 : t.val % 12 = 11) :
    scAt V c t.val t.isLt = scLast c (grid1.coords t) (mq t) (hmq t) (mr t) (hmr t) (mo t) (hmo t) msc (Memref.isWhole_whole _) (fun h => h0 ((isFirst_iff t).mp h)) ((isLast_iff t).mpr h1) (iblk V c 0 t) (iblk V c 1 t) (scPrev V c t) := by
  obtain ⟨n, hn⟩ := t
  cases n with
  | zero => exact (by exfalso; (try dsimp only at h0); exact absurd (Nat.zero_mod _) h0)
  | succ n => exact (dif_neg h0).trans ((dif_pos h1).trans rfl)

theorem scAt_middle (c : Dev nD) (t : Fin cfg1.N) (h0 : ¬t.val % 12 = 0) (h1 : ¬t.val % 12 = 11) :
    scAt V c t.val t.isLt = scMiddle c (grid1.coords t) (mq t) (hmq t) (mr t) (hmr t) (mo t) (hmo t) msc (Memref.isWhole_whole _) (fun h => h0 ((isFirst_iff t).mp h)) (fun h => h1 ((isLast_iff t).mp h)) (iblk V c 0 t) (iblk V c 1 t) (scPrev V c t) := by
  obtain ⟨n, hn⟩ := t
  cases n with
  | zero => exact (by exfalso; (try dsimp only at h0); exact absurd (Nat.zero_mod _) h0)
  | succ n => exact (dif_neg h0).trans ((dif_neg h1).trans rfl)

/-- The output block after the body at point `t`: stored at a last point only; elsewhere the window is idle and
    this value is read by nothing. -/
def outAt (c : Dev nD) (t : Fin cfg1.N) : Vec F S1x1024 .f32 :=
  if h1 : t.val % 12 = 11 then
    outLast c (grid1.coords t) (mq t) (hmq t) (mr t) (hmr t) (mo t) (hmo t) msc (Memref.isWhole_whole _) (fun h => by have := (isFirst_iff t).mp h; omega) ((isLast_iff t).mpr h1) (iblk V c 0 t) (iblk V c 1 t) (scPrev V c t)
  else vrow.read (Elt F) vrow.junk

theorem outAt_last (c : Dev nD) (t : Fin cfg1.N) (h0 : ¬t.val % 12 = 0) (h1 : t.val % 12 = 11) :
    outAt V c t = outLast c (grid1.coords t) (mq t) (hmq t) (mr t) (hmr t) (mo t) (hmo t) msc (Memref.isWhole_whole _) (fun h => h0 ((isFirst_iff t).mp h)) ((isLast_iff t).mpr h1) (iblk V c 0 t) (iblk V c 1 t) (scPrev V c t) := by
  unfold outAt; exact (dif_pos h1).trans rfl

/-! ## The invariant between points -/

/-- Before the first point the class invariant; after point `n` the same with the scratch row at `scAt n`. -/
def PhiS (c : Dev nD) : (n : ℕ) → n ≤ cfg1.N → sProp 𝕄
  | 0, _ => Pipeline.ΦA spec1 c
  | n + 1, hn => iprop((owns (c : Thread nD τ) msc fullShare (scAt V c n hn) ∗ others (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((owns (c : Thread nD τ) msc fullShare (scAt V c n hn) ∗ others (F := F) c) ∗ (∃ r, prngReg c r)) := rfl
theorem PhiS_pos (c : Dev nD) (n : ℕ) (h : n ≤ cfg1.N) (hz : n ≠ 0) :
    PhiS V c n h = iprop((owns (c : Thread nD τ) msc fullShare (scAt V c (n - 1) (by omega)) ∗ others (F := F) c) ∗ (∃ r, prngReg c r)) := by
  cases n with
  | zero => exact absurd rfl hz
  | succ n => rfl

/-! ## The proof data -/

/-- The region's proof data on core `c`: the arrays as found; after the body each input's buffer at its block and the
    output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_q (c : Dev nD) (t : Fin cfg1.N) : (dat V c).after 0 t = iblk V c 0 t := by dsimp only [dat]
theorem after_r (c : Dev nD) (t : Fin cfg1.N) : (dat V c).after 1 t = iblk V c 1 t := by dsimp only [dat]
theorem after_o (c : Dev nD) (t : Fin cfg1.N) : (dat V c).after 2 t = outAt V c t := by dsimp only [dat]
theorem before_q (c : Dev nD) (t : Fin cfg1.N) (d) : (dat V c).before 0 t d = iblk V c 0 t :=
  before_q_of V (dat V c) (A_eq V c 0) (after_q V c) t d
theorem before_r (c : Dev nD) (t : Fin cfg1.N) (d) : (dat V c).before 1 t d = iblk V c 1 t :=
  before_r_of V (dat V c) (A_eq V c 1) (after_r V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mr t) fullShare ((dat V c).before 1 t d))
    ∗ (∃ d, owns (c : Thread nD τ) (mo t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's kind picks the run; the invariant hands
    the scratch row over at what the point before left (at anything before the first point, which resets it) and takes
    it back at this point's contents, the found pieces covering the row; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_r]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mq t) fullShare ((dat V c).after 0 t) from by
    unfold Dat.leavesExact; rw [live_q t], after_q]
  rw [show (dat V c).leavesExact 1 t = owns (c : Thread nD τ) (mr t) fullShare ((dat V c).after 1 t) from by
    unfold Dat.leavesExact; rw [live_r t], after_r]
  have hN : t.val < 144 := lt_of_lt_of_eq t.isLt (show cfg1.N = 144 from N_1)
  by_cases h0 : t.val % 12 = 0
  · have hnl : ¬isLast (grid1.coords t) := not_last_of_first t h0
    rw [Dat.leavesExact_idle (dat V c) 2 t (idle_out t hnl) (noFlush_out t hnl)]
    rw [scAt_first V c t h0]
    unfold scFirst; (try dsimp only)
    have hgive : (dat V c).Φ t.castSucc ⊢ (iprop(((∃ d, owns (c : Thread nD τ) msc fullShare d) ∗ others (F := F) c) ∗ (∃ r, prngReg c r)) : sProp 𝕄) := by
      rw [Phi_castSucc V c t]
      by_cases hz : t.val = 0
      · rw [PhiS_zero V c _ _ hz, PhiA_split]
      · rw [PhiS_pos V c _ _ hz]
        iintro ⟨⟨HS0, Hoth⟩, Hg⟩
        isplitr [Hg]
        · isplitl [HS0]; · iexists _; iexact HS0
          iexact Hoth
        iexact Hg
    iintro ⟨HΦ, Ho, ⟨%d0, H0⟩, ⟨%d1, H1⟩, ⟨%d2, H2⟩⟩
    ihave HΦ' := hgive $$ HΦ
    icases HΦ' with ⟨⟨HS0, Hoth⟩, Hg⟩
    iapply ((runFirst c (grid1.coords t) (mq t) (hmq t) (mr t) (hmr t) (mo t) (hmo t) msc (Memref.isWhole_whole _) ((isFirst_iff t).mpr h0) hnl (iblk V c 0 t) (iblk V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitr [Hg]
      · isplitl [HS0]
        · unfold owns; iexists _; isplitr
          swap; · iexact HS0
          ipureintro; exact View.read_writes_of_cover _ _ _ _ _ (scover_first c _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun e => h0 (by rw [e])
    have hnf : ¬isFirst (grid1.coords t) := fun h => h0 ((isFirst_iff t).mp h)
    rw [Phi_castSucc V c t, PhiS_pos V c _ _ hz]
    by_cases h1 : t.val % 12 = 11
    · have hl : isLast (grid1.coords t) := (isLast_iff t).mpr h1
      rw [show (dat V c).leavesExact 2 t = owns (c : Thread nD τ) (mo t) fullShare ((dat V c).after 2 t) from by
        unfold Dat.leavesExact; rw [live_out t hl], after_o]
      rw [scAt_last V c t h0 h1, outAt_last V c t h0 h1]
      unfold scLast outLast; (try dsimp only)
      iintro ⟨⟨⟨HS0, Hoth⟩, Hg⟩, Ho, ⟨%d0, H0⟩, ⟨%d1, H1⟩, ⟨%d2, H2⟩⟩
      iapply ((runLast c (grid1.coords t) (mq t) (hmq t) (mr t) (hmr t) (mo t) (hmo t) msc (Memref.isWhole_whole _) hnf hl (iblk V c 0 t) (iblk V c 1 t) (scPrev V c t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitr [Hg]
        · isplitl [HS0]
          · unfold owns; iexists _; isplitr
            swap; · iexact HS0
            ipureintro; exact View.read_writes_of_cover _ _ _ _ _ (scover_last c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (ocover_last c _ _ _ _ _ _ _ _ _ _ _ _ _ _)
    · have hnl : ¬isLast (grid1.coords t) := fun h => h1 ((isLast_iff t).mp h)
      rw [Dat.leavesExact_idle (dat V c) 2 t (idle_out t hnl) (noFlush_out t hnl)]
      rw [scAt_middle V c t h0 h1]
      unfold scMiddle; (try dsimp only)
      iintro ⟨⟨⟨HS0, Hoth⟩, Hg⟩, Ho, ⟨%d0, H0⟩, ⟨%d1, H1⟩, ⟨%d2, H2⟩⟩
      iapply ((runMiddle c (grid1.coords t) (mq t) (hmq t) (mr t) (hmr t) (mo t) (hmo t) msc (Memref.isWhole_whole _) hnf hnl (iblk V c 0 t) (iblk V c 1 t) (scPrev V c t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitr [Hg]
        · isplitl [HS0]
          · unfold owns; iexists _; isplitr
            swap; · iexact HS0
            ipureintro; exact View.read_writes_of_cover _ _ _ _ _ (scover_middle c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- The class invariant is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch row's contents are forgotten. -/
theorem hout (c : Dev nD) : (dat V c).Φ (Fin.last cfg1.N) ⊢ Pipeline.ΦA spec1 c := by
  have ht : (Fin.last cfg1.N).val ≠ 0 := by rw [Fin.val_last]; have : cfg1.N = 144 := N_1; omega
  rw [show (dat V c).Φ (Fin.last cfg1.N) = PhiS V c (Fin.last cfg1.N).val (Nat.le_of_lt_succ (Fin.last cfg1.N).isLt) from rfl,
    PhiS_pos V c _ _ ht, PhiA_split]
  iintro ⟨⟨HS0, Hoth⟩, Hg⟩
  isplitr [Hg]
  · isplitl [HS0]; · iexists _; iexact HS0
    iexact Hoth
  iexact Hg

end Cert.Kernel.Rg1

end
-- ==== Proof.LibRegionHeld.lean ====
/-
  A kernel region of a TensorCore program whose main function is followed through ONE valuation of the core's
  unscoped buffers.

  Between two items of such a program (a stretch of host operations, a kernel region) a core holds every unscoped
  TensorCore buffer whole, at a valuation `W c`, beside its generator register at some state and the fact that it
  owes nothing. A stretch of host operations moves the valuation along its fold. This file says what a kernel region
  does to it, as the pipeline library's region record:

    * at the entry the windows' arrays are cut out of the unscoped buffers, at the contents the proof data name
      for them (`hA`), the other unscoped buffers bypassing the region;
    * the generator register and the scoped buffers no window stages travel through the class invariant `ΦA`, from
      which the proof data's own invariant is reached at the first point (`hΦin`) and into which it falls back at
      the last (`hΦout`);
    * the body owes nothing at any point, holds every input array whole, and the kernel has no cell of its own;
    * at the exit the arrays return at what the write-backs leave, `Dat.arrAt · N`, and with the bypassing buffers
      they are the unscoped buffers again, whole at any valuation `W' c` that has the arrays there (`hF`) and
      agrees with `W c` everywhere else (`hrest`).

  The region is then entered from "the unscoped buffers at `W`" and left at "the unscoped buffers at `W'`", the
  same shape a host stretch is entered from and left at, so that the items of a main function chain by reflexivity.
-/
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

/-! ## A core that owes nothing, and a proof data's account of what it owes -/

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

/-- A core that owes nothing, whatever pairs its waits have recorded, is the proof data's account before point `t`
    when the data owe nothing there and put no bound on the recorded pairs. -/
theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

/-- Conversely the account before a point where the data owe nothing is a core that owes nothing. -/
theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

/-- A pipeline with no prefetched table holds none: there is nothing to ask for. -/
theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

/-! ## The exit valuation: the entry valuation with the arrays replaced -/

section Exit

variable {gr : Nat} {Wn : Nat} (win : Fin Wn → WinSpec sig gr) (c : Dev nD) (V : Valuation τ sig Val)
  (A : (w : Fin Wn) → Buf Val ((win w).arr.view.loc (c : Thread nD τ)))

/-- `withArrays` has each array at the contents given for it (the arrays being distinct buffers), -/
theorem withArrays_hF (hinj : Function.Injective (arrRef win)) (w : Fin Wn) :
    A w = withArrays win c V A (Proc.devRef .tc (arrRef win w)) :=
  (withArrays_arr win hinj c V A w).symm

/-- and every buffer that is no window's array at the valuation it started from. -/
theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

/-! ## The thread state between two items, and the region over it -/

section Held

variable {U : Type} [URA U] {P : Type} [Fintype P]

local notation "𝕄" => MT nD τ sig Unit Val ℕ U ℕ

/-- What rides beside the unscoped buffers between two items of the main function: the core's generator register at
    some state, and the core owing nothing. -/
abbrev idleRest (c : Dev nD) : sProp 𝕄 :=
  iprop((∃ r, prngReg c r) ∗ ∃ S, owes (c : Thread nD τ) (0 : CellTallies nD τ sig Unit) S)

/-- The thread state between two items: every unscoped TensorCore buffer whole at the valuation, beside `idleRest`. -/
abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

-- the library's lemmas on the arrays are stated over `pin pcs a p`; meeting them from a goal that names the pipeline's
-- own fields takes unfolding plain definitions inside types
set_option backward.isDefEq.respectTransparency.types false in
/-- THE REGION OVER A HELD VALUATION. Pipeline `p`'s region, entered from `heldIdle W` and left at `heldIdle W'`:
    given the layout the launch decides (`hw`, `hpos`, `harr`, `hstage`), no prefetched table to hold (`hpre`), the
    body obligation of proof data that hold every input array whole (`hq`), owe nothing (`howed`, `hrec`), enter
    at the arrays' contents under `W` (`hA`) and reach `W'` (`hF`, `hrest`), and whose invariant begins below and ends
    above the class invariant `ΦA` (`hΦin`, `hΦout`). The kernel has no semaphore of its own. -/
def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle W'
  -- into the invariant and out of it: the generator register
  X c := iprop(∃ r, prngReg c r)
  Y c := iprop(∃ r, prngReg c r)
  -- past the region: the unscoped buffers that are no window's array, as entered
  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.K.Run.lean ====
/-
  The whole run of the program on a core: two transposes, the first nearest-neighbour call, a reshape, the second call,
  and the closing host operations (a reshape, two means and their sum).

  Between two items the core holds every unscoped buffer whole, at a valuation: the launch memory `W0`; after the
  transposes `W1`; after the first call `W2`, which is `W1` with the call's arrays at what its write-backs leave; after
  the reshape `W3`; after the second call `W4`; after the closing operations `W5`. Each call is a pipeline region entered
  from one valuation and left at the next; the host stretches move the valuation along their folds. The run theorem
  says every weakly fair execution ends, faulting nowhere, with every unscoped buffer at `W5`. Read at the argument
  arrays, which no item writes, that is the frame; read at the result buffers it is what the value claim starts from.
-/
import proofs.«109253_j35192962023870_1_alg».proof.Proof.K.R0.Frame
import proofs.«109253_j35192962023870_1_alg».proof.Proof.K.R1.Frame
import proofs.«109253_j35192962023870_1_alg».proof.Proof.Gen.Kernel.Regions
import proofs.«109253_j35192962023870_1_alg».proof.Proof.LibRegionHeld

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
/-- After the two transposes. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the first call: its arrays at what the write-backs leave, every other buffer as it was. -/
def W2 (c : Dev nD) : Valuation τ sig (Elt F) :=
  Pipeline.withArrays spec0 c (W1 m c) fun w => (Rg0.dat (U1 m) c).arrAt w cfg0.N
abbrev U2 : (c : Dev nD) → (b : Ref sig .tc) → Buf (Elt F) ((c : Thread nD τ).loc b) := fun c b => W2 m c b
/-- After the reshape of the first call's result. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (Rg1.dat (U3 m) c).arrAt w cfg1.N
abbrev U4 : (c : Dev nD) → (b : Ref sig .tc) → Buf (Elt F) ((c : Thread nD τ).loc b) := fun c b => W4 m c b
/-- After the closing host operations. -/
abbrev W5 : Dev nD → Valuation τ sig (Elt F) := fun c => StableHlo.after hostOps2 (W4 m c)

theorem W2_arr (c : Dev nD) (w : Fin cfg0.W) :
    W2 m c (Proc.devRef .tc (Pipeline.arrRef spec0 w)) = (Rg0.dat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (Rg1.dat (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- A buffer the transposes do not write is as launched after them; likewise for the other two host stretches. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-! ## The proof data family and the regions -/

/-- Both calls' proof data, each over the valuation its region is entered from. -/
def pdats : (p : Fin 2) → (c : Dev nD) → Dat τ (Elt F) Unit ℕ (UR sig nD τ) ℕ (Pipeline.pin (pcfgs (F := F)) adm p) c
  | ⟨0, _⟩ => fun c => Rg0.dat (U1 m) c
  | ⟨1, _⟩ => fun c => Rg1.dat (U3 m) c

/-- No core owes another anything: no level is assigned. -/
abbrev L : GSem nD τ sig → Finset Unit := fun _ => ∅
abbrev lv : GSem nD τ sig → Unit → ℕ := fun _ _ => 0

set_option backward.isDefEq.respectTransparency.types false in
/-- The first call as a region, entered from `W1` and left at `W2`. -/
def reg0 : Pipeline.RegionSeg (pcfgs (F := F)) adm (pdats m) () defs₀ Variants.none L lv 0 :=
  Pipeline.RegionSeg.ofHeld (pcfgs (F := F)) adm (pdats m) defs₀ Variants.none L lv 0
    winFacts0 block_pos0 arr_whole0 stage_whole0
    (fun c => Pipeline.emp_prefHeld_of_no_table _ rfl c _ _)
    (fun c => Rg0.body_obligation (U1 m) c)
    (fun _ _ => rfl) (fun _ _ => rfl) (fun _ => rfl)
    (W1 m) (W2 m)
    (fun c w => Rg0.A_eq (U1 m) c w)
    (fun c w => (W2_arr m c w).symm)
    (fun c b hb => W2_of_ne m c b fun w e => hb (Finset.mem_image.mpr ⟨w, Finset.mem_univ _, e⟩))
    (fun c => Rg0.hin (U1 m) c) (fun c => Rg0.hout (U1 m) c)

set_option backward.isDefEq.respectTransparency.types false in
/-- The second call as a region, entered from `W3` and left at `W4`. -/
def reg1 : Pipeline.RegionSeg (pcfgs (F := F)) adm (pdats m) () defs₀ Variants.none L lv 1 :=
  Pipeline.RegionSeg.ofHeld (pcfgs (F := F)) adm (pdats m) defs₀ Variants.none L lv 1
    winFacts1 block_pos1 arr_whole1 stage_whole1
    (fun c => Pipeline.emp_prefHeld_of_no_table _ rfl c _ _)
    (fun c => Rg1.body_obligation (U3 m) c)
    (fun _ _ => rfl) (fun _ _ => rfl) (fun _ => rfl)
    (W3 m) (W4 m)
    (fun c w => Rg1.A_eq (U3 m) c w)
    (fun c w => (W4_arr m c w).symm)
    (fun c b hb => W4_of_ne m c b fun w e => hb (Finset.mem_image.mpr ⟨w, Finset.mem_univ _, e⟩))
    (fun c => Rg1.hin (U3 m) c) (fun c => Rg1.hout (U3 m) c)

/-- A host stretch as a segment over the unscoped buffers from the valuation `W`, the generator register and the
    core's empty account riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (fun c => Pipeline.idleRest (Val := Elt F) (U := UR sig nD τ) c)

/-- The program's five items in order. -/
abbrev segs : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program on the cores terminates,
    nothing faulting, and every final memory holds each unscoped buffer at `W5`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Pipeline.idleRest (Val := Elt F) (U := UR sig nD τ) c))
    (Tₙ := fun c => StableHlo.held (c : Thread nD τ) (Pipeline.ucRefs τ sig) (W5 m c))
    (hch := ⟨fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The frame: no item writes an argument array -/

theorem W5_main_arg0 (c : Dev nD) : W5 m c main_arg0 = m ((c : Thread nD τ).loc main_arg0) :=
  calc W5 m c main_arg0
    _ = W4 m c main_arg0 := W5_of m c main_arg0 (by decide)
    _ = W3 m c main_arg0 := (W4_arr m c 1).trans (((Rg1.dat (U3 m) c).arrAt_in 1 rfl _).trans (Rg1.A_eq (U3 m) c 1))
    _ = W2 m c main_arg0 := W3_of m c main_arg0 (by decide)
    _ = W1 m c main_arg0 := W2_of_ne m c main_arg0 (by decide)
    _ = W0 m c main_arg0 := W1_of m c main_arg0 (by decide)
    _ = m ((c : Thread nD τ).loc main_arg0) := rfl

theorem W5_main_arg1 (c : Dev nD) : W5 m c main_arg1 = m ((c : Thread nD τ).loc main_arg1) :=
  calc W5 m c main_arg1
    _ = W4 m c main_arg1 := W5_of m c main_arg1 (by decide)
    _ = W3 m c main_arg1 := W4_of_ne m c main_arg1 (by decide)
    _ = W2 m c main_arg1 := W3_of m c main_arg1 (by decide)
    _ = W1 m c main_arg1 := (W2_arr m c 1).trans (((Rg0.dat (U1 m) c).arrAt_in 1 rfl _).trans (Rg0.A_eq (U1 m) c 1))
    _ = W0 m c main_arg1 := W1_of m c main_arg1 (by decide)
    _ = m ((c : Thread nD τ).loc main_arg1) := rfl

/-- The frame claim's statement, at any instance: the program runs and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_main m ρ)

end Cert.Kernel.Whole

end
-- ==== Proof.KI.R0.Shared.lean ====
/-
  One nearest-neighbour call of the program (queries: the columns of window 0's array, tile p of 1024; candidates: the
  rows of window 1's array, tile r of 1024; grid 12 × 12, point t = 12·p + r): what its body's three shapes of run share.

  The body branches twice on the candidate-tile coordinate r alone: at r = 0 it resets the running minimum kept in
  the scratch row to +∞; at r = 11 it copies the scratch row to the output block. So a point is of one of three
  kinds: first (r = 0), middle (0 < r < 11), last (r = 11). Both conditions are decided over the 144 points in closed
  form; the output window is idle (stored nothing, not written back) at first and middle points and live at last ones.

  The region's invariant between points is the class invariant with this call's own scratch row split out of the
  core's other scoped buffers, which no point of this call touches.
-/
import proofs.«109253_j35192962023870_1_alg».proof.Proof.Gen.KernelIdeal.Launch
import proofs.«109253_j35192962023870_1_alg».proof.Proof.Gen.KernelIdeal.Skeleton
import proofs.«109253_j35192962023870_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, over the grid -/

/-- "This is the first candidate tile": the body's first branch condition, as its scalar chain computes it. -/
abbrev isFirst (i : grid0.Coords) : Prop :=
  (Scalar.cmpi .ne (Scalar.extui (Scalar.cmpi .eq (BitVec.ofNat 32 (i 1).val) 0#32)) 0#32) = 1#1
/-- It holds exactly at the points 12·p + 0. -/
theorem isFirst_iff : ∀ t : Fin cfg0.N, isFirst (grid0.coords t) ↔ t.val % 12 = 0 :=
  (by decide +kernel : ∀ t : Fin grid0.N, isFirst (grid0.coords t) ↔ t.val % 12 = 0)

/-- "This is the last candidate tile": the body's second branch condition. -/
abbrev isLast (i : grid0.Coords) : Prop := k0_cond2 i = 1#1
/-- It holds exactly at the points 12·p + 11. -/
theorem isLast_iff : ∀ t : Fin cfg0.N, isLast (grid0.coords t) ↔ t.val % 12 = 11 :=
  (by decide +kernel : ∀ t : Fin grid0.N, isLast (grid0.coords t) ↔ t.val % 12 = 11)

/-! ## Where the windows are idle -/

theorem live_q : ∀ t : Fin cfg0.N, cfg0.idle 0 (grid0.coords t) = false := by decide +kernel
theorem live_r : ∀ t : Fin cfg0.N, cfg0.idle 1 (grid0.coords t) = false := by decide +kernel
/-- Before the last candidate tile the output block is neither stored into nor written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At the last candidate tile it is stored into. -/
theorem live_out : ∀ t : Fin cfg0.N, isLast (grid0.coords t) → cfg0.idle 2 (grid0.coords t) = false := by decide +kernel

/-! ## The memrefs the body is called with -/

abbrev mq (t : Fin cfg0.N) : Memref sig .tc .vmem S3x1024 .f32 := win0_0.stage (cfg0.slots t 0)
abbrev hmq (t : Fin cfg0.N) : (mq t).IsWhole := hstage0_0 ((cfg0.slots t 0).cast nbuf0_0)
abbrev mr (t : Fin cfg0.N) : Memref sig .tc .vmem S1024x3 .f32 := win0_1.stage (cfg0.slots t 1)
abbrev hmr (t : Fin cfg0.N) : (mr t).IsWhole := hstage0_1 ((cfg0.slots t 1).cast nbuf0_1)
abbrev mo (t : Fin cfg0.N) : Memref sig .tc .vmem S1x1024 .f32 := win0_2.stage (cfg0.slots t 2)
abbrev hmo (t : Fin cfg0.N) : (mo t).IsWhole := hstage0_2 ((cfg0.slots t 2).cast nbuf0_2)
/-- The scratch row holding the running minimum. -/
abbrev msc : Memref sig .tc .vmem S1x1024 .f32 := Memref.whole cc0_scratch0
/-- One view of a row buffer, through which contents are stated (which buffer does not matter once covered). -/
abbrev vrow : View sig .tc .vmem S1x1024 .f32 := msc.view

/-! ## The class invariant with the scratch row split out -/

/-- The core's scoped buffers other than this call's staging buffers and scratch row, each at some contents. -/
abbrev others (c : Dev nD) : sProp 𝕄 :=
  Pipeline.scopedRestBut (Ix := Unit) (Name := ℕ) (U := UR sig nD τ) (Lvl := ℕ) (Val := Elt F) spec0 c [cc0_scratch0]

theorem PhiA_split (c : Dev nD) :
    (Pipeline.ΦA spec0 c : sProp 𝕄)
      = iprop(((∃ d, owns (c : Thread nD τ) msc fullShare d) ∗ others (F := F) c) ∗ (∃ r, prngReg c r)) := by
  unfold Pipeline.ΦA
  rw [Pipeline.scopedRest_split_of_list spec0 c [cc0_scratch0] (by decide) (by decide)]
  simp only [bigSepL, msc, owns_whole]
  try rfl

end Cert.KernelIdeal.Rg0

end
-- ==== Proof.KI.R0.RunFirst.lean ====
/-
  The body of this nearest-neighbour call run at a first candidate tile (the scratch row is reset, the output block is left alone): the printed function is its skeleton of loads and
  stores over named payloads, which the symbolic executor walks with both branches decided by the point's kind; the
  pieces each buffer is left with are found by that run and are this definition's witness.
-/
import proofs.«109253_j35192962023870_1_alg».proof.Proof.KI.R0.Shared

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a first point: the query and candidate blocks stay, the output buffer is handed back as found, and the scratch
    row, whatever it held, ends written with the found pieces. -/
noncomputable def runFirst (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) :
    { LS : List (View.Piece (Elt F) S1x1024 .f32) //
      ∀ (xo : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, fun xo E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Rg0

end
-- ==== Proof.KI.R0.RunMiddle.lean ====
/-
  The body of this nearest-neighbour call run at a middle candidate tile (the running minimum is updated, the output block is left alone): the printed function is its skeleton of loads and
  stores over named payloads, which the symbolic executor walks with both branches decided by the point's kind; the
  pieces each buffer is left with are found by that run and are this definition's witness.
-/
import proofs.«109253_j35192962023870_1_alg».proof.Proof.KI.R0.RunFirst

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle point: as at a first point, but the scratch row comes in at the contents the point before left. -/
noncomputable def runMiddle (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) :
    { LS : List (View.Piece (Elt F) S1x1024 .f32) //
      ∀ (xo : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, fun xo E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Rg0

end
-- ==== Proof.KI.R0.RunLast.lean ====
/-
  The body of this nearest-neighbour call run at a last candidate tile (the running minimum is updated and copied to the output block): the printed function is its skeleton of loads and
  stores over named payloads, which the symbolic executor walks with both branches decided by the point's kind; the
  pieces each buffer is left with are found by that run and are this definition's witness.
-/
import proofs.«109253_j35192962023870_1_alg».proof.Proof.KI.R0.RunMiddle

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a last point: the output buffer, whatever it held, ends written with its found pieces, the scratch row with its. -/
noncomputable def runLast (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) :
    Σ' (LO : List (View.Piece (Elt F) S1x1024 .f32)), { LS : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Rg0

end
-- ==== Proof.KI.R0.Frame.lean ====
/-
  This nearest-neighbour call as a pipeline region: what its buffers hold point by point, and that its body keeps
  that account.

  Point t = 12·p + r works on query tile p (block `iblk · 0 t`, 3 × 1024) and candidate tile r (block `iblk · 1 t`,
  1024 × 3). The scratch row after point t is `scAt t`: the body's found pieces read back — at a first point over
  nothing (the row is reset there), otherwise over what the point before left. The output block is stored at the last
  candidate tile only, with the scratch row's contents of that point (`outAt`); at every other point the window is
  idle and its buffer goes back untouched. The invariant between points is the class invariant before the first point
  and afterwards the same with the scratch row at `scAt` of the point just done. Proved here: each input's buffer holds
  its block at every point; the body obligation at every point (by the kind of the point, each kind its run); the class
  invariant leads into the first point and comes back after the last.
-/
import proofs.«109253_j35192962023870_1_alg».proof.Proof.KI.R0.RunLast

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The core's unscoped buffers as this region finds them.
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's current buffer holds its block at every point, fetched there or not (unfetched, the block
    index has not moved), for any proof data over these arrays whose body leaves the block in place. -/
theorem before_q_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the candidate window. -/
theorem before_r_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each kind of point leaves: the found pieces cover the rows they are written into -/

theorem scover_first (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) (y : S1x1024.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1x1024.size (by sl_kernel_rfl) y
/-- The scratch row after a first point. -/
def scFirst (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) : Vec F S1x1024 .f32 :=
  vrow.read (Elt F) (vrow.writes (Elt F) vrow.junk (runFirst c i arg2 harg2 arg3 harg3 arg4 harg4 arg5 harg5 hc0 hc1 x0 x1).1)

theorem scover_middle (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) (y : S1x1024.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S1x1024.size (by sl_kernel_rfl) y
/-- The scratch row after a middle point, over what the point before left. -/
def scMiddle (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) : Vec F S1x1024 .f32 :=
  vrow.read (Elt F) (vrow.writes (Elt F) vrow.junk (runMiddle c i arg2 harg2 arg3 harg3 arg4 harg4 arg5 harg5 hc0 hc1 x0 x1 xs).1)

theorem ocover_last (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) (y : S1x1024.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x1024.size (by sl_kernel_rfl) y
/-- The output block after a last point. -/
def outLast (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) : Vec F S1x1024 .f32 :=
  vrow.read (Elt F) (vrow.writes (Elt F) vrow.junk (runLast c i arg2 harg2 arg3 harg3 arg4 harg4 arg5 harg5 hc0 hc1 x0 x1 xs).1)
theorem scover_last (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) (y : S1x1024.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1x1024.size (by sl_kernel_rfl) y
/-- The scratch row after a last point. -/
def scLast (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) : Vec F S1x1024 .f32 :=
  vrow.read (Elt F) (vrow.writes (Elt F) vrow.junk (runLast c i arg2 harg2 arg3 harg3 arg4 harg4 arg5 harg5 hc0 hc1 x0 x1 xs).2.1)

/-! ## The scratch row and the output block, point by point -/

theorem not_last_of_first (t : Fin cfg0.N) (h0 : t.val % 12 = 0) : ¬isLast (grid0.coords t) :=
  fun h => by have := (isLast_iff t).mp h; omega

/-- THE RUNNING MINIMUM. The scratch row after the body at position `n`: by the kind of the point, over what
    position `n - 1` left unless the point is a first one. -/
def scAt (c : Dev nD) : (n : ℕ) → n < cfg0.N → Vec F S1x1024 .f32
  | 0, hn => scFirst c (grid0.coords ⟨0, hn⟩) (mq ⟨0, hn⟩) (hmq ⟨0, hn⟩) (mr ⟨0, hn⟩) (hmr ⟨0, hn⟩) (mo ⟨0, hn⟩) (hmo ⟨0, hn⟩) msc (Memref.isWhole_whole _) ((isFirst_iff ⟨0, hn⟩).mpr (Nat.zero_mod _)) (not_last_of_first ⟨0, hn⟩ (Nat.zero_mod _)) (iblk V c 0 ⟨0, hn⟩) (iblk V c 1 ⟨0, hn⟩)
  | n + 1, hn =>
    if h0 : (n + 1) % 12 = 0 then
      scFirst c (grid0.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) ((isFirst_iff ⟨n + 1, hn⟩).mpr h0) (not_last_of_first ⟨n + 1, hn⟩ h0) (iblk V c 0 ⟨n + 1, hn⟩) (iblk V c 1 ⟨n + 1, hn⟩)
    else if h1 : (n + 1) % 12 = 11 then
      scLast c (grid0.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (scAt c n (Nat.lt_of_succ_lt hn))
    else
      scMiddle c (grid0.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (scAt c n (Nat.lt_of_succ_lt hn))

/-- What the point before `t` left in the scratch row (read only where `t` is no first point). -/
abbrev scPrev (c : Dev nD) (t : Fin cfg0.N) : Vec F S1x1024 .f32 :=
  scAt V c (t.val - 1) (Nat.lt_of_le_of_lt (Nat.sub_le _ _) t.isLt)

theorem scAt_first (c : Dev nD) (t : Fin cfg0.N) (h0 : t.val % 12 = 0) :
    scAt V c t.val t.isLt = scFirst c (grid0.coords t) (mq t) (hmq t) (mr t) (hmr t) (mo t) (hmo t) msc (Memref.isWhole_whole _) ((isFirst_iff t).mpr h0) (not_last_of_first t h0) (iblk V c 0 t) (iblk V c 1 t) := by
  obtain ⟨n, hn⟩ := t
  cases n with
  | zero => exact rfl
  | succ n => exact (dif_pos h0).trans rfl

theorem scAt_last (c : Dev nD) (t : Fin cfg0.N) (h0 : ¬t.val % 12 = 0) (h1 : t.val % 12 = 11) :
    scAt V c t.val t.isLt = scLast c (grid0.coords t) (mq t) (hmq t) (mr t) (hmr t) (mo t) (hmo t) msc (Memref.isWhole_whole _) (fun h => h0 ((isFirst_iff t).mp h)) ((isLast_iff t).mpr h1) (iblk V c 0 t) (iblk V c 1 t) (scPrev V c t) := by
  obtain ⟨n, hn⟩ := t
  cases n with
  | zero => exact (by exfalso; (try dsimp only at h0); exact absurd (Nat.zero_mod _) h0)
  | succ n => exact (dif_neg h0).trans ((dif_pos h1).trans rfl)

theorem scAt_middle (c : Dev nD) (t : Fin cfg0.N) (h0 : ¬t.val % 12 = 0) (h1 : ¬t.val % 12 = 11) :
    scAt V c t.val t.isLt = scMiddle c (grid0.coords t) (mq t) (hmq t) (mr t) (hmr t) (mo t) (hmo t) msc (Memref.isWhole_whole _) (fun h => h0 ((isFirst_iff t).mp h)) (fun h => h1 ((isLast_iff t).mp h)) (iblk V c 0 t) (iblk V c 1 t) (scPrev V c t) := by
  obtain ⟨n, hn⟩ := t
  cases n with
  | zero => exact (by exfalso; (try dsimp only at h0); exact absurd (Nat.zero_mod _) h0)
  | succ n => exact (dif_neg h0).trans ((dif_neg h1).trans rfl)

/-- The output block after the body at point `t`: stored at a last point only; elsewhere the window is idle and
    this value is read by nothing. -/
def outAt (c : Dev nD) (t : Fin cfg0.N) : Vec F S1x1024 .f32 :=
  if h1 : t.val % 12 = 11 then
    outLast c (grid0.coords t) (mq t) (hmq t) (mr t) (hmr t) (mo t) (hmo t) msc (Memref.isWhole_whole _) (fun h => by have := (isFirst_iff t).mp h; omega) ((isLast_iff t).mpr h1) (iblk V c 0 t) (iblk V c 1 t) (scPrev V c t)
  else vrow.read (Elt F) vrow.junk

theorem outAt_last (c : Dev nD) (t : Fin cfg0.N) (h0 : ¬t.val % 12 = 0) (h1 : t.val % 12 = 11) :
    outAt V c t = outLast c (grid0.coords t) (mq t) (hmq t) (mr t) (hmr t) (mo t) (hmo t) msc (Memref.isWhole_whole _) (fun h => h0 ((isFirst_iff t).mp h)) ((isLast_iff t).mpr h1) (iblk V c 0 t) (iblk V c 1 t) (scPrev V c t) := by
  unfold outAt; exact (dif_pos h1).trans rfl

/-! ## The invariant between points -/

/-- Before the first point the class invariant; after point `n` the same with the scratch row at `scAt n`. -/
def PhiS (c : Dev nD) : (n : ℕ) → n ≤ cfg0.N → sProp 𝕄
  | 0, _ => Pipeline.ΦA spec0 c
  | n + 1, hn => iprop((owns (c : Thread nD τ) msc fullShare (scAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) msc fullShare (scAt V c n hn) ∗ others (F := F) c) ∗ (∃ r, prngReg c r)) := rfl
theorem PhiS_pos (c : Dev nD) (n : ℕ) (h : n ≤ cfg0.N) (hz : n ≠ 0) :
    PhiS V c n h = iprop((owns (c : Thread nD τ) msc fullShare (scAt V c (n - 1) (by omega)) ∗ others (F := F) c) ∗ (∃ r, prngReg c r)) := by
  cases n with
  | zero => exact absurd rfl hz
  | succ n => rfl

/-! ## The proof data -/

/-- The region's proof data on core `c`: the arrays as found; after the body each input's buffer at its block and the
    output's at `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after_q (c : Dev nD) (t : Fin cfg0.N) : (dat V c).after 0 t = iblk V c 0 t := by dsimp only [dat]
theorem after_r (c : Dev nD) (t : Fin cfg0.N) : (dat V c).after 1 t = iblk V c 1 t := by dsimp only [dat]
theorem after_o (c : Dev nD) (t : Fin cfg0.N) : (dat V c).after 2 t = outAt V c t := by dsimp only [dat]
theorem before_q (c : Dev nD) (t : Fin cfg0.N) (d) : (dat V c).before 0 t d = iblk V c 0 t :=
  before_q_of V (dat V c) (A_eq V c 0) (after_q V c) t d
theorem before_r (c : Dev nD) (t : Fin cfg0.N) (d) : (dat V c).before 1 t d = iblk V c 1 t :=
  before_r_of V (dat V c) (A_eq V c 1) (after_r V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mr t) fullShare ((dat V c).before 1 t d))
    ∗ (∃ d, owns (c : Thread nD τ) (mo t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's kind picks the run; the invariant hands
    the scratch row over at what the point before left (at anything before the first point, which resets it) and takes
    it back at this point's contents, the found pieces covering the row; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_r]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mq t) fullShare ((dat V c).after 0 t) from by
    unfold Dat.leavesExact; rw [live_q t], after_q]
  rw [show (dat V c).leavesExact 1 t = owns (c : Thread nD τ) (mr t) fullShare ((dat V c).after 1 t) from by
    unfold Dat.leavesExact; rw [live_r t], after_r]
  have hN : t.val < 144 := lt_of_lt_of_eq t.isLt (show cfg0.N = 144 from N_0)
  by_cases h0 : t.val % 12 = 0
  · have hnl : ¬isLast (grid0.coords t) := not_last_of_first t h0
    rw [Dat.leavesExact_idle (dat V c) 2 t (idle_out t hnl) (noFlush_out t hnl)]
    rw [scAt_first V c t h0]
    unfold scFirst; (try dsimp only)
    have hgive : (dat V c).Φ t.castSucc ⊢ (iprop(((∃ d, owns (c : Thread nD τ) msc fullShare d) ∗ others (F := F) c) ∗ (∃ r, prngReg c r)) : sProp 𝕄) := by
      rw [Phi_castSucc V c t]
      by_cases hz : t.val = 0
      · rw [PhiS_zero V c _ _ hz, PhiA_split]
      · rw [PhiS_pos V c _ _ hz]
        iintro ⟨⟨HS0, Hoth⟩, Hg⟩
        isplitr [Hg]
        · isplitl [HS0]; · iexists _; iexact HS0
          iexact Hoth
        iexact Hg
    iintro ⟨HΦ, Ho, ⟨%d0, H0⟩, ⟨%d1, H1⟩, ⟨%d2, H2⟩⟩
    ihave HΦ' := hgive $$ HΦ
    icases HΦ' with ⟨⟨HS0, Hoth⟩, Hg⟩
    iapply ((runFirst c (grid0.coords t) (mq t) (hmq t) (mr t) (hmr t) (mo t) (hmo t) msc (Memref.isWhole_whole _) ((isFirst_iff t).mpr h0) hnl (iblk V c 0 t) (iblk V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitr [Hg]
      · isplitl [HS0]
        · unfold owns; iexists _; isplitr
          swap; · iexact HS0
          ipureintro; exact View.read_writes_of_cover _ _ _ _ _ (scover_first c _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun e => h0 (by rw [e])
    have hnf : ¬isFirst (grid0.coords t) := fun h => h0 ((isFirst_iff t).mp h)
    rw [Phi_castSucc V c t, PhiS_pos V c _ _ hz]
    by_cases h1 : t.val % 12 = 11
    · have hl : isLast (grid0.coords t) := (isLast_iff t).mpr h1
      rw [show (dat V c).leavesExact 2 t = owns (c : Thread nD τ) (mo t) fullShare ((dat V c).after 2 t) from by
        unfold Dat.leavesExact; rw [live_out t hl], after_o]
      rw [scAt_last V c t h0 h1, outAt_last V c t h0 h1]
      unfold scLast outLast; (try dsimp only)
      iintro ⟨⟨⟨HS0, Hoth⟩, Hg⟩, Ho, ⟨%d0, H0⟩, ⟨%d1, H1⟩, ⟨%d2, H2⟩⟩
      iapply ((runLast c (grid0.coords t) (mq t) (hmq t) (mr t) (hmr t) (mo t) (hmo t) msc (Memref.isWhole_whole _) hnf hl (iblk V c 0 t) (iblk V c 1 t) (scPrev V c t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitr [Hg]
        · isplitl [HS0]
          · unfold owns; iexists _; isplitr
            swap; · iexact HS0
            ipureintro; exact View.read_writes_of_cover _ _ _ _ _ (scover_last c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (ocover_last c _ _ _ _ _ _ _ _ _ _ _ _ _ _)
    · have hnl : ¬isLast (grid0.coords t) := fun h => h1 ((isLast_iff t).mp h)
      rw [Dat.leavesExact_idle (dat V c) 2 t (idle_out t hnl) (noFlush_out t hnl)]
      rw [scAt_middle V c t h0 h1]
      unfold scMiddle; (try dsimp only)
      iintro ⟨⟨⟨HS0, Hoth⟩, Hg⟩, Ho, ⟨%d0, H0⟩, ⟨%d1, H1⟩, ⟨%d2, H2⟩⟩
      iapply ((runMiddle c (grid0.coords t) (mq t) (hmq t) (mr t) (hmr t) (mo t) (hmo t) msc (Memref.isWhole_whole _) hnf hnl (iblk V c 0 t) (iblk V c 1 t) (scPrev V c t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitr [Hg]
        · isplitl [HS0]
          · unfold owns; iexists _; isplitr
            swap; · iexact HS0
            ipureintro; exact View.read_writes_of_cover _ _ _ _ _ (scover_middle c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- The class invariant is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch row's contents are forgotten. -/
theorem hout (c : Dev nD) : (dat V c).Φ (Fin.last cfg0.N) ⊢ Pipeline.ΦA spec0 c := by
  have ht : (Fin.last cfg0.N).val ≠ 0 := by rw [Fin.val_last]; have : cfg0.N = 144 := N_0; omega
  rw [show (dat V c).Φ (Fin.last cfg0.N) = PhiS V c (Fin.last cfg0.N).val (Nat.le_of_lt_succ (Fin.last cfg0.N).isLt) from rfl,
    PhiS_pos V c _ _ ht, PhiA_split]
  iintro ⟨⟨HS0, Hoth⟩, Hg⟩
  isplitr [Hg]
  · isplitl [HS0]; · iexists _; iexact HS0
    iexact Hoth
  iexact Hg

end Cert.KernelIdeal.Rg0

end
-- ==== Proof.KI.R0.Pieces.lean ====
/-
  What each kind of point of this nearest-neighbour call leaves, as the body's two payload terms: after a first point
  the scratch row is the update of the +∞ row; after a middle or a last point it is the update of the row found; and
  what a last point stores into the output block is that updated row.
-/
import proofs.«109253_j35192962023870_1_alg».proof.Proof.KI.R0.Frame
import Idealize.ShloMosaic.Lib.Pipeline.Value

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer rectangle, as a function. -/
theorem hz : (![0, 0] : Fin 2 → ℕ) = fun _ => 0 := by
  funext a; match a with | ⟨0, _⟩ => rfl | ⟨1, _⟩ => rfl

theorem scFirst_eq (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) :
    scFirst c i arg2 harg2 arg3 harg3 arg4 harg4 arg5 harg5 hc0 hc1 x0 x1 = k0_pay2 x0 x1 (k0_pay1 (F := F)) := by
  unfold scFirst
  rw [View.read_writes_eq_canon _ _ _ (scover_first c i arg2 harg2 arg3 harg3 arg4 harg4 arg5 harg5 hc0 hc1 x0 x1)]
  unfold runFirst
  dsimp only
  sl_unfold_words
  rw [View.canon_cons_unit_zero (S := S1x1024) hz, View.readCov_unit_zero (S := S1x1024) _ hz]
  simp only [View.readAt_eq_ld, harg2.read_unread, harg3.read_unread, harg5.read_unread,
    View.ld_unit_zero (S := S3x1024) hz, View.ld_unit_zero (S := S1024x3) hz, View.ld_unit_zero (S := S1x1024) hz]

theorem scMiddle_eq (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) :
    scMiddle c i arg2 harg2 arg3 harg3 arg4 harg4 arg5 harg5 hc0 hc1 x0 x1 xs = k0_pay2 x0 x1 xs := by
  unfold scMiddle
  rw [View.read_writes_eq_canon _ _ _ (scover_middle c i arg2 harg2 arg3 harg3 arg4 harg4 arg5 harg5 hc0 hc1 x0 x1 xs)]
  unfold runMiddle
  dsimp only
  sl_unfold_words
  rw [View.canon_unit_zero (S := S1x1024) hz]
  simp only [View.readAt_eq_ld, harg2.read_unread, harg3.read_unread, harg5.read_unread,
    View.ld_unit_zero (S := S3x1024) hz, View.ld_unit_zero (S := S1024x3) hz, View.ld_unit_zero (S := S1x1024) hz]

theorem scLast_eq (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) :
    scLast c i arg2 harg2 arg3 harg3 arg4 harg4 arg5 harg5 hc0 hc1 x0 x1 xs = k0_pay2 x0 x1 xs := by
  unfold scLast
  rw [View.read_writes_eq_canon _ _ _ (scover_last c i arg2 harg2 arg3 harg3 arg4 harg4 arg5 harg5 hc0 hc1 x0 x1 xs)]
  unfold runLast
  dsimp only
  sl_unfold_words
  rw [View.canon_unit_zero (S := S1x1024) hz]
  simp only [View.readAt_eq_ld, harg2.read_unread, harg3.read_unread, harg5.read_unread,
    View.ld_unit_zero (S := S3x1024) hz, View.ld_unit_zero (S := S1024x3) hz, View.ld_unit_zero (S := S1x1024) hz]

theorem outLast_eq (c : Dev nD) (i : grid0.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) :
    outLast c i arg2 harg2 arg3 harg3 arg4 harg4 arg5 harg5 hc0 hc1 x0 x1 xs = k0_pay2 x0 x1 xs := by
  unfold outLast
  rw [View.read_writes_eq_canon _ _ _ (ocover_last c i arg2 harg2 arg3 harg3 arg4 harg4 arg5 harg5 hc0 hc1 x0 x1 xs)]
  unfold runLast
  dsimp only
  sl_unfold_words
  rw [View.canon_unit_zero (S := S1x1024) hz, View.readCov_unit_zero (S := S1x1024) _ hz]
  simp only [View.readAt_eq_ld, harg2.read_unread, harg3.read_unread, harg5.read_unread,
    View.ld_unit_zero (S := S3x1024) hz, View.ld_unit_zero (S := S1024x3) hz, View.ld_unit_zero (S := S1x1024) hz]

/-! ## The scratch row point by point, through the payload -/

variable (V : (c : Dev nD) → (b : Ref sig .tc) → Buf (Elt F) ((c : Thread nD τ).loc b))

/-- After a first point: the +∞ row updated with the point's two blocks. -/
theorem scAt_first_pay (c : Dev nD) (t : Fin cfg0.N) (h0 : t.val % 12 = 0) :
    scAt V c t.val t.isLt = k0_pay2 (iblk V c 0 t) (iblk V c 1 t) (k0_pay1 (F := F)) := by
  rw [scAt_first V c t h0]; exact scFirst_eq ..

/-- After any other point: what the point before left, updated with the point's two blocks. -/
theorem scAt_next_pay (c : Dev nD) (t : Fin cfg0.N) (h0 : ¬t.val % 12 = 0) :
    scAt V c t.val t.isLt = k0_pay2 (iblk V c 0 t) (iblk V c 1 t) (scPrev V c t) := by
  by_cases h1 : t.val % 12 = 11
  · rw [scAt_last V c t h0 h1]; exact scLast_eq ..
  · rw [scAt_middle V c t h0 h1]; exact scMiddle_eq ..

/-- At a last point the output block is the scratch row of that point. -/
theorem outAt_last_pay (c : Dev nD) (t : Fin cfg0.N) (h1 : t.val % 12 = 11) :
    outAt V c t = scAt V c t.val t.isLt := by
  have h0 : ¬t.val % 12 = 0 := by omega
  rw [outAt_last V c t h0 h1, scAt_last V c t h0 h1, outLast_eq, scLast_eq]

end Cert.KernelIdeal.Rg0

end
-- ==== Proof.KI.R0.Blocks.lean ====
/-
  Where this nearest-neighbour call's blocks sit in its arrays, and what its output array holds after the run.

  At point t = 12·p + r the query block is columns 1024·p … 1024·p + 1023 of the query array (all three rows), the
  candidate block is rows 1024·r … 1024·r + 1023 of the candidate array (all three columns), and the output block,
  written back at the points with r = 11 only, is columns 1024·p … 1024·p + 1023 of the one-row output array. The twelve
  written-back blocks tile the output array, so a property every written-back entry has, every entry of the array has
  after the run.
-/
import proofs.«109253_j35192962023870_1_alg».proof.Proof.KI.R0.Pieces
import Idealize.ShloMosaic.Lib.Pipeline.Value
import Idealize.ShloMosaic.Lib.ValueIdx

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The query array (3 × 12288: one column a point), the candidate array (12288 × 3: one row a point) and the output
    array (1 × 12288) after the run, at their literal types. -/
def qArr (c : Dev nD) : Vec F S3x12288 .f32 := V c (Pipeline.arrRef spec0 0)
def rArr (c : Dev nD) : Vec F S12288x3 .f32 := V c (Pipeline.arrRef spec0 1)
def oArr (c : Dev nD) : Vec F S1x12288 .f32 := (dat V c).arrAt 2 cfg0.N

theorem point_lt (t : Fin cfg0.N) (j : Fin 1024) : 1024 * (t.val / 12) + j.val < 12288 := by
  have : t.val < 144 := lt_of_lt_of_eq t.isLt (show cfg0.N = 144 from N_0); omega
theorem cand_lt (t : Fin cfg0.N) (k : Fin 1024) : 1024 * (t.val % 12) + k.val < 12288 := by
  have := Nat.mod_lt t.val (show 12 > 0 by decide); omega

/-- The printed index maps, decided once over the grid: the query window's block index is (0, t / 12), -/
theorem idx_q : ∀ t : Fin cfg0.N, win0_0.index t (0 : Fin 2) = 0 ∧ win0_0.index t (1 : Fin 2) = t.val / 12 :=
  (by decide +kernel : ∀ t : Fin grid0.N, win0_0.index t (0 : Fin 2) = 0 ∧ win0_0.index t (1 : Fin 2) = t.val / 12)
/-- the candidate window's is (t % 12, 0), -/
theorem idx_r : ∀ t : Fin cfg0.N, win0_1.index t (0 : Fin 2) = t.val % 12 ∧ win0_1.index t (1 : Fin 2) = 0 :=
  (by decide +kernel : ∀ t : Fin grid0.N, win0_1.index t (0 : Fin 2) = t.val % 12 ∧ win0_1.index t (1 : Fin 2) = 0)
/-- and the output window's is (0, t / 12). -/
theorem idx_o : ∀ t : Fin cfg0.N, win0_2.index t (0 : Fin 2) = 0 ∧ win0_2.index t (1 : Fin 2) = t.val / 12 :=
  (by decide +kernel : ∀ t : Fin grid0.N, win0_2.index t (0 : Fin 2) = 0 ∧ win0_2.index t (1 : Fin 2) = t.val / 12)

/-- The query block at point `t`, entry (a, j), is the query array at row a, column 1024·(t / 12) + j. -/
theorem iblk_q_apply (c : Dev nD) (t : Fin cfg0.N) (a : Fin 3) (j : Fin 1024) :
    (iblk V c 0 t : Vec F S3x1024 .f32) (ix2 a j) = qArr V c (ix2 a ⟨1024 * (t.val / 12) + j.val, point_lt t j⟩) := by
  obtain ⟨e0, e1⟩ := idx_q t
  unfold iblk qArr
  rw [View.read_apply]
  show V c (Pipeline.arrRef spec0 0) _ = V c (Pipeline.arrRef spec0 0) _
  congr 1
  funext b
  apply Fin.ext
  match b with
  | ⟨0, _⟩ => show win0_0.index t (0 : Fin 2) * 3 + 1 * a.val = a.val; rw [e0]; omega
  | ⟨1, _⟩ => show win0_0.index t (1 : Fin 2) * 1024 + 1 * j.val = 1024 * (t.val / 12) + j.val; rw [e1]; omega

/-- The candidate block at point `t`, entry (k, a), is the candidate array at row 1024·(t % 12) + k, column a. -/
theorem iblk_r_apply (c : Dev nD) (t : Fin cfg0.N) (k : Fin 1024) (a : Fin 3) :
    (iblk V c 1 t : Vec F S1024x3 .f32) (ix2 k a) = rArr V c (ix2 ⟨1024 * (t.val % 12) + k.val, cand_lt t k⟩ a) := by
  obtain ⟨e0, e1⟩ := idx_r t
  unfold iblk rArr
  rw [View.read_apply]
  show V c (Pipeline.arrRef spec0 1) _ = V c (Pipeline.arrRef spec0 1) _
  congr 1
  funext b
  apply Fin.ext
  match b with
  | ⟨0, _⟩ => show win0_1.index t (0 : Fin 2) * 1024 + 1 * k.val = 1024 * (t.val % 12) + k.val; rw [e0]; omega
  | ⟨1, _⟩ => show win0_1.index t (1 : Fin 2) * 3 + 1 * a.val = a.val; rw [e1]; omega

/-- A property that every entry of every written-back output block has, at its place in the array, every entry of the
    output array has after the run. -/
theorem oArr_forall (c : Dev nD) (P : Fin 12288 → Elt F .f32 → Prop)
    (h : ∀ (t : Fin cfg0.N), t.val % 12 = 11 → ∀ j : Fin 1024,
      P ⟨1024 * (t.val / 12) + j.val, point_lt t j⟩ (outAt V c t (ix2 0 j)))
    (q : Fin 12288) : P q (oArr V c (ix2 0 q)) := by
  unfold oArr
  refine (dat V c).arrAt_forall_of_cover 2
    (fun (i : S1x12288.Idx) (v : Elt F .f32) => P ⟨(i 1).val, (i 1).isLt⟩ v) ?_ ?_ (ix2 0 q)
  · -- every written-back entry has the property, at its place in the array
    intro t hf y
    have h11 : t.val % 12 = 11 := (flush0_2 t).mp hf
    obtain ⟨e0, e1⟩ := idx_o t
    have hy1 : (y 1).val < 1024 := (y 1).isLt
    have hidx : (⟨(((cfg0.win 2).blk t).view.emb y 1).val, (((cfg0.win 2).blk t).view.emb y 1).isLt⟩ : Fin 12288)
        = ⟨1024 * (t.val / 12) + (⟨(y 1).val, hy1⟩ : Fin 1024).val, point_lt t ⟨(y 1).val, hy1⟩⟩ :=
      Fin.ext (by
        show win0_2.index t (1 : Fin 2) * 1024 + 1 * (y 1).val = 1024 * (t.val / 12) + (y 1).val
        rw [e1]; omega)
    have hval : (dat V c).flushed 2 t y = outAt V c t (ix2 0 ⟨(y 1).val, hy1⟩) := by
      show (cfg0.win 2).cut (grid0.coords t) ((dat V c).after 2 t) y = _
      rw [after_o]
      show outAt V c t _ = outAt V c t _
      congr 1
      funext b
      apply Fin.ext
      match b with
      | ⟨0, _⟩ => show (y 0).val = 0; have hy0 : (y 0).val < 1 := (y 0).isLt; omega
      | ⟨1, _⟩ => rfl
    exact (congrArg₂ P hidx hval).mpr (h t h11 ⟨(y 1).val, hy1⟩)
  · -- the twelve written-back blocks cover the array
    intro (i : S1x12288.Idx)
    have hq : (i 1).val < 12288 := (i 1).isLt
    have hi0 : (i 0).val < 1 := (i 0).isLt
    have htN : 12 * ((i 1).val / 1024) + 11 < cfg0.N := lt_of_lt_of_eq (by omega) (N_0).symm
    obtain ⟨e0, e1⟩ := idx_o ⟨12 * ((i 1).val / 1024) + 11, htN⟩
    have e1' : win0_2.index ⟨12 * ((i 1).val / 1024) + 11, htN⟩ (1 : Fin 2) = (12 * ((i 1).val / 1024) + 11) / 12 := e1
    refine ⟨⟨12 * ((i 1).val / 1024) + 11, htN⟩, (flush0_2 _).mpr (by show (12 * ((i 1).val / 1024) + 11) % 12 = 11; omega), ?_⟩
    have hm : (i 1).val % 1024 < 1024 := Nat.mod_lt _ (by decide)
    have hpre : i = ((cfg0.win 2).blk ⟨12 * ((i 1).val / 1024) + 11, htN⟩).view.emb (ix2 (0 : Fin 1) ⟨(i 1).val % 1024, hm⟩) := by
      funext b
      apply Fin.ext
      match b with
      | ⟨0, _⟩ =>
        show (i 0).val = win0_2.index ⟨12 * ((i 1).val / 1024) + 11, htN⟩ (0 : Fin 2) * 1 + 1 * 0
        rw [e0]; omega
      | ⟨1, _⟩ =>
        show (i 1).val = win0_2.index ⟨12 * ((i 1).val / 1024) + 11, htN⟩ (1 : Fin 2) * 1024 + 1 * ((i 1).val % 1024)
        rw [e1']; omega
    exact (congrArg (fun z => z ∈ ((cfg0.win 2).blk ⟨12 * ((i 1).val / 1024) + 11, htN⟩).view.set) hpre).mpr
      (View.emb_mem_set _ _)

end Cert.KernelIdeal.Rg0

end
-- ==== Proof.Spec.lean ====
/-
  Nearest-neighbour distances between two clouds of 12288 points in space, over the extended reals.

  `dist q r n m` is the Euclidean distance from point `n` of `q` to point `m` of `r`, written as the sum of the three
  squared coordinate differences (candidate minus query, added left to right), clamped below at zero, under the square
  root. A row of nearest-neighbour distances is characterised by its universal property: `z` is below the nearest
  distance from `n` exactly when it is below the distance to every candidate.
-/
import Idealize.ShloMosaic.PureOps.Ideal
import Idealize.ShloMosaic.Lib.ValueIdx

noncomputable section

namespace Cert.NN

open Idealize.ShloMosaic Idealize.ShloMosaic.ValueIdx

/-- A cloud of 12288 points, one row a point, over the extended reals. -/
abbrev Pts : Type := (⟨2, ![12288, 3]⟩ : Shape).Idx → EReal

/-- The square of a difference. -/
def sq (x y : EReal) : EReal := (x - y) * (x - y)

/-- The distance from point `n` of `q` to point `m` of `r`. -/
def dist (q r : Pts) (n m : Fin 12288) : EReal :=
  Ideal.sqrt (max ((sq (r (ix2 m 0)) (q (ix2 n 0)) + sq (r (ix2 m 1)) (q (ix2 n 1))) + sq (r (ix2 m 2)) (q (ix2 n 2)))
    (Ideal.ofBits .f32 0x00000000#32))

/-- Every coordinate of the cloud is a real number. -/
def Finite (x : Pts) : Prop := ∀ i, ∃ v : ℝ, x i = (v : EReal)

end Cert.NN

end
-- ==== Proof.KI.R0.PayVal.lean ====
/-
  What the body of the first nearest-neighbour call computes, at an index: the row it stores into the scratch buffer
  is, entry by entry, the smaller of the row it found there and the least distance from that entry's query point to
  the 1024 candidate points of the tile.
-/
import proofs.«109253_j35192962023870_1_alg».proof.Proof.Spec
import proofs.«109253_j35192962023870_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay0

open Idealize.ShloMosaic Idealize.ShloMosaic.ValueIdx Cert.NN Cert.KernelIdeal Cert.KernelIdeal.Gen

/-- The distance from query point `j` of a query tile (3 × 1024: one column a point) to candidate point `k` of a
    candidate tile (1024 × 3: one row a point). -/
def tdist (x0 : Vec Ideal S3x1024 .f32) (x1 : Vec Ideal S1024x3 .f32) (k j : Fin 1024) : EReal :=
  Ideal.sqrt (max ((sq (x1 (ix2 k 0)) (x0 (ix2 0 j)) + sq (x1 (ix2 k 1)) (x0 (ix2 1 j))) + sq (x1 (ix2 k 2)) (x0 (ix2 2 j)))
    (Ideal.ofBits .f32 0x00000000#32))

/-- The word `0x7F800000` denotes +∞. -/
theorem ofBits_inf : Ideal.ofBits .f32 0x7F800000#32 = (⊤ : EReal) := by simp [Ideal.ofBits, Ideal.ieee]

/-- The row the scratch buffer is reset to is +∞ everywhere. -/
theorem pay1_top (j : Fin 1024) : k0_pay1 (F := Ideal) (ix2 0 j) = (⊤ : EReal) := by
  unfold k0_pay1
  rw [shapeCast_self]
  exact ofBits_inf

/-! ## The layout operations of the body, read at an index -/

/-- Column `c` of a candidate tile, spread over the lanes, reads at `(k, j)` the tile at `(k, c)`. -/
theorem col_spread (v : Vec Ideal S1024x3 .f32) (o : Nat) (h : S1024x3.Slices ![0, o] S1024x1) (c : Fin 3)
    (hc : c.val = o) (k j : Fin 1024) :
    broadcastTo S1024x1024 (extractStridedSlice S1024x1 ![0, o] v h) broadcasts_S1024x1_S1024x1024 (ix2 k j)
      = v (ix2 k c) := by
  refine (broadcastTo_apply _ broadcasts_S1024x1_S1024x1024 (ix2 k j) (ix2 k (0 : Fin 1)) fun ax => ?_).trans ?_
  · match ax with
    | ⟨0, _⟩ => rfl
    | ⟨1, _⟩ => rfl
  · exact slice2_axis1_apply o v h k (0 : Fin 1) c (by rw [hc]; rfl)

/-- Row `c` of a query tile, spread over the sublanes, reads at `(k, j)` the tile at `(c, j)`. -/
theorem row_spread (v : Vec Ideal S3x1024 .f32) (o : Nat) (h : S3x1024.Slices ![o, 0] S1x1024) (c : Fin 3)
    (hc : c.val = o) (k j : Fin 1024) :
    broadcastTo S1024x1024 (extractStridedSlice S1x1024 ![o, 0] v h) broadcasts_S1x1024_S1024x1024 (ix2 k j)
      = v (ix2 c j) := by
  refine (broadcastTo_1b_ab_apply _ broadcasts_S1x1024_S1024x1024 k j).trans ?_
  exact slice2_axis0_apply o v h (0 : Fin 1) j c (by rw [hc]; rfl)

/-- One squared coordinate difference of the body at `(k, j)`. -/
theorem sq_term (v3 : Vec Ideal S3x1024 .f32) (v5 : Vec Ideal S1024x3 .f32) (o : Nat)
    (h5 : S1024x3.Slices ![0, o] S1024x1) (h3 : S3x1024.Slices ![o, 0] S1x1024) (c : Fin 3) (hc : c.val = o)
    (k j : Fin 1024) :
    mulf (F := Ideal) (φ := .f32)
        (subf (broadcastTo S1024x1024 (extractStridedSlice S1024x1 ![0, o] v5 h5) broadcasts_S1024x1_S1024x1024)
          (broadcastTo S1024x1024 (extractStridedSlice S1x1024 ![o, 0] v3 h3) broadcasts_S1x1024_S1024x1024))
        (subf (broadcastTo S1024x1024 (extractStridedSlice S1024x1 ![0, o] v5 h5) broadcasts_S1024x1_S1024x1024)
          (broadcastTo S1024x1024 (extractStridedSlice S1x1024 ![o, 0] v3 h3) broadcasts_S1x1024_S1024x1024))
        (ix2 k j)
      = sq (v5 (ix2 k c)) (v3 (ix2 c j)) := by
  show (_ - _) * (_ - _) = _
  rw [col_spread v5 o h5 c hc k j, row_spread v3 o h3 c hc k j]
  rfl

/-- The pointwise tail of the body: sum of three terms, clamp at zero, square root. -/
theorem tail_apply (t0 t1 t2 : FVec Ideal S1024x1024 .f32) (p : S1024x1024.Idx) :
    sqrt (F := Ideal) (maximumf (addf (addf t0 t1) t2) (broadcast S1024x1024 (Scalar.ofBits .f32 0x00000000#32))) p
      = Ideal.sqrt (max ((t0 p + t1 p) + t2 p) (Ideal.ofBits .f32 0x00000000#32)) := rfl

/-- The source index over lane `j` with sublane coordinate `k`. -/
theorem lift_ix (j k : Fin 1024) :
    reduces_S1024x1024_S1024.lift (ix1 j) k = ix2 k j := by
  funext c
  apply Fin.ext
  match c with
  | ⟨0, _⟩ => rfl
  | ⟨1, _⟩ => rfl

/-- The minimum over the sublane axis, read at lane `j`: the fold of `min` from +∞ over the 1024 sublanes. -/
theorem min_sublanes (src : FVec Ideal S1024x1024 .f32) (j : Fin 1024) :
    multiReduction (F := Ideal) .minimumf [0] S1024 src 0x7F800000#32 reduces_S1024x1024_S1024 (.inl rfl) rfl (ix1 j)
      = (Finset.univ : Finset (Fin 1024)).fold min (⊤ : EReal) (fun k => src (ix2 k j)) := by
  refine (multiReduction_minimumf_eq_fold src _ reduces_S1024x1024_S1024 (.inl rfl) rfl (ix1 j)).trans ?_
  refine (reduces_S1024x1024_S1024.fold_filter_drop_single _ _ src (ix1 j)).trans ?_
  show (Finset.univ : Finset (Fin 1024)).fold min (Ideal.ofBits .f32 0x7F800000#32)
      (src ∘ reduces_S1024x1024_S1024.lift (ix1 j)) = _
  rw [ofBits_inf]
  exact congrArg (fun f => (Finset.univ : Finset (Fin 1024)).fold min (⊤ : EReal) f)
    (funext fun k => congrArg src (lift_ix j k))

/-- The outer casts and the minimum with the row found in the scratch buffer. -/
theorem outer_apply (xs : Vec Ideal S1x1024 .f32) (r : FVec Ideal S1024 .f32) (j : Fin 1024) :
    shapeCast S1x1024 (minimumf (F := Ideal) xs (shapeCast S1x1024 r shapeCasts_S1024_S1x1024)) shapeCasts_S1x1024_S1x1024
        (ix2 0 j)
      = min (xs (ix2 0 j)) (r (ix1 j)) := by
  rw [shapeCast_self]
  show min (xs (ix2 0 j)) (shapeCast S1x1024 r shapeCasts_S1024_S1x1024 (ix2 0 j)) = _
  rw [shapeCast_a_1a_apply r shapeCasts_S1024_S1x1024 0 j]

/-- The stored row at entry `j` is the smaller of the entry found and the least of the 1024 distances. -/
theorem pay2_eq (x0 : Vec Ideal S3x1024 .f32) (x1 : Vec Ideal S1024x3 .f32) (xs : Vec Ideal S1x1024 .f32)
    (j : Fin 1024) :
    k0_pay2 (F := Ideal) x0 x1 xs (ix2 0 j)
      = min (xs (ix2 0 j)) ((Finset.univ : Finset (Fin 1024)).fold min (⊤ : EReal) (fun k => tdist x0 x1 k j)) := by
  unfold k0_pay2
  refine (outer_apply xs _ j).trans ?_
  refine congrArg (min (xs (ix2 0 j))) ?_
  refine (min_sublanes _ j).trans ?_
  refine congrArg (fun f => (Finset.univ : Finset (Fin 1024)).fold min (⊤ : EReal) f) (funext fun k => ?_)
  refine (tail_apply _ _ _ (ix2 k j)).trans ?_
  have hx : shapeCast S3x1024 x0 shapeCasts_S3x1024_S3x1024 = x0 := shapeCast_self x0 _
  have e0 := (sq_term (shapeCast S3x1024 x0 shapeCasts_S3x1024_S3x1024) x1 0 slices_S1024x3_o0_0_S1024x1
    slices_S3x1024_o0_0_S1x1024 0 rfl k j).trans (congrArg (fun v => sq (x1 (ix2 k 0)) (v (ix2 0 j))) hx)
  have e1 := (sq_term (shapeCast S3x1024 x0 shapeCasts_S3x1024_S3x1024) x1 1 slices_S1024x3_o0_1_S1024x1
    slices_S3x1024_o1_0_S1x1024 1 rfl k j).trans (congrArg (fun v => sq (x1 (ix2 k 1)) (v (ix2 1 j))) hx)
  have e2 := (sq_term (shapeCast S3x1024 x0 shapeCasts_S3x1024_S3x1024) x1 2 slices_S1024x3_o0_2_S1024x1
    slices_S3x1024_o2_0_S1x1024 2 rfl k j).trans (congrArg (fun v => sq (x1 (ix2 k 2)) (v (ix2 2 j))) hx)
  unfold tdist
  exact congrArg (fun x => Ideal.sqrt (max x (Ideal.ofBits .f32 0x00000000#32)))
    (congrArg₂ (· + ·) (congrArg₂ (· + ·) e0 e1) e2)

/-- The stored row at entry `j`, by its universal property. -/
theorem pay2_le_iff (x0 : Vec Ideal S3x1024 .f32) (x1 : Vec Ideal S1024x3 .f32) (xs : Vec Ideal S1x1024 .f32)
    (j : Fin 1024) (z : EReal) :
    z ≤ k0_pay2 (F := Ideal) x0 x1 xs (ix2 0 j) ↔ z ≤ xs (ix2 0 j) ∧ ∀ k : Fin 1024, z ≤ tdist x0 x1 k j := by
  rw [pay2_eq, le_min_iff, Finset.le_fold_min]
  constructor
  · rintro ⟨h1, _, h2⟩
    exact ⟨h1, fun k => h2 k (Finset.mem_univ k)⟩
  · rintro ⟨h1, h2⟩
    exact ⟨h1, le_top, fun k _ => h2 k⟩

end Cert.KernelIdeal.Pay0

end
-- ==== Proof.KI.R0.Value.lean ====
/-
  The output of this nearest-neighbour call, at the exact (extended real) reading: entry q of the one-row output array
  is the least distance from query point q to the 12288 candidate points, stated by its universal property.

  At point t = 12·p + r the scratch row's entry j is the least distance from query point 1024·p + j to the candidate
  points of tiles 0 … r: reset and updated at r = 0, updated at every later r (induction on the point). At r = 11 that
  is every candidate, and the row is what is written back into columns 1024·p … of the output array.
-/
import proofs.«109253_j35192962023870_1_alg».proof.Proof.KI.R0.Blocks
import proofs.«109253_j35192962023870_1_alg».proof.Proof.KI.R0.PayVal

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.NN Cert.KernelIdeal.Pay0

variable (V : (c : Dev nD) → (b : Ref sig .tc) → Buf (Elt Ideal) ((c : Thread nD τ).loc b))

/-- The distance from query point `q` (a column of the query array) to candidate point `mm` (a row of the candidate
    array). -/
def gdist (c : Dev nD) (q mm : Fin 12288) : EReal :=
  Ideal.sqrt (max ((sq (rArr V c (ix2 mm 0)) (qArr V c (ix2 0 q)) + sq (rArr V c (ix2 mm 1)) (qArr V c (ix2 1 q)))
      + sq (rArr V c (ix2 mm 2)) (qArr V c (ix2 2 q))) (Ideal.ofBits .f32 0x00000000#32))

/-- Within the blocks of point `t` the tile distance is the distance between the points the blocks hold. -/
theorem tdist_blocks (c : Dev nD) (t : Fin cfg0.N) (k j : Fin 1024) :
    tdist (iblk V c 0 t) (iblk V c 1 t) k j
      = gdist V c ⟨1024 * (t.val / 12) + j.val, point_lt t j⟩ ⟨1024 * (t.val % 12) + k.val, cand_lt t k⟩ := by
  unfold tdist gdist
  rw [iblk_q_apply V c t 0 j, iblk_q_apply V c t 1 j, iblk_q_apply V c t 2 j,
    iblk_r_apply V c t k 0, iblk_r_apply V c t k 1, iblk_r_apply V c t k 2]

/-- THE RUNNING MINIMUM. After point `n` the scratch row's entry `j` is below-bounded by exactly the distances from its
    query point to the candidates of the tiles done so far. -/
theorem scAt_le_iff (c : Dev nD) : ∀ (n : ℕ) (hn : n < cfg0.N) (j : Fin 1024) (z : EReal),
    z ≤ scAt V c n hn (ix2 0 j) ↔
      ∀ mm : Fin 12288, mm.val < 1024 * (n % 12 + 1) → z ≤ gdist V c ⟨1024 * (n / 12) + j.val, point_lt ⟨n, hn⟩ j⟩ mm := by
  intro n
  induction n with
  | zero =>
    intro hn j z
    rw [show scAt V c 0 hn = scAt V c (⟨0, hn⟩ : Fin cfg0.N).val (⟨0, hn⟩ : Fin cfg0.N).isLt from rfl,
      scAt_first_pay V c ⟨0, hn⟩ (Nat.zero_mod _), pay2_le_iff, pay1_top]
    constructor
    · rintro ⟨-, h⟩ mm hmm
      have hk : mm.val < 1024 := by simpa using hmm
      have := h ⟨mm.val, hk⟩
      rw [tdist_blocks] at this
      convert this using 2
      exact Fin.ext (by simp)
    · intro h
      refine ⟨le_top, fun k => ?_⟩
      rw [tdist_blocks]
      exact h _ (by simp)
  | succ n ih =>
    intro hn j z
    have hN : n + 1 < 144 := lt_of_lt_of_eq hn (show cfg0.N = 144 from N_0)
    by_cases h0 : (n + 1) % 12 = 0
    · rw [show scAt V c (n + 1) hn = scAt V c (⟨n + 1, hn⟩ : Fin cfg0.N).val (⟨n + 1, hn⟩ : Fin cfg0.N).isLt from rfl,
        scAt_first_pay V c ⟨n + 1, hn⟩ h0, pay2_le_iff, pay1_top]
      constructor
      · rintro ⟨-, h⟩ mm hmm
        have hk : mm.val < 1024 := by rw [h0] at hmm; simpa using hmm
        have := h ⟨mm.val, hk⟩
        rw [tdist_blocks] at this
        convert this using 2
        exact Fin.ext (by simp [h0])
      · intro h
        refine ⟨le_top, fun k => ?_⟩
        rw [tdist_blocks]
        exact h _ (by simp only [h0]; have := k.isLt; omega)
    · rw [show scAt V c (n + 1) hn = scAt V c (⟨n + 1, hn⟩ : Fin cfg0.N).val (⟨n + 1, hn⟩ : Fin cfg0.N).isLt from rfl,
        scAt_next_pay V c ⟨n + 1, hn⟩ h0, pay2_le_iff]
      have hprev : scPrev V c ⟨n + 1, hn⟩ = scAt V c n (Nat.lt_of_succ_lt hn) := rfl
      rw [hprev, ih (Nat.lt_of_succ_lt hn) j z]
      have hdiv : n / 12 = (n + 1) / 12 := by omega
      have hmod : n % 12 + 1 = (n + 1) % 12 := by omega
      constructor
      · rintro ⟨hold, hnew⟩ mm hmm
        by_cases hlt : mm.val < 1024 * ((n + 1) % 12)
        · have := hold mm (by rw [hmod]; exact hlt)
          convert this using 2
          exact Fin.ext (by simp [hdiv])
        · have hk : mm.val - 1024 * ((n + 1) % 12) < 1024 := by omega
          have := hnew ⟨mm.val - 1024 * ((n + 1) % 12), hk⟩
          rw [tdist_blocks] at this
          convert this using 2
          exact Fin.ext (by simp; omega)
      · intro h
        refine ⟨fun mm hmm => ?_, fun k => ?_⟩
        · have := h mm (by rw [← hmod]; omega)
          convert this using 2
          exact Fin.ext (by simp [hdiv])
        · rw [tdist_blocks]
          exact h _ (by simp only; have := k.isLt; omega)

/-- THE OUTPUT ARRAY. Entry `q` after the run is below-bounded by exactly the distances from query point `q` to all the
    candidate points. -/
theorem oArr_le_iff (c : Dev nD) (q : Fin 12288) (z : EReal) :
    z ≤ oArr V c (ix2 0 q) ↔ ∀ mm : Fin 12288, z ≤ gdist V c q mm := by
  refine oArr_forall V c (fun q v => ∀ z : EReal, z ≤ v ↔ ∀ mm : Fin 12288, z ≤ gdist V c q mm) ?_ q z
  intro t ht j z
  rw [outAt_last_pay V c t ht, scAt_le_iff V c t.val t.isLt j z]
  constructor
  · intro h mm; exact h mm (by rw [ht]; exact mm.isLt)
  · intro h mm _; exact h mm

end Cert.KernelIdeal.Rg0

end
-- ==== Proof.KI.R1.Shared.lean ====
/-
  One nearest-neighbour call of the program (queries: the columns of window 0's array, tile p of 1024; candidates: the
  rows of window 1's array, tile r of 1024; grid 12 × 12, point t = 12·p + r): what its body's three shapes of run share.

  The body branches twice on the candidate-tile coordinate r alone: at r = 0 it resets the running minimum kept in
  the scratch row to +∞; at r = 11 it copies the scratch row to the output block. So a point is of one of three
  kinds: first (r = 0), middle (0 < r < 11), last (r = 11). Both conditions are decided over the 144 points in closed
  form; the output window is idle (stored nothing, not written back) at first and middle points and live at last ones.

  The region's invariant between points is the class invariant with this call's own scratch row split out of the
  core's other scoped buffers, which no point of this call touches.
-/
import proofs.«109253_j35192962023870_1_alg».proof.Proof.Gen.KernelIdeal.Launch
import proofs.«109253_j35192962023870_1_alg».proof.Proof.Gen.KernelIdeal.Skeleton
import proofs.«109253_j35192962023870_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, over the grid -/

/-- "This is the first candidate tile": the body's first branch condition, as its scalar chain computes it. -/
abbrev isFirst (i : grid1.Coords) : Prop :=
  (Scalar.cmpi .ne (Scalar.extui (Scalar.cmpi .eq (BitVec.ofNat 32 (i 1).val) 0#32)) 0#32) = 1#1
/-- It holds exactly at the points 12·p + 0. -/
theorem isFirst_iff : ∀ t : Fin cfg1.N, isFirst (grid1.coords t) ↔ t.val % 12 = 0 :=
  (by decide +kernel : ∀ t : Fin grid1.N, isFirst (grid1.coords t) ↔ t.val % 12 = 0)

/-- "This is the last candidate tile": the body's second branch condition. -/
abbrev isLast (i : grid1.Coords) : Prop := k1_cond2 i = 1#1
/-- It holds exactly at the points 12·p + 11. -/
theorem isLast_iff : ∀ t : Fin cfg1.N, isLast (grid1.coords t) ↔ t.val % 12 = 11 :=
  (by decide +kernel : ∀ t : Fin grid1.N, isLast (grid1.coords t) ↔ t.val % 12 = 11)

/-! ## Where the windows are idle -/

theorem live_q : ∀ t : Fin cfg1.N, cfg1.idle 0 (grid1.coords t) = false := by decide +kernel
theorem live_r : ∀ t : Fin cfg1.N, cfg1.idle 1 (grid1.coords t) = false := by decide +kernel
/-- Before the last candidate tile the output block is neither stored into nor written back. -/
theorem idle_out : ∀ t : Fin cfg1.N, ¬isLast (grid1.coords t) → cfg1.idle 2 (grid1.coords t) = true := by decide +kernel
theorem noFlush_out : ∀ t : Fin cfg1.N, ¬isLast (grid1.coords t) → (cfg1.win 2).flush t = false := by decide +kernel
/-- At the last candidate tile it is stored into. -/
theorem live_out : ∀ t : Fin cfg1.N, isLast (grid1.coords t) → cfg1.idle 2 (grid1.coords t) = false := by decide +kernel

/-! ## The memrefs the body is called with -/

abbrev mq (t : Fin cfg1.N) : Memref sig .tc .vmem S3x1024 .f32 := win1_0.stage (cfg1.slots t 0)
abbrev hmq (t : Fin cfg1.N) : (mq t).IsWhole := hstage1_0 ((cfg1.slots t 0).cast nbuf1_0)
abbrev mr (t : Fin cfg1.N) : Memref sig .tc .vmem S1024x3 .f32 := win1_1.stage (cfg1.slots t 1)
abbrev hmr (t : Fin cfg1.N) : (mr t).IsWhole := hstage1_1 ((cfg1.slots t 1).cast nbuf1_1)
abbrev mo (t : Fin cfg1.N) : Memref sig .tc .vmem S1x1024 .f32 := win1_2.stage (cfg1.slots t 2)
abbrev hmo (t : Fin cfg1.N) : (mo t).IsWhole := hstage1_2 ((cfg1.slots t 2).cast nbuf1_2)
/-- The scratch row holding the running minimum. -/
abbrev msc : Memref sig .tc .vmem S1x1024 .f32 := Memref.whole cc1_scratch0
/-- One view of a row buffer, through which contents are stated (which buffer does not matter once covered). -/
abbrev vrow : View sig .tc .vmem S1x1024 .f32 := msc.view

/-! ## The class invariant with the scratch row split out -/

/-- The core's scoped buffers other than this call's staging buffers and scratch row, each at some contents. -/
abbrev others (c : Dev nD) : sProp 𝕄 :=
  Pipeline.scopedRestBut (Ix := Unit) (Name := ℕ) (U := UR sig nD τ) (Lvl := ℕ) (Val := Elt F) spec1 c [cc1_scratch0]

theorem PhiA_split (c : Dev nD) :
    (Pipeline.ΦA spec1 c : sProp 𝕄)
      = iprop(((∃ d, owns (c : Thread nD τ) msc fullShare d) ∗ others (F := F) c) ∗ (∃ r, prngReg c r)) := by
  unfold Pipeline.ΦA
  rw [Pipeline.scopedRest_split_of_list spec1 c [cc1_scratch0] (by decide) (by decide)]
  simp only [bigSepL, msc, owns_whole]
  try rfl

end Cert.KernelIdeal.Rg1

end
-- ==== Proof.KI.R1.RunFirst.lean ====
/-
  The body of this nearest-neighbour call run at a first candidate tile (the scratch row is reset, the output block is left alone): the printed function is its skeleton of loads and
  stores over named payloads, which the symbolic executor walks with both branches decided by the point's kind; the
  pieces each buffer is left with are found by that run and are this definition's witness.
-/
import proofs.«109253_j35192962023870_1_alg».proof.Proof.KI.R1.Shared

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a first point: the query and candidate blocks stay, the output buffer is handed back as found, and the scratch
    row, whatever it held, ends written with the found pieces. -/
noncomputable def runFirst (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) :
    { LS : List (View.Piece (Elt F) S1x1024 .f32) //
      ∀ (xo : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, fun xo E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Rg1

end
-- ==== Proof.KI.R1.RunMiddle.lean ====
/-
  The body of this nearest-neighbour call run at a middle candidate tile (the running minimum is updated, the output block is left alone): the printed function is its skeleton of loads and
  stores over named payloads, which the symbolic executor walks with both branches decided by the point's kind; the
  pieces each buffer is left with are found by that run and are this definition's witness.
-/
import proofs.«109253_j35192962023870_1_alg».proof.Proof.KI.R1.RunFirst

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle point: as at a first point, but the scratch row comes in at the contents the point before left. -/
noncomputable def runMiddle (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) :
    { LS : List (View.Piece (Elt F) S1x1024 .f32) //
      ∀ (xo : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, fun xo E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Rg1

end
-- ==== Proof.KI.R1.RunLast.lean ====
/-
  The body of this nearest-neighbour call run at a last candidate tile (the running minimum is updated and copied to the output block): the printed function is its skeleton of loads and
  stores over named payloads, which the symbolic executor walks with both branches decided by the point's kind; the
  pieces each buffer is left with are found by that run and are this definition's witness.
-/
import proofs.«109253_j35192962023870_1_alg».proof.Proof.KI.R1.RunMiddle

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a last point: the output buffer, whatever it held, ends written with its found pieces, the scratch row with its. -/
noncomputable def runLast (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) :
    Σ' (LO : List (View.Piece (Elt F) S1x1024 .f32)), { LS : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Rg1

end
-- ==== Proof.KI.R1.Frame.lean ====
/-
  This nearest-neighbour call as a pipeline region: what its buffers hold point by point, and that its body keeps
  that account.

  Point t = 12·p + r works on query tile p (block `iblk · 0 t`, 3 × 1024) and candidate tile r (block `iblk · 1 t`,
  1024 × 3). The scratch row after point t is `scAt t`: the body's found pieces read back — at a first point over
  nothing (the row is reset there), otherwise over what the point before left. The output block is stored at the last
  candidate tile only, with the scratch row's contents of that point (`outAt`); at every other point the window is
  idle and its buffer goes back untouched. The invariant between points is the class invariant before the first point
  and afterwards the same with the scratch row at `scAt` of the point just done. Proved here: each input's buffer holds
  its block at every point; the body obligation at every point (by the kind of the point, each kind its run); the class
  invariant leads into the first point and comes back after the last.
-/
import proofs.«109253_j35192962023870_1_alg».proof.Proof.KI.R1.RunLast

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The core's unscoped buffers as this region finds them.
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current buffer holds its block at every point, fetched there or not (unfetched, the block
    index has not moved), for any proof data over these arrays whose body leaves the block in place. -/
theorem before_q_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the candidate window. -/
theorem before_r_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each kind of point leaves: the found pieces cover the rows they are written into -/

theorem scover_first (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) (y : S1x1024.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1x1024.size (by sl_kernel_rfl) y
/-- The scratch row after a first point. -/
def scFirst (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) : Vec F S1x1024 .f32 :=
  vrow.read (Elt F) (vrow.writes (Elt F) vrow.junk (runFirst c i arg2 harg2 arg3 harg3 arg4 harg4 arg5 harg5 hc0 hc1 x0 x1).1)

theorem scover_middle (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) (y : S1x1024.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S1x1024.size (by sl_kernel_rfl) y
/-- The scratch row after a middle point, over what the point before left. -/
def scMiddle (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) : Vec F S1x1024 .f32 :=
  vrow.read (Elt F) (vrow.writes (Elt F) vrow.junk (runMiddle c i arg2 harg2 arg3 harg3 arg4 harg4 arg5 harg5 hc0 hc1 x0 x1 xs).1)

theorem ocover_last (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) (y : S1x1024.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x1024.size (by sl_kernel_rfl) y
/-- The output block after a last point. -/
def outLast (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) : Vec F S1x1024 .f32 :=
  vrow.read (Elt F) (vrow.writes (Elt F) vrow.junk (runLast c i arg2 harg2 arg3 harg3 arg4 harg4 arg5 harg5 hc0 hc1 x0 x1 xs).1)
theorem scover_last (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) (y : S1x1024.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1x1024.size (by sl_kernel_rfl) y
/-- The scratch row after a last point. -/
def scLast (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) : Vec F S1x1024 .f32 :=
  vrow.read (Elt F) (vrow.writes (Elt F) vrow.junk (runLast c i arg2 harg2 arg3 harg3 arg4 harg4 arg5 harg5 hc0 hc1 x0 x1 xs).2.1)

/-! ## The scratch row and the output block, point by point -/

theorem not_last_of_first (t : Fin cfg1.N) (h0 : t.val % 12 = 0) : ¬isLast (grid1.coords t) :=
  fun h => by have := (isLast_iff t).mp h; omega

/-- THE RUNNING MINIMUM. The scratch row after the body at position `n`: by the kind of the point, over what
    position `n - 1` left unless the point is a first one. -/
def scAt (c : Dev nD) : (n : ℕ) → n < cfg1.N → Vec F S1x1024 .f32
  | 0, hn => scFirst c (grid1.coords ⟨0, hn⟩) (mq ⟨0, hn⟩) (hmq ⟨0, hn⟩) (mr ⟨0, hn⟩) (hmr ⟨0, hn⟩) (mo ⟨0, hn⟩) (hmo ⟨0, hn⟩) msc (Memref.isWhole_whole _) ((isFirst_iff ⟨0, hn⟩).mpr (Nat.zero_mod _)) (not_last_of_first ⟨0, hn⟩ (Nat.zero_mod _)) (iblk V c 0 ⟨0, hn⟩) (iblk V c 1 ⟨0, hn⟩)
  | n + 1, hn =>
    if h0 : (n + 1) % 12 = 0 then
      scFirst c (grid1.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) ((isFirst_iff ⟨n + 1, hn⟩).mpr h0) (not_last_of_first ⟨n + 1, hn⟩ h0) (iblk V c 0 ⟨n + 1, hn⟩) (iblk V c 1 ⟨n + 1, hn⟩)
    else if h1 : (n + 1) % 12 = 11 then
      scLast c (grid1.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (scAt c n (Nat.lt_of_succ_lt hn))
    else
      scMiddle c (grid1.coords ⟨n + 1, hn⟩) (mq ⟨n + 1, hn⟩) (hmq ⟨n + 1, hn⟩) (mr ⟨n + 1, hn⟩) (hmr ⟨n + 1, hn⟩) (mo ⟨n + 1, hn⟩) (hmo ⟨n + 1, hn⟩) msc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (scAt c n (Nat.lt_of_succ_lt hn))

/-- What the point before `t` left in the scratch row (read only where `t` is no first point). -/
abbrev scPrev (c : Dev nD) (t : Fin cfg1.N) : Vec F S1x1024 .f32 :=
  scAt V c (t.val - 1) (Nat.lt_of_le_of_lt (Nat.sub_le _ _) t.isLt)

theorem scAt_first (c : Dev nD) (t : Fin cfg1.N) (h0 : t.val % 12 = 0) :
    scAt V c t.val t.isLt = scFirst c (grid1.coords t) (mq t) (hmq t) (mr t) (hmr t) (mo t) (hmo t) msc (Memref.isWhole_whole _) ((isFirst_iff t).mpr h0) (not_last_of_first t h0) (iblk V c 0 t) (iblk V c 1 t) := by
  obtain ⟨n, hn⟩ := t
  cases n with
  | zero => exact rfl
  | succ n => exact (dif_pos h0).trans rfl

theorem scAt_last (c : Dev nD) (t : Fin cfg1.N) (h0 : ¬t.val % 12 = 0) (h1 : t.val % 12 = 11) :
    scAt V c t.val t.isLt = scLast c (grid1.coords t) (mq t) (hmq t) (mr t) (hmr t) (mo t) (hmo t) msc (Memref.isWhole_whole _) (fun h => h0 ((isFirst_iff t).mp h)) ((isLast_iff t).mpr h1) (iblk V c 0 t) (iblk V c 1 t) (scPrev V c t) := by
  obtain ⟨n, hn⟩ := t
  cases n with
  | zero => exact (by exfalso; (try dsimp only at h0); exact absurd (Nat.zero_mod _) h0)
  | succ n => exact (dif_neg h0).trans ((dif_pos h1).trans rfl)

theorem scAt_middle (c : Dev nD) (t : Fin cfg1.N) (h0 : ¬t.val % 12 = 0) (h1 : ¬t.val % 12 = 11) :
    scAt V c t.val t.isLt = scMiddle c (grid1.coords t) (mq t) (hmq t) (mr t) (hmr t) (mo t) (hmo t) msc (Memref.isWhole_whole _) (fun h => h0 ((isFirst_iff t).mp h)) (fun h => h1 ((isLast_iff t).mp h)) (iblk V c 0 t) (iblk V c 1 t) (scPrev V c t) := by
  obtain ⟨n, hn⟩ := t
  cases n with
  | zero => exact (by exfalso; (try dsimp only at h0); exact absurd (Nat.zero_mod _) h0)
  | succ n => exact (dif_neg h0).trans ((dif_neg h1).trans rfl)

/-- The output block after the body at point `t`: stored at a last point only; elsewhere the window is idle and
    this value is read by nothing. -/
def outAt (c : Dev nD) (t : Fin cfg1.N) : Vec F S1x1024 .f32 :=
  if h1 : t.val % 12 = 11 then
    outLast c (grid1.coords t) (mq t) (hmq t) (mr t) (hmr t) (mo t) (hmo t) msc (Memref.isWhole_whole _) (fun h => by have := (isFirst_iff t).mp h; omega) ((isLast_iff t).mpr h1) (iblk V c 0 t) (iblk V c 1 t) (scPrev V c t)
  else vrow.read (Elt F) vrow.junk

theorem outAt_last (c : Dev nD) (t : Fin cfg1.N) (h0 : ¬t.val % 12 = 0) (h1 : t.val % 12 = 11) :
    outAt V c t = outLast c (grid1.coords t) (mq t) (hmq t) (mr t) (hmr t) (mo t) (hmo t) msc (Memref.isWhole_whole _) (fun h => h0 ((isFirst_iff t).mp h)) ((isLast_iff t).mpr h1) (iblk V c 0 t) (iblk V c 1 t) (scPrev V c t) := by
  unfold outAt; exact (dif_pos h1).trans rfl

/-! ## The invariant between points -/

/-- Before the first point the class invariant; after point `n` the same with the scratch row at `scAt n`. -/
def PhiS (c : Dev nD) : (n : ℕ) → n ≤ cfg1.N → sProp 𝕄
  | 0, _ => Pipeline.ΦA spec1 c
  | n + 1, hn => iprop((owns (c : Thread nD τ) msc fullShare (scAt V c n hn) ∗ others (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((owns (c : Thread nD τ) msc fullShare (scAt V c n hn) ∗ others (F := F) c) ∗ (∃ r, prngReg c r)) := rfl
theorem PhiS_pos (c : Dev nD) (n : ℕ) (h : n ≤ cfg1.N) (hz : n ≠ 0) :
    PhiS V c n h = iprop((owns (c : Thread nD τ) msc fullShare (scAt V c (n - 1) (by omega)) ∗ others (F := F) c) ∗ (∃ r, prngReg c r)) := by
  cases n with
  | zero => exact absurd rfl hz
  | succ n => rfl

/-! ## The proof data -/

/-- The region's proof data on core `c`: the arrays as found; after the body each input's buffer at its block and the
    output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_q (c : Dev nD) (t : Fin cfg1.N) : (dat V c).after 0 t = iblk V c 0 t := by dsimp only [dat]
theorem after_r (c : Dev nD) (t : Fin cfg1.N) : (dat V c).after 1 t = iblk V c 1 t := by dsimp only [dat]
theorem after_o (c : Dev nD) (t : Fin cfg1.N) : (dat V c).after 2 t = outAt V c t := by dsimp only [dat]
theorem before_q (c : Dev nD) (t : Fin cfg1.N) (d) : (dat V c).before 0 t d = iblk V c 0 t :=
  before_q_of V (dat V c) (A_eq V c 0) (after_q V c) t d
theorem before_r (c : Dev nD) (t : Fin cfg1.N) (d) : (dat V c).before 1 t d = iblk V c 1 t :=
  before_r_of V (dat V c) (A_eq V c 1) (after_r V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mr t) fullShare ((dat V c).before 1 t d))
    ∗ (∃ d, owns (c : Thread nD τ) (mo t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's kind picks the run; the invariant hands
    the scratch row over at what the point before left (at anything before the first point, which resets it) and takes
    it back at this point's contents, the found pieces covering the row; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_r]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mq t) fullShare ((dat V c).after 0 t) from by
    unfold Dat.leavesExact; rw [live_q t], after_q]
  rw [show (dat V c).leavesExact 1 t = owns (c : Thread nD τ) (mr t) fullShare ((dat V c).after 1 t) from by
    unfold Dat.leavesExact; rw [live_r t], after_r]
  have hN : t.val < 144 := lt_of_lt_of_eq t.isLt (show cfg1.N = 144 from N_1)
  by_cases h0 : t.val % 12 = 0
  · have hnl : ¬isLast (grid1.coords t) := not_last_of_first t h0
    rw [Dat.leavesExact_idle (dat V c) 2 t (idle_out t hnl) (noFlush_out t hnl)]
    rw [scAt_first V c t h0]
    unfold scFirst; (try dsimp only)
    have hgive : (dat V c).Φ t.castSucc ⊢ (iprop(((∃ d, owns (c : Thread nD τ) msc fullShare d) ∗ others (F := F) c) ∗ (∃ r, prngReg c r)) : sProp 𝕄) := by
      rw [Phi_castSucc V c t]
      by_cases hz : t.val = 0
      · rw [PhiS_zero V c _ _ hz, PhiA_split]
      · rw [PhiS_pos V c _ _ hz]
        iintro ⟨⟨HS0, Hoth⟩, Hg⟩
        isplitr [Hg]
        · isplitl [HS0]; · iexists _; iexact HS0
          iexact Hoth
        iexact Hg
    iintro ⟨HΦ, Ho, ⟨%d0, H0⟩, ⟨%d1, H1⟩, ⟨%d2, H2⟩⟩
    ihave HΦ' := hgive $$ HΦ
    icases HΦ' with ⟨⟨HS0, Hoth⟩, Hg⟩
    iapply ((runFirst c (grid1.coords t) (mq t) (hmq t) (mr t) (hmr t) (mo t) (hmo t) msc (Memref.isWhole_whole _) ((isFirst_iff t).mpr h0) hnl (iblk V c 0 t) (iblk V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitr [Hg]
      · isplitl [HS0]
        · unfold owns; iexists _; isplitr
          swap; · iexact HS0
          ipureintro; exact View.read_writes_of_cover _ _ _ _ _ (scover_first c _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun e => h0 (by rw [e])
    have hnf : ¬isFirst (grid1.coords t) := fun h => h0 ((isFirst_iff t).mp h)
    rw [Phi_castSucc V c t, PhiS_pos V c _ _ hz]
    by_cases h1 : t.val % 12 = 11
    · have hl : isLast (grid1.coords t) := (isLast_iff t).mpr h1
      rw [show (dat V c).leavesExact 2 t = owns (c : Thread nD τ) (mo t) fullShare ((dat V c).after 2 t) from by
        unfold Dat.leavesExact; rw [live_out t hl], after_o]
      rw [scAt_last V c t h0 h1, outAt_last V c t h0 h1]
      unfold scLast outLast; (try dsimp only)
      iintro ⟨⟨⟨HS0, Hoth⟩, Hg⟩, Ho, ⟨%d0, H0⟩, ⟨%d1, H1⟩, ⟨%d2, H2⟩⟩
      iapply ((runLast c (grid1.coords t) (mq t) (hmq t) (mr t) (hmr t) (mo t) (hmo t) msc (Memref.isWhole_whole _) hnf hl (iblk V c 0 t) (iblk V c 1 t) (scPrev V c t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitr [Hg]
        · isplitl [HS0]
          · unfold owns; iexists _; isplitr
            swap; · iexact HS0
            ipureintro; exact View.read_writes_of_cover _ _ _ _ _ (scover_last c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (ocover_last c _ _ _ _ _ _ _ _ _ _ _ _ _ _)
    · have hnl : ¬isLast (grid1.coords t) := fun h => h1 ((isLast_iff t).mp h)
      rw [Dat.leavesExact_idle (dat V c) 2 t (idle_out t hnl) (noFlush_out t hnl)]
      rw [scAt_middle V c t h0 h1]
      unfold scMiddle; (try dsimp only)
      iintro ⟨⟨⟨HS0, Hoth⟩, Hg⟩, Ho, ⟨%d0, H0⟩, ⟨%d1, H1⟩, ⟨%d2, H2⟩⟩
      iapply ((runMiddle c (grid1.coords t) (mq t) (hmq t) (mr t) (hmr t) (mo t) (hmo t) msc (Memref.isWhole_whole _) hnf hnl (iblk V c 0 t) (iblk V c 1 t) (scPrev V c t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitr [Hg]
        · isplitl [HS0]
          · unfold owns; iexists _; isplitr
            swap; · iexact HS0
            ipureintro; exact View.read_writes_of_cover _ _ _ _ _ (scover_middle c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- The class invariant is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch row's contents are forgotten. -/
theorem hout (c : Dev nD) : (dat V c).Φ (Fin.last cfg1.N) ⊢ Pipeline.ΦA spec1 c := by
  have ht : (Fin.last cfg1.N).val ≠ 0 := by rw [Fin.val_last]; have : cfg1.N = 144 := N_1; omega
  rw [show (dat V c).Φ (Fin.last cfg1.N) = PhiS V c (Fin.last cfg1.N).val (Nat.le_of_lt_succ (Fin.last cfg1.N).isLt) from rfl,
    PhiS_pos V c _ _ ht, PhiA_split]
  iintro ⟨⟨HS0, Hoth⟩, Hg⟩
  isplitr [Hg]
  · isplitl [HS0]; · iexists _; iexact HS0
    iexact Hoth
  iexact Hg

end Cert.KernelIdeal.Rg1

end
-- ==== Proof.KI.R1.Pieces.lean ====
/-
  What each kind of point of this nearest-neighbour call leaves, as the body's two payload terms: after a first point
  the scratch row is the update of the +∞ row; after a middle or a last point it is the update of the row found; and
  what a last point stores into the output block is that updated row.
-/
import proofs.«109253_j35192962023870_1_alg».proof.Proof.KI.R1.Frame
import Idealize.ShloMosaic.Lib.Pipeline.Value

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer rectangle, as a function. -/
theorem hz : (![0, 0] : Fin 2 → ℕ) = fun _ => 0 := by
  funext a; match a with | ⟨0, _⟩ => rfl | ⟨1, _⟩ => rfl

theorem scFirst_eq (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : isFirst i) (hc1 : ¬isLast i)
    (x0 : Vec F S3x1024 .f32) (x1 : Vec F S1024x3 .f32) :
    scFirst c i arg2 harg2 arg3 harg3 arg4 harg4 arg5 harg5 hc0 hc1 x0 x1 = k1_pay2 x0 x1 (k1_pay1 (F := F)) := by
  unfold scFirst
  rw [View.read_writes_eq_canon _ _ _ (scover_first c i arg2 harg2 arg3 harg3 arg4 harg4 arg5 harg5 hc0 hc1 x0 x1)]
  unfold runFirst
  dsimp only
  sl_unfold_words
  rw [View.canon_cons_unit_zero (S := S1x1024) hz, View.readCov_unit_zero (S := S1x1024) _ hz]
  simp only [View.readAt_eq_ld, harg2.read_unread, harg3.read_unread, harg5.read_unread,
    View.ld_unit_zero (S := S3x1024) hz, View.ld_unit_zero (S := S1024x3) hz, View.ld_unit_zero (S := S1x1024) hz]

theorem scMiddle_eq (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : ¬isLast i)
    (x0 : Vec F S3x1024 .f32) (x1 : Vec F S1024x3 .f32) (xs : Vec F S1x1024 .f32) :
    scMiddle c i arg2 harg2 arg3 harg3 arg4 harg4 arg5 harg5 hc0 hc1 x0 x1 xs = k1_pay2 x0 x1 xs := by
  unfold scMiddle
  rw [View.read_writes_eq_canon _ _ _ (scover_middle c i arg2 harg2 arg3 harg3 arg4 harg4 arg5 harg5 hc0 hc1 x0 x1 xs)]
  unfold runMiddle
  dsimp only
  sl_unfold_words
  rw [View.canon_unit_zero (S := S1x1024) hz]
  simp only [View.readAt_eq_ld, harg2.read_unread, harg3.read_unread, harg5.read_unread,
    View.ld_unit_zero (S := S3x1024) hz, View.ld_unit_zero (S := S1024x3) hz, View.ld_unit_zero (S := S1x1024) hz]

theorem scLast_eq (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) :
    scLast c i arg2 harg2 arg3 harg3 arg4 harg4 arg5 harg5 hc0 hc1 x0 x1 xs = k1_pay2 x0 x1 xs := by
  unfold scLast
  rw [View.read_writes_eq_canon _ _ _ (scover_last c i arg2 harg2 arg3 harg3 arg4 harg4 arg5 harg5 hc0 hc1 x0 x1 xs)]
  unfold runLast
  dsimp only
  sl_unfold_words
  rw [View.canon_unit_zero (S := S1x1024) hz]
  simp only [View.readAt_eq_ld, harg2.read_unread, harg3.read_unread, harg5.read_unread,
    View.ld_unit_zero (S := S3x1024) hz, View.ld_unit_zero (S := S1024x3) hz, View.ld_unit_zero (S := S1x1024) hz]

theorem outLast_eq (c : Dev nD) (i : grid1.Coords) (arg2 : Memref sig .tc .vmem S3x1024 .f32) (harg2 : arg2.IsWhole) (arg3 : Memref sig .tc .vmem S1024x3 .f32) (harg3 : arg3.IsWhole) (arg4 : Memref sig .tc .vmem S1x1024 .f32) (harg4 : arg4.IsWhole) (arg5 : Memref sig .tc .vmem S1x1024 .f32) (harg5 : arg5.IsWhole) (hc0 : ¬isFirst i) (hc1 : isLast i)
    (x0 : Vec F S3x1024 .f32) (x1 : Vec F S1024x3 .f32) (xs : Vec F S1x1024 .f32) :
    outLast c i arg2 harg2 arg3 harg3 arg4 harg4 arg5 harg5 hc0 hc1 x0 x1 xs = k1_pay2 x0 x1 xs := by
  unfold outLast
  rw [View.read_writes_eq_canon _ _ _ (ocover_last c i arg2 harg2 arg3 harg3 arg4 harg4 arg5 harg5 hc0 hc1 x0 x1 xs)]
  unfold runLast
  dsimp only
  sl_unfold_words
  rw [View.canon_unit_zero (S := S1x1024) hz, View.readCov_unit_zero (S := S1x1024) _ hz]
  simp only [View.readAt_eq_ld, harg2.read_unread, harg3.read_unread, harg5.read_unread,
    View.ld_unit_zero (S := S3x1024) hz, View.ld_unit_zero (S := S1024x3) hz, View.ld_unit_zero (S := S1x1024) hz]

/-! ## The scratch row point by point, through the payload -/

variable (V : (c : Dev nD) → (b : Ref sig .tc) → Buf (Elt F) ((c : Thread nD τ).loc b))

/-- After a first point: the +∞ row updated with the point's two blocks. -/
theorem scAt_first_pay (c : Dev nD) (t : Fin cfg1.N) (h0 : t.val % 12 = 0) :
    scAt V c t.val t.isLt = k1_pay2 (iblk V c 0 t) (iblk V c 1 t) (k1_pay1 (F := F)) := by
  rw [scAt_first V c t h0]; exact scFirst_eq ..

/-- After any other point: what the point before left, updated with the point's two blocks. -/
theorem scAt_next_pay (c : Dev nD) (t : Fin cfg1.N) (h0 : ¬t.val % 12 = 0) :
    scAt V c t.val t.isLt = k1_pay2 (iblk V c 0 t) (iblk V c 1 t) (scPrev V c t) := by
  by_cases h1 : t.val % 12 = 11
  · rw [scAt_last V c t h0 h1]; exact scLast_eq ..
  · rw [scAt_middle V c t h0 h1]; exact scMiddle_eq ..

/-- At a last point the output block is the scratch row of that point. -/
theorem outAt_last_pay (c : Dev nD) (t : Fin cfg1.N) (h1 : t.val % 12 = 11) :
    outAt V c t = scAt V c t.val t.isLt := by
  have h0 : ¬t.val % 12 = 0 := by omega
  rw [outAt_last V c t h0 h1, scAt_last V c t h0 h1, outLast_eq, scLast_eq]

end Cert.KernelIdeal.Rg1

end
-- ==== Proof.KI.R1.Blocks.lean ====
/-
  Where this nearest-neighbour call's blocks sit in its arrays, and what its output array holds after the run.

  At point t = 12·p + r the query block is columns 1024·p … 1024·p + 1023 of the query array (all three rows), the
  candidate block is rows 1024·r … 1024·r + 1023 of the candidate array (all three columns), and the output block,
  written back at the points with r = 11 only, is columns 1024·p … 1024·p + 1023 of the one-row output array. The twelve
  written-back blocks tile the output array, so a property every written-back entry has, every entry of the array has
  after the run.
-/
import proofs.«109253_j35192962023870_1_alg».proof.Proof.KI.R1.Pieces
import Idealize.ShloMosaic.Lib.Pipeline.Value
import Idealize.ShloMosaic.Lib.ValueIdx

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The query array (3 × 12288: one column a point), the candidate array (12288 × 3: one row a point) and the output
    array (1 × 12288) after the run, at their literal types. -/
def qArr (c : Dev nD) : Vec F S3x12288 .f32 := V c (Pipeline.arrRef spec1 0)
def rArr (c : Dev nD) : Vec F S12288x3 .f32 := V c (Pipeline.arrRef spec1 1)
def oArr (c : Dev nD) : Vec F S1x12288 .f32 := (dat V c).arrAt 2 cfg1.N

theorem point_lt (t : Fin cfg1.N) (j : Fin 1024) : 1024 * (t.val / 12) + j.val < 12288 := by
  have : t.val < 144 := lt_of_lt_of_eq t.isLt (show cfg1.N = 144 from N_1); omega
theorem cand_lt (t : Fin cfg1.N) (k : Fin 1024) : 1024 * (t.val % 12) + k.val < 12288 := by
  have := Nat.mod_lt t.val (show 12 > 0 by decide); omega

/-- The printed index maps, decided once over the grid: the query window's block index is (0, t / 12), -/
theorem idx_q : ∀ t : Fin cfg1.N, win1_0.index t (0 : Fin 2) = 0 ∧ win1_0.index t (1 : Fin 2) = t.val / 12 :=
  (by decide +kernel : ∀ t : Fin grid1.N, win1_0.index t (0 : Fin 2) = 0 ∧ win1_0.index t (1 : Fin 2) = t.val / 12)
/-- the candidate window's is (t % 12, 0), -/
theorem idx_r : ∀ t : Fin cfg1.N, win1_1.index t (0 : Fin 2) = t.val % 12 ∧ win1_1.index t (1 : Fin 2) = 0 :=
  (by decide +kernel : ∀ t : Fin grid1.N, win1_1.index t (0 : Fin 2) = t.val % 12 ∧ win1_1.index t (1 : Fin 2) = 0)
/-- and the output window's is (0, t / 12). -/
theorem idx_o : ∀ t : Fin cfg1.N, win1_2.index t (0 : Fin 2) = 0 ∧ win1_2.index t (1 : Fin 2) = t.val / 12 :=
  (by decide +kernel : ∀ t : Fin grid1.N, win1_2.index t (0 : Fin 2) = 0 ∧ win1_2.index t (1 : Fin 2) = t.val / 12)

/-- The query block at point `t`, entry (a, j), is the query array at row a, column 1024·(t / 12) + j. -/
theorem iblk_q_apply (c : Dev nD) (t : Fin cfg1.N) (a : Fin 3) (j : Fin 1024) :
    (iblk V c 0 t : Vec F S3x1024 .f32) (ix2 a j) = qArr V c (ix2 a ⟨1024 * (t.val / 12) + j.val, point_lt t j⟩) := by
  obtain ⟨e0, e1⟩ := idx_q t
  unfold iblk qArr
  rw [View.read_apply]
  show V c (Pipeline.arrRef spec1 0) _ = V c (Pipeline.arrRef spec1 0) _
  congr 1
  funext b
  apply Fin.ext
  match b with
  | ⟨0, _⟩ => show win1_0.index t (0 : Fin 2) * 3 + 1 * a.val = a.val; rw [e0]; omega
  | ⟨1, _⟩ => show win1_0.index t (1 : Fin 2) * 1024 + 1 * j.val = 1024 * (t.val / 12) + j.val; rw [e1]; omega

/-- The candidate block at point `t`, entry (k, a), is the candidate array at row 1024·(t % 12) + k, column a. -/
theorem iblk_r_apply (c : Dev nD) (t : Fin cfg1.N) (k : Fin 1024) (a : Fin 3) :
    (iblk V c 1 t : Vec F S1024x3 .f32) (ix2 k a) = rArr V c (ix2 ⟨1024 * (t.val % 12) + k.val, cand_lt t k⟩ a) := by
  obtain ⟨e0, e1⟩ := idx_r t
  unfold iblk rArr
  rw [View.read_apply]
  show V c (Pipeline.arrRef spec1 1) _ = V c (Pipeline.arrRef spec1 1) _
  congr 1
  funext b
  apply Fin.ext
  match b with
  | ⟨0, _⟩ => show win1_1.index t (0 : Fin 2) * 1024 + 1 * k.val = 1024 * (t.val % 12) + k.val; rw [e0]; omega
  | ⟨1, _⟩ => show win1_1.index t (1 : Fin 2) * 3 + 1 * a.val = a.val; rw [e1]; omega

/-- A property that every entry of every written-back output block has, at its place in the array, every entry of the
    output array has after the run. -/
theorem oArr_forall (c : Dev nD) (P : Fin 12288 → Elt F .f32 → Prop)
    (h : ∀ (t : Fin cfg1.N), t.val % 12 = 11 → ∀ j : Fin 1024,
      P ⟨1024 * (t.val / 12) + j.val, point_lt t j⟩ (outAt V c t (ix2 0 j)))
    (q : Fin 12288) : P q (oArr V c (ix2 0 q)) := by
  unfold oArr
  refine (dat V c).arrAt_forall_of_cover 2
    (fun (i : S1x12288.Idx) (v : Elt F .f32) => P ⟨(i 1).val, (i 1).isLt⟩ v) ?_ ?_ (ix2 0 q)
  · -- every written-back entry has the property, at its place in the array
    intro t hf y
    have h11 : t.val % 12 = 11 := (flush0_2 t).mp hf
    obtain ⟨e0, e1⟩ := idx_o t
    have hy1 : (y 1).val < 1024 := (y 1).isLt
    have hidx : (⟨(((cfg1.win 2).blk t).view.emb y 1).val, (((cfg1.win 2).blk t).view.emb y 1).isLt⟩ : Fin 12288)
        = ⟨1024 * (t.val / 12) + (⟨(y 1).val, hy1⟩ : Fin 1024).val, point_lt t ⟨(y 1).val, hy1⟩⟩ :=
      Fin.ext (by
        show win1_2.index t (1 : Fin 2) * 1024 + 1 * (y 1).val = 1024 * (t.val / 12) + (y 1).val
        rw [e1]; omega)
    have hval : (dat V c).flushed 2 t y = outAt V c t (ix2 0 ⟨(y 1).val, hy1⟩) := by
      show (cfg1.win 2).cut (grid1.coords t) ((dat V c).after 2 t) y = _
      rw [after_o]
      show outAt V c t _ = outAt V c t _
      congr 1
      funext b
      apply Fin.ext
      match b with
      | ⟨0, _⟩ => show (y 0).val = 0; have hy0 : (y 0).val < 1 := (y 0).isLt; omega
      | ⟨1, _⟩ => rfl
    exact (congrArg₂ P hidx hval).mpr (h t h11 ⟨(y 1).val, hy1⟩)
  · -- the twelve written-back blocks cover the array
    intro (i : S1x12288.Idx)
    have hq : (i 1).val < 12288 := (i 1).isLt
    have hi0 : (i 0).val < 1 := (i 0).isLt
    have htN : 12 * ((i 1).val / 1024) + 11 < cfg1.N := lt_of_lt_of_eq (by omega) (N_1).symm
    obtain ⟨e0, e1⟩ := idx_o ⟨12 * ((i 1).val / 1024) + 11, htN⟩
    have e1' : win1_2.index ⟨12 * ((i 1).val / 1024) + 11, htN⟩ (1 : Fin 2) = (12 * ((i 1).val / 1024) + 11) / 12 := e1
    refine ⟨⟨12 * ((i 1).val / 1024) + 11, htN⟩, (flush0_2 _).mpr (by show (12 * ((i 1).val / 1024) + 11) % 12 = 11; omega), ?_⟩
    have hm : (i 1).val % 1024 < 1024 := Nat.mod_lt _ (by decide)
    have hpre : i = ((cfg1.win 2).blk ⟨12 * ((i 1).val / 1024) + 11, htN⟩).view.emb (ix2 (0 : Fin 1) ⟨(i 1).val % 1024, hm⟩) := by
      funext b
      apply Fin.ext
      match b with
      | ⟨0, _⟩ =>
        show (i 0).val = win1_2.index ⟨12 * ((i 1).val / 1024) + 11, htN⟩ (0 : Fin 2) * 1 + 1 * 0
        rw [e0]; omega
      | ⟨1, _⟩ =>
        show (i 1).val = win1_2.index ⟨12 * ((i 1).val / 1024) + 11, htN⟩ (1 : Fin 2) * 1024 + 1 * ((i 1).val % 1024)
        rw [e1']; omega
    exact (congrArg (fun z => z ∈ ((cfg1.win 2).blk ⟨12 * ((i 1).val / 1024) + 11, htN⟩).view.set) hpre).mpr
      (View.emb_mem_set _ _)

end Cert.KernelIdeal.Rg1

end
-- ==== Proof.KI.R1.PayVal.lean ====
/-
  What the body of the second nearest-neighbour call computes, at an index: the row it stores into the scratch buffer
  is, entry by entry, the smaller of the row it found there and the least distance from that entry's query point to
  the 1024 candidate points of the tile.
-/
import proofs.«109253_j35192962023870_1_alg».proof.Proof.Spec
import proofs.«109253_j35192962023870_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay1

open Idealize.ShloMosaic Idealize.ShloMosaic.ValueIdx Cert.NN Cert.KernelIdeal Cert.KernelIdeal.Gen

/-- The distance from query point `j` of a query tile (3 × 1024: one column a point) to candidate point `k` of a
    candidate tile (1024 × 3: one row a point). -/
def tdist (x0 : Vec Ideal S3x1024 .f32) (x1 : Vec Ideal S1024x3 .f32) (k j : Fin 1024) : EReal :=
  Ideal.sqrt (max ((sq (x1 (ix2 k 0)) (x0 (ix2 0 j)) + sq (x1 (ix2 k 1)) (x0 (ix2 1 j))) + sq (x1 (ix2 k 2)) (x0 (ix2 2 j)))
    (Ideal.ofBits .f32 0x00000000#32))

/-- The word `0x7F800000` denotes +∞. -/
theorem ofBits_inf : Ideal.ofBits .f32 0x7F800000#32 = (⊤ : EReal) := by simp [Ideal.ofBits, Ideal.ieee]

/-- The row the scratch buffer is reset to is +∞ everywhere. -/
theorem pay1_top (j : Fin 1024) : k1_pay1 (F := Ideal) (ix2 0 j) = (⊤ : EReal) := by
  unfold k1_pay1
  rw [shapeCast_self]
  exact ofBits_inf

/-! ## The layout operations of the body, read at an index -/

/-- Column `c` of a candidate tile, spread over the lanes, reads at `(k, j)` the tile at `(k, c)`. -/
theorem col_spread (v : Vec Ideal S1024x3 .f32) (o : Nat) (h : S1024x3.Slices ![0, o] S1024x1) (c : Fin 3)
    (hc : c.val = o) (k j : Fin 1024) :
    broadcastTo S1024x1024 (extractStridedSlice S1024x1 ![0, o] v h) broadcasts_S1024x1_S1024x1024 (ix2 k j)
      = v (ix2 k c) := by
  refine (broadcastTo_apply _ broadcasts_S1024x1_S1024x1024 (ix2 k j) (ix2 k (0 : Fin 1)) fun ax => ?_).trans ?_
  · match ax with
    | ⟨0, _⟩ => rfl
    | ⟨1, _⟩ => rfl
  · exact slice2_axis1_apply o v h k (0 : Fin 1) c (by rw [hc]; rfl)

/-- Row `c` of a query tile, spread over the sublanes, reads at `(k, j)` the tile at `(c, j)`. -/
theorem row_spread (v : Vec Ideal S3x1024 .f32) (o : Nat) (h : S3x1024.Slices ![o, 0] S1x1024) (c : Fin 3)
    (hc : c.val = o) (k j : Fin 1024) :
    broadcastTo S1024x1024 (extractStridedSlice S1x1024 ![o, 0] v h) broadcasts_S1x1024_S1024x1024 (ix2 k j)
      = v (ix2 c j) := by
  refine (broadcastTo_1b_ab_apply _ broadcasts_S1x1024_S1024x1024 k j).trans ?_
  exact slice2_axis0_apply o v h (0 : Fin 1) j c (by rw [hc]; rfl)

/-- One squared coordinate difference of the body at `(k, j)`. -/
theorem sq_term (v3 : Vec Ideal S3x1024 .f32) (v5 : Vec Ideal S1024x3 .f32) (o : Nat)
    (h5 : S1024x3.Slices ![0, o] S1024x1) (h3 : S3x1024.Slices ![o, 0] S1x1024) (c : Fin 3) (hc : c.val = o)
    (k j : Fin 1024) :
    mulf (F := Ideal) (φ := .f32)
        (subf (broadcastTo S1024x1024 (extractStridedSlice S1024x1 ![0, o] v5 h5) broadcasts_S1024x1_S1024x1024)
          (broadcastTo S1024x1024 (extractStridedSlice S1x1024 ![o, 0] v3 h3) broadcasts_S1x1024_S1024x1024))
        (subf (broadcastTo S1024x1024 (extractStridedSlice S1024x1 ![0, o] v5 h5) broadcasts_S1024x1_S1024x1024)
          (broadcastTo S1024x1024 (extractStridedSlice S1x1024 ![o, 0] v3 h3) broadcasts_S1x1024_S1024x1024))
        (ix2 k j)
      = sq (v5 (ix2 k c)) (v3 (ix2 c j)) := by
  show (_ - _) * (_ - _) = _
  rw [col_spread v5 o h5 c hc k j, row_spread v3 o h3 c hc k j]
  rfl

/-- The pointwise tail of the body: sum of three terms, clamp at zero, square root. -/
theorem tail_apply (t0 t1 t2 : FVec Ideal S1024x1024 .f32) (p : S1024x1024.Idx) :
    sqrt (F := Ideal) (maximumf (addf (addf t0 t1) t2) (broadcast S1024x1024 (Scalar.ofBits .f32 0x00000000#32))) p
      = Ideal.sqrt (max ((t0 p + t1 p) + t2 p) (Ideal.ofBits .f32 0x00000000#32)) := rfl

/-- The source index over lane `j` with sublane coordinate `k`. -/
theorem lift_ix (j k : Fin 1024) :
    reduces_S1024x1024_S1024.lift (ix1 j) k = ix2 k j := by
  funext c
  apply Fin.ext
  match c with
  | ⟨0, _⟩ => rfl
  | ⟨1, _⟩ => rfl

/-- The minimum over the sublane axis, read at lane `j`: the fold of `min` from +∞ over the 1024 sublanes. -/
theorem min_sublanes (src : FVec Ideal S1024x1024 .f32) (j : Fin 1024) :
    multiReduction (F := Ideal) .minimumf [0] S1024 src 0x7F800000#32 reduces_S1024x1024_S1024 (.inl rfl) rfl (ix1 j)
      = (Finset.univ : Finset (Fin 1024)).fold min (⊤ : EReal) (fun k => src (ix2 k j)) := by
  refine (multiReduction_minimumf_eq_fold src _ reduces_S1024x1024_S1024 (.inl rfl) rfl (ix1 j)).trans ?_
  refine (reduces_S1024x1024_S1024.fold_filter_drop_single _ _ src (ix1 j)).trans ?_
  show (Finset.univ : Finset (Fin 1024)).fold min (Ideal.ofBits .f32 0x7F800000#32)
      (src ∘ reduces_S1024x1024_S1024.lift (ix1 j)) = _
  rw [ofBits_inf]
  exact congrArg (fun f => (Finset.univ : Finset (Fin 1024)).fold min (⊤ : EReal) f)
    (funext fun k => congrArg src (lift_ix j k))

/-- The outer casts and the minimum with the row found in the scratch buffer. -/
theorem outer_apply (xs : Vec Ideal S1x1024 .f32) (r : FVec Ideal S1024 .f32) (j : Fin 1024) :
    shapeCast S1x1024 (minimumf (F := Ideal) xs (shapeCast S1x1024 r shapeCasts_S1024_S1x1024)) shapeCasts_S1x1024_S1x1024
        (ix2 0 j)
      = min (xs (ix2 0 j)) (r (ix1 j)) := by
  rw [shapeCast_self]
  show min (xs (ix2 0 j)) (shapeCast S1x1024 r shapeCasts_S1024_S1x1024 (ix2 0 j)) = _
  rw [shapeCast_a_1a_apply r shapeCasts_S1024_S1x1024 0 j]

/-- The stored row at entry `j` is the smaller of the entry found and the least of the 1024 distances. -/
theorem pay2_eq (x0 : Vec Ideal S3x1024 .f32) (x1 : Vec Ideal S1024x3 .f32) (xs : Vec Ideal S1x1024 .f32)
    (j : Fin 1024) :
    k1_pay2 (F := Ideal) x0 x1 xs (ix2 0 j)
      = min (xs (ix2 0 j)) ((Finset.univ : Finset (Fin 1024)).fold min (⊤ : EReal) (fun k => tdist x0 x1 k j)) := by
  unfold k1_pay2
  refine (outer_apply xs _ j).trans ?_
  refine congrArg (min (xs (ix2 0 j))) ?_
  refine (min_sublanes _ j).trans ?_
  refine congrArg (fun f => (Finset.univ : Finset (Fin 1024)).fold min (⊤ : EReal) f) (funext fun k => ?_)
  refine (tail_apply _ _ _ (ix2 k j)).trans ?_
  have hx : shapeCast S3x1024 x0 shapeCasts_S3x1024_S3x1024 = x0 := shapeCast_self x0 _
  have e0 := (sq_term (shapeCast S3x1024 x0 shapeCasts_S3x1024_S3x1024) x1 0 slices_S1024x3_o0_0_S1024x1
    slices_S3x1024_o0_0_S1x1024 0 rfl k j).trans (congrArg (fun v => sq (x1 (ix2 k 0)) (v (ix2 0 j))) hx)
  have e1 := (sq_term (shapeCast S3x1024 x0 shapeCasts_S3x1024_S3x1024) x1 1 slices_S1024x3_o0_1_S1024x1
    slices_S3x1024_o1_0_S1x1024 1 rfl k j).trans (congrArg (fun v => sq (x1 (ix2 k 1)) (v (ix2 1 j))) hx)
  have e2 := (sq_term (shapeCast S3x1024 x0 shapeCasts_S3x1024_S3x1024) x1 2 slices_S1024x3_o0_2_S1024x1
    slices_S3x1024_o2_0_S1x1024 2 rfl k j).trans (congrArg (fun v => sq (x1 (ix2 k 2)) (v (ix2 2 j))) hx)
  unfold tdist
  exact congrArg (fun x => Ideal.sqrt (max x (Ideal.ofBits .f32 0x00000000#32)))
    (congrArg₂ (· + ·) (congrArg₂ (· + ·) e0 e1) e2)

/-- The stored row at entry `j`, by its universal property. -/
theorem pay2_le_iff (x0 : Vec Ideal S3x1024 .f32) (x1 : Vec Ideal S1024x3 .f32) (xs : Vec Ideal S1x1024 .f32)
    (j : Fin 1024) (z : EReal) :
    z ≤ k1_pay2 (F := Ideal) x0 x1 xs (ix2 0 j) ↔ z ≤ xs (ix2 0 j) ∧ ∀ k : Fin 1024, z ≤ tdist x0 x1 k j := by
  rw [pay2_eq, le_min_iff, Finset.le_fold_min]
  constructor
  · rintro ⟨h1, _, h2⟩
    exact ⟨h1, fun k => h2 k (Finset.mem_univ k)⟩
  · rintro ⟨h1, h2⟩
    exact ⟨h1, le_top, fun k _ => h2 k⟩

end Cert.KernelIdeal.Pay1

end
-- ==== Proof.KI.R1.Value.lean ====
/-
  The output of this nearest-neighbour call, at the exact (extended real) reading: entry q of the one-row output array
  is the least distance from query point q to the 12288 candidate points, stated by its universal property.

  At point t = 12·p + r the scratch row's entry j is the least distance from query point 1024·p + j to the candidate
  points of tiles 0 … r: reset and updated at r = 0, updated at every later r (induction on the point). At r = 11 that
  is every candidate, and the row is what is written back into columns 1024·p … of the output array.
-/
import proofs.«109253_j35192962023870_1_alg».proof.Proof.KI.R1.Blocks
import proofs.«109253_j35192962023870_1_alg».proof.Proof.KI.R1.PayVal

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.NN Cert.KernelIdeal.Pay1

variable (V : (c : Dev nD) → (b : Ref sig .tc) → Buf (Elt Ideal) ((c : Thread nD τ).loc b))

/-- The distance from query point `q` (a column of the query array) to candidate point `mm` (a row of the candidate
    array). -/
def gdist (c : Dev nD) (q mm : Fin 12288) : EReal :=
  Ideal.sqrt (max ((sq (rArr V c (ix2 mm 0)) (qArr V c (ix2 0 q)) + sq (rArr V c (ix2 mm 1)) (qArr V c (ix2 1 q)))
      + sq (rArr V c (ix2 mm 2)) (qArr V c (ix2 2 q))) (Ideal.ofBits .f32 0x00000000#32))

/-- Within the blocks of point `t` the tile distance is the distance between the points the blocks hold. -/
theorem tdist_blocks (c : Dev nD) (t : Fin cfg1.N) (k j : Fin 1024) :
    tdist (iblk V c 0 t) (iblk V c 1 t) k j
      = gdist V c ⟨1024 * (t.val / 12) + j.val, point_lt t j⟩ ⟨1024 * (t.val % 12) + k.val, cand_lt t k⟩ := by
  unfold tdist gdist
  rw [iblk_q_apply V c t 0 j, iblk_q_apply V c t 1 j, iblk_q_apply V c t 2 j,
    iblk_r_apply V c t k 0, iblk_r_apply V c t k 1, iblk_r_apply V c t k 2]

/-- THE RUNNING MINIMUM. After point `n` the scratch row's entry `j` is below-bounded by exactly the distances from its
    query point to the candidates of the tiles done so far. -/
theorem scAt_le_iff (c : Dev nD) : ∀ (n : ℕ) (hn : n < cfg1.N) (j : Fin 1024) (z : EReal),
    z ≤ scAt V c n hn (ix2 0 j) ↔
      ∀ mm : Fin 12288, mm.val < 1024 * (n % 12 + 1) → z ≤ gdist V c ⟨1024 * (n / 12) + j.val, point_lt ⟨n, hn⟩ j⟩ mm := by
  intro n
  induction n with
  | zero =>
    intro hn j z
    rw [show scAt V c 0 hn = scAt V c (⟨0, hn⟩ : Fin cfg1.N).val (⟨0, hn⟩ : Fin cfg1.N).isLt from rfl,
      scAt_first_pay V c ⟨0, hn⟩ (Nat.zero_mod _), pay2_le_iff, pay1_top]
    constructor
    · rintro ⟨-, h⟩ mm hmm
      have hk : mm.val < 1024 := by simpa using hmm
      have := h ⟨mm.val, hk⟩
      rw [tdist_blocks] at this
      convert this using 2
      exact Fin.ext (by simp)
    · intro h
      refine ⟨le_top, fun k => ?_⟩
      rw [tdist_blocks]
      exact h _ (by simp)
  | succ n ih =>
    intro hn j z
    have hN : n + 1 < 144 := lt_of_lt_of_eq hn (show cfg1.N = 144 from N_1)
    by_cases h0 : (n + 1) % 12 = 0
    · rw [show scAt V c (n + 1) hn = scAt V c (⟨n + 1, hn⟩ : Fin cfg1.N).val (⟨n + 1, hn⟩ : Fin cfg1.N).isLt from rfl,
        scAt_first_pay V c ⟨n + 1, hn⟩ h0, pay2_le_iff, pay1_top]
      constructor
      · rintro ⟨-, h⟩ mm hmm
        have hk : mm.val < 1024 := by rw [h0] at hmm; simpa using hmm
        have := h ⟨mm.val, hk⟩
        rw [tdist_blocks] at this
        convert this using 2
        exact Fin.ext (by simp [h0])
      · intro h
        refine ⟨le_top, fun k => ?_⟩
        rw [tdist_blocks]
        exact h _ (by simp only [h0]; have := k.isLt; omega)
    · rw [show scAt V c (n + 1) hn = scAt V c (⟨n + 1, hn⟩ : Fin cfg1.N).val (⟨n + 1, hn⟩ : Fin cfg1.N).isLt from rfl,
        scAt_next_pay V c ⟨n + 1, hn⟩ h0, pay2_le_iff]
      have hprev : scPrev V c ⟨n + 1, hn⟩ = scAt V c n (Nat.lt_of_succ_lt hn) := rfl
      rw [hprev, ih (Nat.lt_of_succ_lt hn) j z]
      have hdiv : n / 12 = (n + 1) / 12 := by omega
      have hmod : n % 12 + 1 = (n + 1) % 12 := by omega
      constructor
      · rintro ⟨hold, hnew⟩ mm hmm
        by_cases hlt : mm.val < 1024 * ((n + 1) % 12)
        · have := hold mm (by rw [hmod]; exact hlt)
          convert this using 2
          exact Fin.ext (by simp [hdiv])
        · have hk : mm.val - 1024 * ((n + 1) % 12) < 1024 := by omega
          have := hnew ⟨mm.val - 1024 * ((n + 1) % 12), hk⟩
          rw [tdist_blocks] at this
          convert this using 2
          exact Fin.ext (by simp; omega)
      · intro h
        refine ⟨fun mm hmm => ?_, fun k => ?_⟩
        · have := h mm (by rw [← hmod]; omega)
          convert this using 2
          exact Fin.ext (by simp [hdiv])
        · rw [tdist_blocks]
          exact h _ (by simp only; have := k.isLt; omega)

/-- THE OUTPUT ARRAY. Entry `q` after the run is below-bounded by exactly the distances from query point `q` to all the
    candidate points. -/
theorem oArr_le_iff (c : Dev nD) (q : Fin 12288) (z : EReal) :
    z ≤ oArr V c (ix2 0 q) ↔ ∀ mm : Fin 12288, z ≤ gdist V c q mm := by
  refine oArr_forall V c (fun q v => ∀ z : EReal, z ≤ v ↔ ∀ mm : Fin 12288, z ≤ gdist V c q mm) ?_ q z
  intro t ht j z
  rw [outAt_last_pay V c t ht, scAt_le_iff V c t.val t.isLt j z]
  constructor
  · intro h mm; exact h mm (by rw [ht]; exact mm.isLt)
  · intro h mm _; exact h mm

end Cert.KernelIdeal.Rg1

end
-- ==== Proof.KI.Run.lean ====
/-
  The whole run of the program on a core: two transposes, the first nearest-neighbour call, a reshape, the second call,
  and the closing host operations (a reshape, two means and their sum).

  Between two items the core holds every unscoped buffer whole, at a valuation: the launch memory `W0`; after the
  transposes `W1`; after the first call `W2`, which is `W1` with the call's arrays at what its write-backs leave; after
  the reshape `W3`; after the second call `W4`; after the closing operations `W5`. Each call is a pipeline region entered
  from one valuation and left at the next; the host stretches move the valuation along their folds. The run theorem
  says every weakly fair execution ends, faulting nowhere, with every unscoped buffer at `W5`. Read at the argument
  arrays, which no item writes, that is the frame; read at the result buffers it is what the value claim starts from.
-/
import proofs.«109253_j35192962023870_1_alg».proof.Proof.KI.R0.Frame
import proofs.«109253_j35192962023870_1_alg».proof.Proof.KI.R1.Frame
import proofs.«109253_j35192962023870_1_alg».proof.Proof.Gen.KernelIdeal.Regions
import proofs.«109253_j35192962023870_1_alg».proof.Proof.LibRegionHeld

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
/-- After the two transposes. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the first call: its arrays at what the write-backs leave, every other buffer as it was. -/
def W2 (c : Dev nD) : Valuation τ sig (Elt F) :=
  Pipeline.withArrays spec0 c (W1 m c) fun w => (Rg0.dat (U1 m) c).arrAt w cfg0.N
abbrev U2 : (c : Dev nD) → (b : Ref sig .tc) → Buf (Elt F) ((c : Thread nD τ).loc b) := fun c b => W2 m c b
/-- After the reshape of the first call's result. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (Rg1.dat (U3 m) c).arrAt w cfg1.N
abbrev U4 : (c : Dev nD) → (b : Ref sig .tc) → Buf (Elt F) ((c : Thread nD τ).loc b) := fun c b => W4 m c b
/-- After the closing host operations. -/
abbrev W5 : Dev nD → Valuation τ sig (Elt F) := fun c => StableHlo.after hostOps2 (W4 m c)

theorem W2_arr (c : Dev nD) (w : Fin cfg0.W) :
    W2 m c (Proc.devRef .tc (Pipeline.arrRef spec0 w)) = (Rg0.dat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (Rg1.dat (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- A buffer the transposes do not write is as launched after them; likewise for the other two host stretches. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-! ## The proof data family and the regions -/

/-- Both calls' proof data, each over the valuation its region is entered from. -/
def pdats : (p : Fin 2) → (c : Dev nD) → Dat τ (Elt F) Unit ℕ (UR sig nD τ) ℕ (Pipeline.pin (pcfgs (F := F)) adm p) c
  | ⟨0, _⟩ => fun c => Rg0.dat (U1 m) c
  | ⟨1, _⟩ => fun c => Rg1.dat (U3 m) c

/-- No core owes another anything: no level is assigned. -/
abbrev L : GSem nD τ sig → Finset Unit := fun _ => ∅
abbrev lv : GSem nD τ sig → Unit → ℕ := fun _ _ => 0

set_option backward.isDefEq.respectTransparency.types false in
/-- The first call as a region, entered from `W1` and left at `W2`. -/
def reg0 : Pipeline.RegionSeg (pcfgs (F := F)) adm (pdats m) () defs₀ Variants.none L lv 0 :=
  Pipeline.RegionSeg.ofHeld (pcfgs (F := F)) adm (pdats m) defs₀ Variants.none L lv 0
    winFacts0 block_pos0 arr_whole0 stage_whole0
    (fun c => Pipeline.emp_prefHeld_of_no_table _ rfl c _ _)
    (fun c => Rg0.body_obligation (U1 m) c)
    (fun _ _ => rfl) (fun _ _ => rfl) (fun _ => rfl)
    (W1 m) (W2 m)
    (fun c w => Rg0.A_eq (U1 m) c w)
    (fun c w => (W2_arr m c w).symm)
    (fun c b hb => W2_of_ne m c b fun w e => hb (Finset.mem_image.mpr ⟨w, Finset.mem_univ _, e⟩))
    (fun c => Rg0.hin (U1 m) c) (fun c => Rg0.hout (U1 m) c)

set_option backward.isDefEq.respectTransparency.types false in
/-- The second call as a region, entered from `W3` and left at `W4`. -/
def reg1 : Pipeline.RegionSeg (pcfgs (F := F)) adm (pdats m) () defs₀ Variants.none L lv 1 :=
  Pipeline.RegionSeg.ofHeld (pcfgs (F := F)) adm (pdats m) defs₀ Variants.none L lv 1
    winFacts1 block_pos1 arr_whole1 stage_whole1
    (fun c => Pipeline.emp_prefHeld_of_no_table _ rfl c _ _)
    (fun c => Rg1.body_obligation (U3 m) c)
    (fun _ _ => rfl) (fun _ _ => rfl) (fun _ => rfl)
    (W3 m) (W4 m)
    (fun c w => Rg1.A_eq (U3 m) c w)
    (fun c w => (W4_arr m c w).symm)
    (fun c b hb => W4_of_ne m c b fun w e => hb (Finset.mem_image.mpr ⟨w, Finset.mem_univ _, e⟩))
    (fun c => Rg1.hin (U3 m) c) (fun c => Rg1.hout (U3 m) c)

/-- A host stretch as a segment over the unscoped buffers from the valuation `W`, the generator register and the
    core's empty account riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (fun c => Pipeline.idleRest (Val := Elt F) (U := UR sig nD τ) c)

/-- The program's five items in order. -/
abbrev segs : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program on the cores terminates,
    nothing faulting, and every final memory holds each unscoped buffer at `W5`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Pipeline.idleRest (Val := Elt F) (U := UR sig nD τ) c))
    (Tₙ := fun c => StableHlo.held (c : Thread nD τ) (Pipeline.ucRefs τ sig) (W5 m c))
    (hch := ⟨fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The frame: no item writes an argument array -/

theorem W5_main_arg0 (c : Dev nD) : W5 m c main_arg0 = m ((c : Thread nD τ).loc main_arg0) :=
  calc W5 m c main_arg0
    _ = W4 m c main_arg0 := W5_of m c main_arg0 (by decide)
    _ = W3 m c main_arg0 := (W4_arr m c 1).trans (((Rg1.dat (U3 m) c).arrAt_in 1 rfl _).trans (Rg1.A_eq (U3 m) c 1))
    _ = W2 m c main_arg0 := W3_of m c main_arg0 (by decide)
    _ = W1 m c main_arg0 := W2_of_ne m c main_arg0 (by decide)
    _ = W0 m c main_arg0 := W1_of m c main_arg0 (by decide)
    _ = m ((c : Thread nD τ).loc main_arg0) := rfl

theorem W5_main_arg1 (c : Dev nD) : W5 m c main_arg1 = m ((c : Thread nD τ).loc main_arg1) :=
  calc W5 m c main_arg1
    _ = W4 m c main_arg1 := W5_of m c main_arg1 (by decide)
    _ = W3 m c main_arg1 := W4_of_ne m c main_arg1 (by decide)
    _ = W2 m c main_arg1 := W3_of m c main_arg1 (by decide)
    _ = W1 m c main_arg1 := (W2_arr m c 1).trans (((Rg0.dat (U1 m) c).arrAt_in 1 rfl _).trans (Rg0.A_eq (U1 m) c 1))
    _ = W0 m c main_arg1 := W1_of m c main_arg1 (by decide)
    _ = m ((c : Thread nD τ).loc main_arg1) := rfl

/-- The frame claim's statement, at any instance: the program runs and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_main m ρ)

end Cert.KernelIdeal.Whole

end
-- ==== Proof.KI.HostReads.lean ====
/-
  The host operations of the kernel's program, read off the valuations between its items: the two transposes that feed
  the calls, the reshapes of the calls' one-row results into vectors, and the closing means and their sum.
-/
import proofs.«109253_j35192962023870_1_alg».proof.Proof.KI.Run
import Idealize.ShloMosaic.Lib.ValueIdx
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## Each stretch's result buffers, as the operations' terms of the valuation before the stretch -/

/-- After the transposes the first call's query array is the first argument's transpose. -/
theorem W1_v0_eq (c : Dev nD) :
    (W1 m c main_v0 : Vec F S3x12288 .f32)
      = transpose S3x12288 [1, 0] (m ((c : Thread nD τ).loc main_arg0) : Vec F S12288x3 .f32) transposes_S12288x3_S3x12288_1_0 := by
  show StableHlo.after hostOps0 (W0 m c) (Proc.devRef .tc main_v0) = _
  after_results

/-- The second argument's transpose is written by the first stretch and touched by nothing up to the second call. -/
theorem W3_v1_eq (c : Dev nD) :
    (W3 m c main_v1 : Vec F S3x12288 .f32)
      = transpose S3x12288 [1, 0] (m ((c : Thread nD τ).loc main_arg1) : Vec F S12288x3 .f32) transposes_S12288x3_S3x12288_1_0 := by
  have e : W3 m c main_v1 = W1 m c main_v1 :=
    (W3_of m c main_v1 (by decide)).trans (W2_of_ne m c main_v1 (by decide))
  rw [e]
  show StableHlo.after hostOps0 (W0 m c) (Proc.devRef .tc main_v1) = _
  after_results

/-- The first call's one-row result, cast to a vector. -/
theorem W3_v3_eq (c : Dev nD) :
    (W3 m c main_v3 : Vec F S12288 .f32)
      = shapeCast S12288 (W2 m c main_v2 : Vec F S1x12288 .f32) shapeCasts_S1x12288_S12288 := by
  show StableHlo.after hostOps1 (W2 m c) (Proc.devRef .tc main_v3) = _
  after_results
  rfl

/-- The second call's one-row result, cast to a vector. -/
theorem W5_v5_eq (c : Dev nD) :
    (W5 m c main_v5 : Vec F S12288 .f32)
      = shapeCast S12288 (W4 m c main_v4 : Vec F S1x12288 .f32) shapeCasts_S1x12288_S12288 := by
  show StableHlo.after hostOps2 (W4 m c) (Proc.devRef .tc main_v5) = _
  after_results
  rfl

/-- The closing stretch's last operation adds the results of its fifth and ninth, from any valuation. -/
theorem ops2_v10 (V : Valuation τ sig (Elt F)) :
    (StableHlo.after hostOps2 V (Proc.devRef .tc main_v10) : Vec F S_ .f32)
      = addf (StableHlo.after hostOps2 V (Proc.devRef .tc main_v7) : Vec F S_ .f32)
          (StableHlo.after hostOps2 V (Proc.devRef .tc main_v9) : Vec F S_ .f32) := by
  after_results

/-! ## The nine reads -/

/-- The first call's query array is the first argument transposed; -/
theorem W1_v0_apply (c : Dev nD) (a : Fin 3) (q : Fin 12288) :
    (W1 m c main_v0 : Vec F S3x12288 .f32) (ix2 a q) = (m ((c : Thread nD τ).loc main_arg0) : Vec F S12288x3 .f32) (ix2 q a) := by
  rw [W1_v0_eq m c]
  exact transpose_apply [1, 0] _ transposes_S12288x3_S3x12288_1_0 (ix2 a q) (ix2 q a) (fun b => match b with
    | ⟨0, _⟩ => rfl
    | ⟨1, _⟩ => rfl)
/-- its candidate array is the second argument. -/
theorem W1_arg1 (c : Dev nD) : W1 m c main_arg1 = m ((c : Thread nD τ).loc main_arg1) := by
  exact (W1_of m c main_arg1 (by decide)).trans rfl
/-- The second call's query array is the second argument transposed; -/
theorem W3_v1_apply (c : Dev nD) (a : Fin 3) (q : Fin 12288) :
    (W3 m c main_v1 : Vec F S3x12288 .f32) (ix2 a q) = (m ((c : Thread nD τ).loc main_arg1) : Vec F S12288x3 .f32) (ix2 q a) := by
  rw [W3_v1_eq m c]
  exact transpose_apply [1, 0] _ transposes_S12288x3_S3x12288_1_0 (ix2 a q) (ix2 q a) (fun b => match b with
    | ⟨0, _⟩ => rfl
    | ⟨1, _⟩ => rfl)
/-- its candidate array is the first argument. -/
theorem W3_arg0 (c : Dev nD) : W3 m c main_arg0 = m ((c : Thread nD τ).loc main_arg0) := by
  exact calc W3 m c main_arg0
    _ = W2 m c main_arg0 := W3_of m c main_arg0 (by decide)
    _ = W1 m c main_arg0 := W2_of_ne m c main_arg0 (by decide)
    _ = W0 m c main_arg0 := W1_of m c main_arg0 (by decide)
    _ = m ((c : Thread nD τ).loc main_arg0) := rfl

/-- The first call's result as a vector: entry n is the one-row result's entry (0, n). -/
theorem W3_v3_apply (c : Dev nD) (n : Fin 12288) :
    (W3 m c main_v3 : Vec F S12288 .f32) (ix1 n) = (W2 m c main_v2 : Vec F S1x12288 .f32) (ix2 0 n) := by
  rw [W3_v3_eq m c]
  -- entry n of the vector and entry (0, n) of the one-row array sit at the same row-major position
  refine shapeCast_apply _ shapeCasts_S1x12288_S12288 (ix1 n) (ix2 0 n) ?_
  rw [Shape.rowMajor_val_two, Shape.rowMajor_val_one]
  show (0 : Fin 1).val * 12288 + n.val = n.val
  simp
/-- The second call's result as a vector. -/
theorem W5_v5_apply (c : Dev nD) (n : Fin 12288) :
    (W5 m c main_v5 : Vec F S12288 .f32) (ix1 n) = (W4 m c main_v4 : Vec F S1x12288 .f32) (ix2 0 n) := by
  rw [W5_v5_eq m c]
  refine shapeCast_apply _ shapeCasts_S1x12288_S12288 (ix1 n) (ix2 0 n) ?_
  rw [Shape.rowMajor_val_two, Shape.rowMajor_val_one]
  show (0 : Fin 1).val * 12288 + n.val = n.val
  simp

/-- The mean of the first call's result vector: its sum from zero, divided by 12288. -/
theorem W5_v7_eq (c : Dev nD) :
    (W5 m c main_v7 : Vec F S_ .f32)
      = Host.divf (Host.reduceAdd (W3 m c main_v3 : Vec F S12288 .f32) (constant S_ .f32 0x00000000#32) reducesTo_S12288_S_d0 h_S_)
          (constant S_ .f32 0x46400000#32) := by
  have e : (W5 m c main_v7 : Vec F S_ .f32)
      = Host.divf (Host.reduceAdd (W4 m c main_v3 : Vec F S12288 .f32) (constant S_ .f32 0x00000000#32) reducesTo_S12288_S_d0 h_S_)
          (constant S_ .f32 0x46400000#32) := by
    show StableHlo.after hostOps2 (W4 m c) (Proc.devRef .tc main_v7) = _
    after_results
  -- the second call does not touch the first call's result vector
  rw [e, W4_of_ne m c main_v3 (by decide)]
/-- The mean of the second call's result vector. -/
theorem W5_v9_eq (c : Dev nD) :
    (W5 m c main_v9 : Vec F S_ .f32)
      = Host.divf (Host.reduceAdd (W5 m c main_v5 : Vec F S12288 .f32) (constant S_ .f32 0x00000000#32) reducesTo_S12288_S_d0 h_S_)
          (constant S_ .f32 0x46400000#32) := by
  have e : ∀ x : Vec F S12288 .f32, x = (W5 m c main_v5 : Vec F S12288 .f32) → (W5 m c main_v9 : Vec F S_ .f32)
      = Host.divf (Host.reduceAdd x (constant S_ .f32 0x00000000#32) reducesTo_S12288_S_d0 h_S_)
          (constant S_ .f32 0x46400000#32) := by
    intro x hx
    rw [W5_v5_eq m c] at hx
    show StableHlo.after hostOps2 (W4 m c) (Proc.devRef .tc main_v9) = _
    after_results
    rw [hx]
    rfl
  exact e _ rfl
/-- The sum of the two means. -/
theorem W5_v10_eq (c : Dev nD) :
    (W5 m c main_v10 : Vec F S_ .f32) = addf (W5 m c main_v7 : Vec F S_ .f32) (W5 m c main_v9 : Vec F S_ .f32) := by
  exact ops2_v10 (W4 m c)

end Cert.KernelIdeal.Whole

end
-- ==== Proof.RefImports.lean ====
/-
  The reference's run and its stage-by-stage reading, made available to the modules that compare the two programs.
-/
import proofs.«109253_j35192962023870_1_alg».proof.Proof.Gen.ReferenceIdeal.Run
import proofs.«109253_j35192962023870_1_alg».proof.Proof.Gen.ReferenceIdeal.Read
-- ==== Proof.RefMins.lean ====
/-
  The reference's two rows of nearest-neighbour distances, by their universal property, and the finiteness of the
  inputs read off the precondition.
-/
import proofs.«109253_j35192962023870_1_alg».proof.Proof.Spec
import proofs.«109253_j35192962023870_1_alg».proof.Proof.RefImports
import proofs.«109253_j35192962023870_1_alg».proof.Pre_finite_inputs
import proofs.«109253_j35192962023870_1_alg».proof.Proof.Gen.Pre_finite_inputs
import Idealize.ShloMosaic.Lib.ValueIdx
import Idealize.ShloMosaic.Lib.ReduceAll
import Idealize.ShloMosaic.PureOps.Ideal.Laws
import Idealize.ShloMosaic.PureOps.Reduce
import Mathlib.Data.EReal.Basic
import Mathlib.Data.EReal.Operations
import Mathlib.Data.Finset.Fold
import Mathlib.Algebra.BigOperators.Fin
import Mathlib.Tactic.Ring
import Mathlib.Tactic.NormNum

noncomputable section

namespace Cert.RefMins

open Idealize.ShloMosaic Idealize.ShloMosaic.ValueIdx Cert.NN

/-! ## Three literal words -/

/-- The word of the constant two denotes the real number two. -/
theorem two_f32 : Ideal.ofBits .f32 0x40000000#32 = ((2 : ℝ) : EReal) := by
  simp [Ideal.ofBits, Ideal.ieee, -EReal.coe_mul]
  norm_num

/-- The word of plus infinity denotes the top element. -/
theorem top_f32 : Ideal.ofBits .f32 0x7F800000#32 = (⊤ : EReal) := by
  simp [Ideal.ofBits, Ideal.ieee]

/-! ## One entry of the distance matrix

  With real coordinates x = a0[n, ·] and y = a1[m, ·], the reference's entry is the square root of
  max (Σ x² + Σ y² − 2 · Σ x·y, 0), and Σ x² + Σ y² − 2 · Σ x·y = Σ (y − x)² over the reals. -/

open Cert.ReferenceIdeal Cert.ReferenceIdeal.Read in
/-- Entry (n, m) of the reference's distance matrix is the distance from point n of the first cloud to point m of the
    second. -/
theorem v16_eq_dist (a0 a1 : FVec Ideal Cert.ReferenceIdeal.S12288x3 .f32) (h0 : Finite a0) (h1 : Finite a1)
    (n m : Fin 12288) :
    val_main_v16 (F := Ideal) a0 a1 (ix2 n m) = dist a0 a1 n m := by
  -- the composed index maps: row n of the first cloud, row m of the second, coordinate k
  have hA : ∀ k : Fin 3, idx_main_v1 (idx_main_v2 (idx_main_v6 (ix2 n m))) k = ix2 n k := fun k =>
    funext fun a => Fin.ext (by match a with | ⟨0, _⟩ => rfl | ⟨1, _⟩ => rfl)
  have hB : ∀ k : Fin 3, idx_main_v4 (idx_main_v5 (idx_main_v7 (ix2 n m))) k = ix2 m k := fun k =>
    funext fun a => Fin.ext (by match a with | ⟨0, _⟩ => rfl | ⟨1, _⟩ => rfl)
  have hL : ∀ k : Fin 3, lidx_main_v10 (ix2 n m) k = ix2 n k := fun k =>
    funext fun a => Fin.ext (by match a with | ⟨0, _⟩ => rfl | ⟨1, _⟩ => rfl)
  have hR : ∀ k : Fin 3, idx_main_v9 (ridx_main_v10 (ix2 n m) k) = ix2 m k := fun k =>
    funext fun a => Fin.ext (by match a with | ⟨0, _⟩ => rfl | ⟨1, _⟩ => rfl)
  rw [val_main_v16_apply, val_main_v15_apply, val_main_v13_apply, val_main_v8_apply, val_main_v6_apply,
    val_main_v2_apply, val_main_v1_apply, val_main_v7_apply, val_main_v5_apply, val_main_v4_apply,
    val_main_v12_apply, val_main_v11_apply, val_main_cst_1_apply, val_main_v10_apply, val_main_v14_apply,
    val_main_cst_2_apply, val_main_cst_apply, val_main_cst_0_apply]
  simp only [val_main_v0_apply, val_main_v3_apply, val_main_v9_apply, hA, hB, hL, hR]
  -- the six coordinates as real numbers
  obtain ⟨x0, hx0⟩ := h0 (ix2 n 0)
  obtain ⟨x1, hx1⟩ := h0 (ix2 n 1)
  obtain ⟨x2, hx2⟩ := h0 (ix2 n 2)
  obtain ⟨y0, hy0⟩ := h1 (ix2 m 0)
  obtain ⟨y1, hy1⟩ := h1 (ix2 m 1)
  obtain ⟨y2, hy2⟩ := h1 (ix2 m 2)
  simp only [Fin.sum_univ_three, NN.dist, NN.sq, hx0, hx1, hx2, hy0, hy1, hy2, Ideal.hostUnary_sqrt_def,
    Ideal.maximumf_def, Ideal.subf_def, Ideal.addf_def, Ideal.mulf_def, Ideal.ofBits_def, Ideal.ofBits_zero_f32, two_f32]
  -- both sides are the square root of max (↑r, 0) for a real r; the two real numbers agree
  simp only [zero_add, ← EReal.coe_mul, ← EReal.coe_add, ← EReal.coe_sub]
  refine congrArg (fun t : ℝ => Ideal.sqrt (max (t : EReal) 0)) ?_
  ring

/-- Over real coordinates the sum of squared differences does not see which point is subtracted from which. -/
theorem dist_swap (q r : Pts) (hq : Finite q) (hr : Finite r) (n m : Fin 12288) : dist q r n m = dist r q m n := by
  obtain ⟨x0, hx0⟩ := hq (ix2 n 0)
  obtain ⟨x1, hx1⟩ := hq (ix2 n 1)
  obtain ⟨x2, hx2⟩ := hq (ix2 n 2)
  obtain ⟨y0, hy0⟩ := hr (ix2 m 0)
  obtain ⟨y1, hy1⟩ := hr (ix2 m 1)
  obtain ⟨y2, hy2⟩ := hr (ix2 m 2)
  simp only [NN.dist, NN.sq, hx0, hx1, hx2, hy0, hy1, hy2, ← EReal.coe_sub, ← EReal.coe_mul, ← EReal.coe_add]
  refine congrArg (fun t : ℝ => Ideal.sqrt (max (t : EReal) (Ideal.ofBits .f32 0x00000000#32))) ?_
  ring

/-! ## A fold by minimum, and the precondition's element fact -/

/-- Below a fold by minimum: below the initial value and below every term. -/
theorem le_fold_minimumf {ι : Type} (s : Finset ι) (b : EReal) (f : ι → EReal) (z : EReal) :
    z ≤ s.fold (FloatOps.minimumf (F := Ideal) (φ := .f32)) b f ↔ z ≤ b ∧ ∀ x ∈ s, z ≤ f x :=
  Finset.le_fold_min z

/-- The scalar shape has one index. -/
instance : Subsingleton Cert.Pre_finite_inputs.S_.Idx := ⟨fun a b => funext fun d => d.elim0⟩

/-- An extended real whose absolute value compares below plus infinity is a real number. -/
theorem real_of_abs_lt (x : EReal)
    (h : Ideal.cmp .olt (max x (-x)) (Ideal.ofBits .f32 0x7F800000#32) = 1#1) : ∃ v : ℝ, x = (v : EReal) := by
  rw [top_f32] at h
  have h' : max x (-x) < ⊤ := by
    by_contra hc
    have : Ideal.cmp .olt (max x (-x)) ⊤ = 0#1 := by simp [Ideal.cmp, hc]
    rw [this] at h
    exact absurd h (by decide)
  induction x using EReal.rec with
  | bot => simp at h'
  | coe v => exact ⟨v, rfl⟩
  | top => simp at h'

/-- Under the precondition every coordinate of both inputs is a real number. -/
theorem finite_of_pre (a0 a1 : FVec Ideal Cert.Pre_finite_inputs.S12288x3 .f32)
    (h : Cert.Pre_finite_inputs.fn (F := Ideal) a0 a1 = fun _ => 1#1) : Finite a0 ∧ Finite a1 := by
  -- the precondition is the conjunction of two reductions by "and", one per input
  have e := congrFun h ValueIdx.ix0
  dsimp only [Cert.Pre_finite_inputs.fn] at e
  obtain ⟨e0, e1⟩ := IntOp.andi_eq_one.1 e
  refine ⟨fun i => ?_, fun i => ?_⟩
  · exact real_of_abs_lt _ (Host.reduce_andi_all _ _ _ _ _ e0 i)
  · exact real_of_abs_lt _ (Host.reduce_andi_all _ _ _ _ _ e1 i)

/-- The reference's nearest distance from point `n` of the first input to the second input's points. -/
theorem v17_le_iff (a0 a1 : FVec Ideal Cert.ReferenceIdeal.S12288x3 .f32) (h0 : Finite a0) (h1 : Finite a1)
    (n : Fin 12288) (z : EReal) :
    z ≤ Cert.ReferenceIdeal.Read.val_main_v17 (F := Ideal) a0 a1 (ix1 n) ↔ ∀ m : Fin 12288, z ≤ dist a0 a1 n m := by
  have hr : Cert.ReferenceIdeal.S12288x12288.Reduces [1] Cert.ReferenceIdeal.S12288 := by decide
  -- row n with column m inserted is the index (n, m)
  have hl : ∀ m : Fin 12288, hr.lift (ix1 n) m = ix2 n m := fun m =>
    funext fun c => Fin.ext (by match c with | ⟨0, _⟩ => rfl | ⟨1, _⟩ => rfl)
  unfold Cert.ReferenceIdeal.Read.val_main_v17
  rw [Host.reduce_eq_fold_single FloatOps.minimumf _ _ _ hr, le_fold_minimumf,
    Cert.ReferenceIdeal.Read.val_main_cst_3_apply, Ideal.ofBits_def, top_f32]
  simp only [le_top, true_and, Finset.mem_univ, forall_true_left, Function.comp]
  refine forall_congr' fun m => ?_
  rw [hl m, v16_eq_dist a0 a1 h0 h1 n m]

/-- The reference's nearest distance from point `m` of the second input to the first input's points. -/
theorem v18_le_iff (a0 a1 : FVec Ideal Cert.ReferenceIdeal.S12288x3 .f32) (h0 : Finite a0) (h1 : Finite a1)
    (m : Fin 12288) (z : EReal) :
    z ≤ Cert.ReferenceIdeal.Read.val_main_v18 (F := Ideal) a0 a1 (ix1 m) ↔ ∀ n : Fin 12288, z ≤ dist a1 a0 m n := by
  have hr : Cert.ReferenceIdeal.S12288x12288.Reduces [0] Cert.ReferenceIdeal.S12288 := by decide
  -- column m with row n inserted is the index (n, m)
  have hl : ∀ n : Fin 12288, hr.lift (ix1 m) n = ix2 n m := fun n =>
    funext fun c => Fin.ext (by match c with | ⟨0, _⟩ => rfl | ⟨1, _⟩ => rfl)
  unfold Cert.ReferenceIdeal.Read.val_main_v18
  rw [Host.reduce_eq_fold_single FloatOps.minimumf _ _ _ hr, le_fold_minimumf,
    Cert.ReferenceIdeal.Read.val_main_cst_4_apply, Ideal.ofBits_def, top_f32]
  simp only [le_top, true_and, Finset.mem_univ, forall_true_left, Function.comp]
  refine forall_congr' fun n => ?_
  rw [hl n, v16_eq_dist a0 a1 h0 h1 n m, dist_swap a0 a1 h0 h1 n m]

end Cert.RefMins

end
-- ==== Proof.KI.Results.lean ====
/-
  The kernel program's four results are the reference's, at the exact reading and under finite inputs.

  The first call's queries are the first argument's points and its candidates the second's, so its output entry n is
  the least distance from point n of the first argument to the points of the second: the universal property that also
  characterises the reference's row minimum; the second call likewise with the roles swapped against the reference's
  column minimum. Two extended reals with the same lower bounds are equal. The two means and their sum are then the
  same host operations applied to equal vectors.
-/
import proofs.«109253_j35192962023870_1_alg».proof.Proof.KI.R0.Value
import proofs.«109253_j35192962023870_1_alg».proof.Proof.KI.R1.Value
import proofs.«109253_j35192962023870_1_alg».proof.Proof.KI.HostReads
import proofs.«109253_j35192962023870_1_alg».proof.Proof.RefMins

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.NN

variable (m : (ℓ : Loc nD τ sig) → Buf (Elt Ideal) ℓ)

/-- The two argument clouds on core `c`. -/
abbrev a0 (c : Dev nD) : Pts := m ((c : Thread nD τ).loc main_arg0)
abbrev a1 (c : Dev nD) : Pts := m ((c : Thread nD τ).loc main_arg1)

/-- The first call measures from the first argument's points to the second's. -/
theorem gdist0_eq (c : Dev nD) (q mm : Fin 12288) : Rg0.gdist (U1 m) c q mm = dist (a0 m c) (a1 m c) q mm := by
  have hq : ∀ (k : Fin 3), Rg0.qArr (U1 m) c (ix2 k q) = a0 m c (ix2 q k) := fun k => W1_v0_apply m c k q
  have hr : ∀ (k : Fin 3), Rg0.rArr (U1 m) c (ix2 mm k) = a1 m c (ix2 mm k) := fun k => congrFun (W1_arg1 m c) (ix2 mm k)
  unfold Rg0.gdist Cert.NN.dist
  rw [hq 0, hq 1, hq 2, hr 0, hr 1, hr 2]

/-- The second call measures from the second argument's points to the first's. -/
theorem gdist1_eq (c : Dev nD) (q mm : Fin 12288) : Rg1.gdist (U3 m) c q mm = dist (a1 m c) (a0 m c) q mm := by
  have hq : ∀ (k : Fin 3), Rg1.qArr (U3 m) c (ix2 k q) = a1 m c (ix2 q k) := fun k => W3_v1_apply m c k q
  have hr : ∀ (k : Fin 3), Rg1.rArr (U3 m) c (ix2 mm k) = a0 m c (ix2 mm k) := fun k => congrFun (W3_arg0 m c) (ix2 mm k)
  unfold Rg1.gdist Cert.NN.dist
  rw [hq 0, hq 1, hq 2, hr 0, hr 1, hr 2]

/-- The first call's result vector is the reference's row of nearest distances from the first argument's points. -/
theorem v3_eq (c : Dev nD) (h0 : Finite (a0 m c)) (h1 : Finite (a1 m c)) :
    (W3 m c main_v3 : Vec Ideal S12288 .f32) = Cert.ReferenceIdeal.Read.val_main_v17 (F := Ideal) (a0 m c) (a1 m c) := by
  funext i
  obtain ⟨n, rfl⟩ : ∃ n : Fin 12288, i = ix1 n := ⟨i 0, eq_ix1 i⟩
  refine eq_of_forall_le_iff (α := EReal) fun z => ?_
  rw [W3_v3_apply m c n, Cert.RefMins.v17_le_iff (a0 m c) (a1 m c) h0 h1 n z]
  have hW : (W2 m c main_v2 : Vec Ideal S1x12288 .f32) = Rg0.oArr (U1 m) c := W2_arr m c 2
  rw [hW, Rg0.oArr_le_iff (U1 m) c n z]
  exact forall_congr' fun mm => by rw [gdist0_eq]

/-- The second call's result vector is the reference's row of nearest distances from the second argument's points. -/
theorem v5_eq (c : Dev nD) (h0 : Finite (a0 m c)) (h1 : Finite (a1 m c)) :
    (W5 m c main_v5 : Vec Ideal S12288 .f32) = Cert.ReferenceIdeal.Read.val_main_v18 (F := Ideal) (a0 m c) (a1 m c) := by
  funext i
  obtain ⟨n, rfl⟩ : ∃ n : Fin 12288, i = ix1 n := ⟨i 0, eq_ix1 i⟩
  refine eq_of_forall_le_iff (α := EReal) fun z => ?_
  rw [W5_v5_apply m c n, Cert.RefMins.v18_le_iff (a0 m c) (a1 m c) h0 h1 n z]
  have hW : (W4 m c main_v4 : Vec Ideal S1x12288 .f32) = Rg1.oArr (U3 m) c := W4_arr m c 2
  rw [hW, Rg1.oArr_le_iff (U3 m) c n z]
  exact forall_congr' fun mm => by rw [gdist1_eq]

/-- The first mean. -/
theorem v7_eq (c : Dev nD) (h0 : Finite (a0 m c)) (h1 : Finite (a1 m c)) :
    (W5 m c main_v7 : Vec Ideal S_ .f32) = Cert.ReferenceIdeal.Read.val_main_v20 (F := Ideal) (a0 m c) (a1 m c) := by
  rw [W5_v7_eq m c, v3_eq m c h0 h1]; rfl

/-- The second mean. -/
theorem v9_eq (c : Dev nD) (h0 : Finite (a0 m c)) (h1 : Finite (a1 m c)) :
    (W5 m c main_v9 : Vec Ideal S_ .f32) = Cert.ReferenceIdeal.Read.val_main_v22 (F := Ideal) (a0 m c) (a1 m c) := by
  rw [W5_v9_eq m c, v5_eq m c h0 h1]; rfl

/-- Their sum. -/
theorem v10_eq (c : Dev nD) (h0 : Finite (a0 m c)) (h1 : Finite (a1 m c)) :
    (W5 m c main_v10 : Vec Ideal S_ .f32) = Cert.ReferenceIdeal.Read.val_main_v23 (F := Ideal) (a0 m c) (a1 m c) := by
  rw [W5_v10_eq m c, v7_eq m c h0 h1, v9_eq m c h0 h1]; rfl

end Cert.KernelIdeal.Whole

end
-- ==== Proof.lean ====
/-
  The certificate of a two-sided nearest-neighbour (Chamfer) loss: a Pallas kernel program against its jnp reference.

  The kernel program transposes each cloud of 12288 points, runs ONE tiled kernel twice — queries in 12 tiles of 1024
  columns, candidates in 12 tiles of 1024 rows, a running minimum over the candidate tiles kept in a scratch row, reset
  at the first tile and written out at the last —, and takes the two means and their sum on the host. Per query point
  and candidate point the kernel forms the sum of the three squared coordinate differences; the reference forms
  |a|² + |b|² − 2 a·b. Over the reals these are one number, so under the precondition (every input finite) the clamped
  square roots agree; over the extended reals they need not, which is where the precondition is used. A minimum over
  all candidates does not depend on how the candidates are grouped into tiles: both sides are characterised by having
  exactly the distances to all candidates as upper constraints on their lower bounds.

  The three frames: each kernel call is a pipeline region whose body obligation is discharged by running the body
  symbolically at each of the three kinds of point (first, middle, last candidate tile); the invariant between points
  carries the scratch row. The reference's frame is its run with the results dropped. The idealization rewrote nothing,
  so the preservation claim is trivial.
-/
import proofs.«109253_j35192962023870_1_alg».proof.Defs
import proofs.«109253_j35192962023870_1_alg».proof.Proof.K.Run
import proofs.«109253_j35192962023870_1_alg».proof.Proof.KI.Results
import proofs.«109253_j35192962023870_1_alg».proof.Proof.Gen.Kernel
import proofs.«109253_j35192962023870_1_alg».proof.Proof.Gen.KernelIdeal
import proofs.«109253_j35192962023870_1_alg».proof.Proof.Gen.ReferenceIdeal
import proofs.«109253_j35192962023870_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Whole.frame m ρ

theorem frame_ki : Cert.frame_KernelIdeal := fun m ρ _ => Cert.KernelIdeal.Whole.frame m ρ

theorem frame_ri : Cert.frame_ReferenceIdeal := fun m ρ _ =>
  (θ_run Cert.ReferenceIdeal.defs _ _).mono (fun _ h c => ⟨(h c).2.2.2.2.1, (h c).2.2.2.2.2⟩)
    (Cert.ReferenceIdeal.Value.run (F := Ideal) m ρ)

/-- Both programs, from memories agreeing on the two clouds, end with the reference's four stage values. -/
theorem algebraic : Cert.algebraic_KernelIdeal_ReferenceIdeal := by
  intro m ρ m' ρ' hpre hagree
  have hfin : ∀ c : Dev Cert.KernelIdeal.nD,
      Cert.NN.Finite (Cert.KernelIdeal.Whole.a0 m c) ∧ Cert.NN.Finite (Cert.KernelIdeal.Whole.a1 m c) :=
    fun c => Cert.RefMins.finite_of_pre _ _ (hpre c)
  refine ⟨fun c => Cert.ReferenceIdeal.Read.val_main_v23 (F := Ideal) (Cert.KernelIdeal.Whole.a0 m c) (Cert.KernelIdeal.Whole.a1 m c),
    fun c => Cert.ReferenceIdeal.Read.val_main_v18 (F := Ideal) (Cert.KernelIdeal.Whole.a0 m c) (Cert.KernelIdeal.Whole.a1 m c),
    fun c => Cert.ReferenceIdeal.Read.val_main_v20 (F := Ideal) (Cert.KernelIdeal.Whole.a0 m c) (Cert.KernelIdeal.Whole.a1 m c),
    fun c => Cert.ReferenceIdeal.Read.val_main_v22 (F := Ideal) (Cert.KernelIdeal.Whole.a0 m c) (Cert.KernelIdeal.Whole.a1 m c), ?_, ?_⟩
  · refine (θ_run Cert.KernelIdeal.defs _ _).mono (fun _ h c => ?_) (Cert.KernelIdeal.Whole.run_main m ρ)
    exact ⟨(h c _ (Cert.KernelIdeal.Whole.mem_uc Cert.KernelIdeal.main_v10 (by decide))).trans (Cert.KernelIdeal.Whole.v10_eq m c (hfin c).1 (hfin c).2),
      (h c _ (Cert.KernelIdeal.Whole.mem_uc Cert.KernelIdeal.main_v5 (by decide))).trans (Cert.KernelIdeal.Whole.v5_eq m c (hfin c).1 (hfin c).2),
      (h c _ (Cert.KernelIdeal.Whole.mem_uc Cert.KernelIdeal.main_v7 (by decide))).trans (Cert.KernelIdeal.Whole.v7_eq m c (hfin c).1 (hfin c).2),
      (h c _ (Cert.KernelIdeal.Whole.mem_uc Cert.KernelIdeal.main_v9 (by decide))).trans (Cert.KernelIdeal.Whole.v9_eq m c (hfin c).1 (hfin c).2),
      (h c _ (Cert.KernelIdeal.Whole.mem_uc Cert.KernelIdeal.main_arg0 (by decide))).trans (Cert.KernelIdeal.Whole.W5_main_arg0 m c),
      (h c _ (Cert.KernelIdeal.Whole.mem_uc Cert.KernelIdeal.main_arg1 (by decide))).trans (Cert.KernelIdeal.Whole.W5_main_arg1 m c)⟩
  · refine (θ_run Cert.ReferenceIdeal.defs _ _).mono (fun _ h c => ?_) (Cert.ReferenceIdeal.Value.run (F := Ideal) m' ρ')
    obtain ⟨h23, h18, h20, h22, hk0, hk1⟩ := h c
    refine ⟨?_, ?_, ?_, ?_, hk0, hk1⟩
    · rw [h23, Cert.ReferenceIdeal.Read.val_main_v23_eq, (hagree c).1, (hagree c).2]
    · rw [h18, Cert.ReferenceIdeal.Read.val_main_v18_eq, (hagree c).1, (hagree c).2]
    · rw [h20, Cert.ReferenceIdeal.Read.val_main_v20_eq, (hagree c).1, (hagree c).2]
    · rw [h22, Cert.ReferenceIdeal.Read.val_main_v22_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
